-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x128 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S128 : Shape := ⟨1, ![128]⟩
abbrev S128x3 : Shape := ⟨2, ![128, 3]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S131072x64 .f32) (main_arg1 : FVec F S128 .f32) (main_arg2 : IVec S128x3 32) (main_arg3 : IVec S128x3 32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S128x3 32 := broadcastInDim S128x3 ![] bcast_S_S128x3 main_c_2
  let main_v10 : IVec S128x3 1 := cmpi .sge main_arg2 main_v9
  let main_c_3 : IVec S_ 1 := constantI S_ 1 1#1
  let main_v11 : IVec S_ 1 := (fun x v => Host.reduce IntOp.andi x v reducesTo_S128x3_S_d0_1 h_S_) main_v10 main_c_3
  let main_v12 : IVec S_ 1 := andi main_v8 main_v11
  let main_c_4 : IVec S_ 32 := constantI S_ 32 64#32
  let main_v13 : IVec S128x3 32 := broadcastInDim S128x3 ![] bcast_S_S128x3 main_c_4
  let main_v14 : IVec S128x3 1 := cmpi .slt main_arg2 main_v13
  let main_c_5 : IVec S_ 1 := constantI S_ 1 1#1
  let main_v15 : IVec S_ 1 := (fun x v => Host.reduce IntOp.andi x v reducesTo_S128x3_S_d0_1 h_S_) main_v14 main_c_5
  fn_part1 (F := F) main_v12 main_v15
-- ==== Kernel.lean ====
abbrev S131072x64 : Shape := ⟨2, ![131072, 64]⟩
abbrev S128 : Shape := ⟨1, ![128]⟩
abbrev S128x3 : Shape := ⟨2, ![128, 3]⟩
abbrev S_ : Shape := ⟨0, ![]⟩
abbrev S3x128 : Shape := ⟨2, ![3, 128]⟩
abbrev S3x128x1 : Shape := ⟨3, ![3, 128, 1]⟩
abbrev S1x1x64 : Shape := ⟨3, ![1, 1, 64]⟩
abbrev S3x128x64 : Shape := ⟨3, ![3, 128, 64]⟩
abbrev S3x64x128 : Shape := ⟨3, ![3, 64, 128]⟩
abbrev S3x1x128 : Shape := ⟨3, ![3, 1, 128]⟩
abbrev S1x128 : Shape := ⟨2, ![1, 128]⟩
abbrev S1x64x128 : Shape := ⟨3, ![1, 64, 128]⟩
abbrev S64x128 : Shape := ⟨2, ![64, 128]⟩
abbrev S64x256 : Shape := ⟨2, ![64, 256]⟩
abbrev S128x256 : Shape := ⟨2, ![128, 256]⟩
abbrev S1x128x64 : Shape := ⟨3, ![1, 128, 64]⟩
abbrev S128x64 : Shape := ⟨2, ![128, 64]⟩
abbrev S128x128 : Shape := ⟨2, ![128, 128]⟩
abbrev S256x128 : Shape := ⟨2, ![256, 128]⟩
abbrev S256 : Shape := ⟨1, ![256]⟩
abbrev S1x256 : Shape := ⟨2, ![1, 256]⟩
abbrev S256x256 : Shape := ⟨2, ![256, 256]⟩
abbrev S256x768 : Shape := ⟨2, ![256, 768]⟩
abbrev S1536x128 : Shape := ⟨2, ![1536, 128]⟩
abbrev S65536x128 : Shape := ⟨2, ![65536, 128]⟩
abbrev S1024x128 : Shape := ⟨2, ![1024, 128]⟩
abbrev S1024x256 : Shape := ⟨2, ![1024, 256]⟩
abbrev S1024x768 : Shape := ⟨2, ![1024, 768]⟩
abbrev S1024x1536 : Shape := ⟨2, ![1024, 1536]⟩

abbrev nBuf : Space → Nat
  | .hbm => 108
  | .vmem => 9
  | .smem => 0
  | _ => 0

abbrev bufTy : (tb : Table) → Fin (tcTables nBuf tb) → BufTy
  | .hbm, ⟨0, _⟩ => ⟨S131072x64, .f32⟩
  | .hbm, ⟨1, _⟩ => ⟨S128, .f32⟩
  | .hbm, ⟨2, _⟩ => ⟨S128x3, .i32⟩
  | .hbm, ⟨3, _⟩ => ⟨S128x3, .i32⟩
  | .hbm, ⟨4, _⟩ => ⟨S_, .i32⟩
  | .hbm, ⟨5, _⟩ => ⟨S128x3, .i32⟩
  | .hbm, ⟨6, _⟩ => ⟨S128x3, .i32⟩
  | .hbm, ⟨7, _⟩ => ⟨S_, .i32⟩
  | .hbm, ⟨8, _⟩ => ⟨S128x3, .i32⟩
  | .hbm, ⟨9, _⟩ => ⟨S128x3, .i32⟩
  | .hbm, ⟨10, _⟩ => ⟨S128x3, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S3x128, .i32⟩
  | .hbm, ⟨20, _⟩ => ⟨S3x128, .f32⟩
  | .hbm, ⟨21, _⟩ => ⟨S3x128x1, .i32⟩
  | .hbm, ⟨22, _⟩ => ⟨S1x1x64, .i32⟩
  | .hbm, ⟨23, _⟩ => ⟨S3x128x64, .i32⟩
  | .hbm, ⟨24, _⟩ => ⟨S3x128x64, .i32⟩
  | .hbm, ⟨25, _⟩ => ⟨S3x128x64, .i1⟩
  | .hbm, ⟨26, _⟩ => ⟨S3x128x64, .f32⟩
  | .hbm, ⟨27, _⟩ => ⟨S3x64x128, .f32⟩
  | .hbm, ⟨28, _⟩ => ⟨S3x1x128, .f32⟩
  | .hbm, ⟨29, _⟩ => ⟨S3x64x128, .f32⟩
  | .hbm, ⟨30, _⟩ => ⟨S3x64x128, .f32⟩
  | .hbm, ⟨31, _⟩ => ⟨S1x128, .f32⟩
  | .hbm, ⟨32, _⟩ => ⟨S3x128, .f32⟩
  | .hbm, ⟨33, _⟩ => ⟨S3x128, .f32⟩
  | .hbm, ⟨34, _⟩ => ⟨S1x64x128, .f32⟩
  | .hbm, ⟨35, _⟩ => ⟨S64x128, .f32⟩
  | .hbm, ⟨36, _⟩ => ⟨S_, .f32⟩
  | .hbm, ⟨37, _⟩ => ⟨S64x128, .f32⟩
  | .hbm, ⟨38, _⟩ => ⟨S64x256, .f32⟩
  | .hbm, ⟨39, _⟩ => ⟨S64x256, .f32⟩
  | .hbm, ⟨40, _⟩ => ⟨S128x256, .f32⟩
  | .hbm, ⟨41, _⟩ => ⟨S128x256, .bf16⟩
  | .hbm, ⟨42, _⟩ => ⟨S1x128x64, .f32⟩
  | .hbm, ⟨43, _⟩ => ⟨S128x64, .f32⟩
  | .hbm, ⟨44, _⟩ => ⟨S_, .f32⟩
  | .hbm, ⟨45, _⟩ => ⟨S128x64, .f32⟩
  | .hbm, ⟨46, _⟩ => ⟨S128x128, .f32⟩
  | .hbm, ⟨47, _⟩ => ⟨S128x128, .f32⟩
  | .hbm, ⟨48, _⟩ => ⟨S256x128, .f32⟩
  | .hbm, ⟨49, _⟩ => ⟨S256x128, .bf16⟩
  | .hbm, ⟨50, _⟩ => ⟨S1x128, .f32⟩
  | .hbm, ⟨51, _⟩ => ⟨S128, .f32⟩
  | .hbm, ⟨52, _⟩ => ⟨S1x128, .f32⟩
  | .hbm, ⟨53, _⟩ => ⟨S128, .f32⟩
  | .hbm, ⟨54, _⟩ => ⟨S256, .f32⟩
  | .hbm, ⟨55, _⟩ => ⟨S1x256, .f32⟩
  | .hbm, ⟨56, _⟩ => ⟨S1x64x128, .f32⟩
  | .hbm, ⟨57, _⟩ => ⟨S64x128, .f32⟩
  | .hbm, ⟨58, _⟩ => ⟨S_, .f32⟩
  | .hbm, ⟨59, _⟩ => ⟨S64x128, .f32⟩
  | .hbm, ⟨60, _⟩ => ⟨S64x256, .f32⟩
  | .hbm, ⟨61, _⟩ => ⟨S64x256, .f32⟩
  | .hbm, ⟨62, _⟩ => ⟨S128x256, .f32⟩
  | .hbm, ⟨63, _⟩ => ⟨S128x256, .bf16⟩
  | .hbm, ⟨64, _⟩ => ⟨S1x128x64, .f32⟩
  | .hbm, ⟨65, _⟩ => ⟨S128x64, .f32⟩
  | .hbm, ⟨66, _⟩ => ⟨S_, .f32⟩
  | .hbm, ⟨67, _⟩ => ⟨S128x64, .f32⟩
  | .hbm, ⟨68, _⟩ => ⟨S128x128, .f32⟩
  | .hbm, ⟨69, _⟩ => ⟨S128x128, .f32⟩
  | .hbm, ⟨70, _⟩ => ⟨S256x128, .f32⟩
  | .hbm, ⟨71, _⟩ => ⟨S256x128, .bf16⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S128, .f32⟩
  | .hbm, ⟨76, _⟩ => ⟨S256, .f32⟩
  | .hbm, ⟨77, _⟩ => ⟨S1x256, .f32⟩
  | .hbm, ⟨78, _⟩ => ⟨S1x64x128, .f32⟩
  | .hbm, ⟨79, _⟩ => ⟨S64x128, .f32⟩
  | .hbm, ⟨80, _⟩ => ⟨S_, .f32⟩
  | .hbm, ⟨81, _⟩ => ⟨S64x128, .f32⟩
  | .hbm, ⟨82, _⟩ => ⟨S64x256, .f32⟩
  | .hbm, ⟨83, _⟩ => ⟨S64x256, .f32⟩
  | .hbm, ⟨84, _⟩ => ⟨S128x256, .f32⟩
  | .hbm, ⟨85, _⟩ => ⟨S128x256, .bf16⟩
  | .hbm, ⟨86, _⟩ => ⟨S1x128x64, .f32⟩
  | .hbm, ⟨87, _⟩ => ⟨S128x64, .f32⟩
  | .hbm, ⟨88, _⟩ => ⟨S_, .f32⟩
  | .hbm, ⟨89, _⟩ => ⟨S128x64, .f32⟩
  | .hbm, ⟨90, _⟩ => ⟨S128x128, .f32⟩
  | .hbm, ⟨91, _⟩ => ⟨S128x128, .f32⟩
  | .hbm, ⟨92, _⟩ => ⟨S256x128, .f32⟩
  | .hbm, ⟨93, _⟩ => ⟨S256x128, .bf16⟩
  | .hbm, ⟨94, _⟩ => ⟨S1x128, .f32⟩
  | .hbm, ⟨95, _⟩ => ⟨S128, .f32⟩
  | .hbm, ⟨96, _⟩ => ⟨S1x128, .f32⟩
  | .hbm, ⟨97, _⟩ => ⟨S128, .f32⟩
  | .hbm, ⟨98, _⟩ => ⟨S256, .f32⟩
  | .hbm, ⟨99, _⟩ => ⟨S1x256, .f32⟩
  | .hbm, ⟨100, _⟩ => ⟨S256x256, .bf16⟩
  | .hbm, ⟨101, _⟩ => ⟨S256x256, .bf16⟩
  | .hbm, ⟨102, _⟩ => ⟨S256x256, .bf16⟩
  | .hbm, ⟨103, _⟩ => ⟨S256x768, .bf16⟩
  | .hbm, ⟨104, _⟩ => ⟨S1536x128, .bf16⟩
  | .hbm, ⟨105, _⟩ => ⟨S65536x128, .f32⟩
  | .hbm, ⟨106, _⟩ => ⟨S65536x128, .f32⟩
  | .hbm, ⟨107, _⟩ => ⟨S131072x64, .f32⟩
  | .local _ .vmem, ⟨0, _⟩ => ⟨S1024x128, .f32⟩
  | .local _ .vmem, ⟨1, _⟩ => ⟨S1024x128, .f32⟩
  | .local _ .vmem, ⟨2, _⟩ => ⟨S256x768, .bf16⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1536x128, .bf16⟩
  | .local _ .vmem, ⟨7, _⟩ => ⟨S1024x128, .f32⟩
  | .local _ .vmem, ⟨8, _⟩ => ⟨S1024x128, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_7 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S128x3 : S_.BroadcastsInDim S128x3 (![] : Fin 0 → Fin S128x3.rank)
  bcast_S_S128 : S_.BroadcastsInDim S128 (![] : Fin 0 → Fin S128.rank)
  transposes_S128x3_S3x128_1_0 : S128x3.Transposes [1, 0] S3x128
  bcast_S3x128_S3x128x1_0_1 : S3x128.BroadcastsInDim S3x128x1 (![0, 1] : Fin 2 → Fin S3x128x1.rank)
  bcast_S3x128x1_S3x128x64_0_1_2 : S3x128x1.BroadcastsInDim S3x128x64 (![0, 1, 2] : Fin 3 → Fin S3x128x64.rank)
  bcast_S1x1x64_S3x128x64_0_1_2 : S1x1x64.BroadcastsInDim S3x128x64 (![0, 1, 2] : Fin 3 → Fin S3x128x64.rank)
  transposes_S3x128x64_S3x64x128_0_2_1 : S3x128x64.Transposes [0, 2, 1] S3x64x128
  bcast_S3x128_S3x1x128_0_2 : S3x128.BroadcastsInDim S3x1x128 (![0, 2] : Fin 2 → Fin S3x1x128.rank)
  bcast_S3x1x128_S3x64x128_0_1_2 : S3x1x128.BroadcastsInDim S3x64x128 (![0, 1, 2] : Fin 3 → Fin S3x64x128.rank)
  bcast_S128_S1x128_1 : S128.BroadcastsInDim S1x128 (![1] : Fin 1 → Fin S1x128.rank)
  bcast_S1x128_S3x128_0_1 : S1x128.BroadcastsInDim S3x128 (![0, 1] : Fin 2 → Fin S3x128.rank)
  slices_S3x64x128_S1x64x128_0_0_0 : S3x64x128.Slices ![0, 0, 0] S1x64x128
  shapeCasts_S1x64x128_S64x128 : S1x64x128.ShapeCasts S64x128
  bcast_S_S64x128 : S_.BroadcastsInDim S64x128 (![] : Fin 0 → Fin S64x128.rank)
  concatenates_S64x128_S64x128_S64x256_d1 : Shape.Concatenates [S64x128, S64x128] S64x256 1
  concatenates_S64x256_S64x256_S128x256_d0 : Shape.Concatenates [S64x256, S64x256] S128x256 0
  bitsLt_bf16_f32 : FTy.bits .bf16 < FTy.bits .f32
  slices_S3x128x64_S1x128x64_0_0_0 : S3x128x64.Slices ![0, 0, 0] S1x128x64
  shapeCasts_S1x128x64_S128x64 : S1x128x64.ShapeCasts S128x64
  bcast_S_S128x64 : S_.BroadcastsInDim S128x64 (![] : Fin 0 → Fin S128x64.rank)
  concatenates_S128x64_S128x64_S128x128_d1 : Shape.Concatenates [S128x64, S128x64] S128x128 1
  concatenates_S128x128_S128x128_S256x128_d0 : Shape.Concatenates [S128x128, S128x128] S256x128 0
  slices_S3x128_S1x128_0_0 : S3x128.Slices ![0, 0] S1x128
  shapeCasts_S1x128_S128 : S1x128.ShapeCasts S128
  concatenates_S128_S128_S256_d0 : Shape.Concatenates [S128, S128] S256 0
  shapeCasts_S256_S1x256 : S256.ShapeCasts S1x256
  slices_S3x64x128_S1x64x128_1_0_0 : S3x64x128.Slices ![1, 0, 0] S1x64x128
  slices_S3x128x64_S1x128x64_1_0_0 : S3x128x64.Slices ![1, 0, 0] S1x128x64
  slices_S3x128_S1x128_1_0 : S3x128.Slices ![1, 0] S1x128
  slices_S3x64x128_S1x64x128_2_0_0 : S3x64x128.Slices ![2, 0, 0] S1x64x128
  slices_S3x128x64_S1x128x64_2_0_0 : S3x128x64.Slices ![2, 0, 0] S1x128x64
  slices_S3x128_S1x128_2_0 : S3x128.Slices ![2, 0] S1x128
  concatenates_S128x256_S128x256_S256x256_d0 : Shape.Concatenates [S128x256, S128x256] S256x256 0
  concatenates_S256x256_S256x256_S256x256_S256x768_d1 : Shape.Concatenates [S256x256, S256x256, S256x256] S256x768 1
  concatenates_S256x128_S256x128_S256x128_S256x128_S256x128_S256x128_S1536x128_d0 : Shape.Concatenates [S256x128, S256x128, S256x128, S256x128, S256x128, S256x128] S1536x128 0
  shapeCasts_S131072x64_S65536x128 : S131072x64.ShapeCasts S65536x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  concatenates_S1024x128_S1024x128_S1024x256_d1 : Shape.Concatenates [S1024x128, S1024x128] S1024x256 1
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  concatenates_S1024x256_S1024x256_S1024x256_S1024x256_S1024x256_S1024x256_S1024x1536_d1 : Shape.Concatenates [S1024x256, S1024x256, S1024x256, S1024x256, S1024x256, S1024x256] S1024x1536 1
  inb_S1536x128_S1536x128_0_0 : ∀ a, (![0, 0] : Fin 2 → Nat) a + S1536x128.size a ≤ S1536x128.size a
  h_S1536x128 : 0 < S1536x128.numel
  shapeCasts_S1536x128_S1536x128 : S1536x128.ShapeCasts S1536x128
  shapeCasts_S65536x128_S131072x64 : S65536x128.ShapeCasts S131072x64
  dot_S1024x256_S256x768_S1024x768_1_0_0_1_n_n_wf : DotDims.WF S1024x256 S256x768 S1024x768 [1] [0] [0] [1] [] []
  dot_S1024x1536_S1536x128_S1024x128_1_0_0_1_n_n_wf : DotDims.WF S1024x1536 S1536x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1536x128.size a ≤ S1536x128.size a
  hwx0_5 : ∀ i : grid0.Coords, EltTy.bits .bf16 = 32 ∨ (Rect.block (s := S1536x128) S1536x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S65536x128.size a
  hwx0_6 : ∀ i : grid0.Coords, EltTy.bits .f32 = 32 ∨ (Rect.block (s := S65536x128) S1024x128.size (cc0_transform_6 i) (hinb0_6 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x1536_S1536x128_S1024x128_1_0_0_1_n_n : DotDims S1024x1536 S1536x128 S1024x128 where
  lhsContracting := [1]
  rhsContracting := [0]
  lhsNonContracting := [0]
  rhsNonContracting := [1]
  lhsBatch := []
  rhsBatch := []
  wf := dot_S1024x1536_S1536x128_S1024x128_1_0_0_1_n_n_wf

abbrev win0_0 : Pipeline.Window sig grid0 :=
  Pipeline.Window.ofSpec (Memref.whole main_v81) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v79) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v75) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v80) S1536x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v82) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x64 : Shape := ⟨2, ![131072, 64]⟩
abbrev S128 : Shape := ⟨1, ![128]⟩
abbrev S128x3 : Shape := ⟨2, ![128, 3]⟩
abbrev S_ : Shape := ⟨0, ![]⟩
abbrev S128x3x1 : Shape := ⟨3, ![128, 3, 1]⟩
abbrev S131072x128x3 : Shape := ⟨3, ![131072, 128, 3]⟩
abbrev S1x128x3 : Shape := ⟨3, ![1, 128, 3]⟩
abbrev S1x128x1 : Shape := ⟨3, ![1, 128, 1]⟩
abbrev S131072x128 : Shape := ⟨2, ![131072, 128]⟩
abbrev S131072x128x1 : Shape := ⟨3, ![131072, 128, 1]⟩
abbrev S131072x384 : Shape := ⟨2, ![131072, 384]⟩
abbrev S384 : Shape := ⟨1, ![384]⟩
abbrev S384x131072 : Shape := ⟨2, ![384, 131072]⟩
abbrev S64x131072 : Shape := ⟨2, ![64, 131072]⟩
abbrev S384x1 : Shape := ⟨2, ![384, 1]⟩

abbrev nBuf : Space → Nat
  | .hbm => 59
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S128, .f32⟩
  | .hbm, ⟨2, _⟩ => ⟨S128x3, .i32⟩
  | .hbm, ⟨3, _⟩ => ⟨S128x3, .i32⟩
  | .hbm, ⟨4, _⟩ => ⟨S_, .i32⟩
  | .hbm, ⟨5, _⟩ => ⟨S128x3, .i32⟩
  | .hbm, ⟨6, _⟩ => ⟨S128x3, .i32⟩
  | .hbm, ⟨7, _⟩ => ⟨S_, .i32⟩
  | .hbm, ⟨8, _⟩ => ⟨S128x3, .i32⟩
  | .hbm, ⟨9, _⟩ => ⟨S128x3, .i32⟩
  | .hbm, ⟨10, _⟩ => ⟨S128x3, .f32⟩
  | .hbm, ⟨11, _⟩ => ⟨S_, .i32⟩
  | .hbm, ⟨12, _⟩ => ⟨S128x3, .i32⟩
  | .hbm, ⟨13, _⟩ => ⟨S128x3, .i1⟩
  | .hbm, ⟨14, _⟩ => ⟨S_, .i32⟩
  | .hbm, ⟨15, _⟩ => ⟨S128x3, .i32⟩
  | .hbm, ⟨16, _⟩ => ⟨S128x3, .i32⟩
  | .hbm, ⟨17, _⟩ => ⟨S128x3, .i32⟩
  | .hbm, ⟨18, _⟩ => ⟨S128x3x1, .i32⟩
  | .hbm, ⟨19, _⟩ => ⟨S131072x128x3, .f32⟩
  | .hbm, ⟨20, _⟩ => ⟨S1x128x3, .f32⟩
  | .hbm, ⟨21, _⟩ => ⟨S131072x128x3, .f32⟩
  | .hbm, ⟨22, _⟩ => ⟨S131072x128x3, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S1x128x3, .f32⟩
  | .hbm, ⟨32, _⟩ => ⟨S1x128x1, .f32⟩
  | .hbm, ⟨33, _⟩ => ⟨S1x128x3, .f32⟩
  | .hbm, ⟨34, _⟩ => ⟨S1x128x3, .f32⟩
  | .hbm, ⟨35, _⟩ => ⟨S_, .f32⟩
  | .hbm, ⟨36, _⟩ => ⟨S131072x128, .f32⟩
  | .hbm, ⟨37, _⟩ => ⟨S_, .f32⟩
  | .hbm, ⟨38, _⟩ => ⟨S131072x128, .f32⟩
  | .hbm, ⟨39, _⟩ => ⟨S131072x128, .f32⟩
  | .hbm, ⟨40, _⟩ => ⟨S131072x128x1, .f32⟩
  | .hbm, ⟨41, _⟩ => ⟨S131072x128x3, .f32⟩
  | .hbm, ⟨42, _⟩ => ⟨S131072x128x3, .f32⟩
  | .hbm, ⟨43, _⟩ => ⟨S131072x128x3, .f32⟩
  | .hbm, ⟨44, _⟩ => ⟨S_, .f32⟩
  | .hbm, ⟨45, _⟩ => ⟨S131072x128, .f32⟩
  | .hbm, ⟨46, _⟩ => ⟨S131072x128x1, .f32⟩
  | .hbm, ⟨47, _⟩ => ⟨S131072x128x3, .f32⟩
  | .hbm, ⟨48, _⟩ => ⟨S131072x128x3, .f32⟩
  | .hbm, ⟨49, _⟩ => ⟨S131072x128x3, .f32⟩
  | .hbm, ⟨50, _⟩ => ⟨S131072x128x3, .f32⟩
  | .hbm, ⟨51, _⟩ => ⟨S131072x384, .f32⟩
  | .hbm, ⟨52, _⟩ => ⟨S384, .i32⟩
  | .hbm, ⟨53, _⟩ => ⟨S384x131072, .f32⟩
  | .hbm, ⟨54, _⟩ => ⟨S_, .f32⟩
  | .hbm, ⟨55, _⟩ => ⟨S64x131072, .f32⟩
  | .hbm, ⟨56, _⟩ => ⟨S384x1, .i32⟩
  | .hbm, ⟨57, _⟩ => ⟨S64x131072, .f32⟩
  | .hbm, ⟨58, _⟩ => ⟨S131072x64, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  bcast_S_S128x3 : S_.BroadcastsInDim S128x3 (![] : Fin 0 → Fin S128x3.rank)
  bcast_S128x3_S128x3x1_0_1 : S128x3.BroadcastsInDim S128x3x1 (![0, 1] : Fin 2 → Fin S128x3x1.rank)
  bcast_S128x3_S1x128x3_1_2 : S128x3.BroadcastsInDim S1x128x3 (![1, 2] : Fin 2 → Fin S1x128x3.rank)
  bcast_S1x128x3_S131072x128x3_0_1_2 : S1x128x3.BroadcastsInDim S131072x128x3 (![0, 1, 2] : Fin 3 → Fin S131072x128x3.rank)
  bcast_S_S128 : S_.BroadcastsInDim S128 (![] : Fin 0 → Fin S128.rank)
  bcast_S128_S1x128x1_1 : S128.BroadcastsInDim S1x128x1 (![1] : Fin 1 → Fin S1x128x1.rank)
  bcast_S1x128x1_S1x128x3_0_1_2 : S1x128x1.BroadcastsInDim S1x128x3 (![0, 1, 2] : Fin 3 → Fin S1x128x3.rank)
  reducesTo_S131072x128x3_S131072x128_d2 : S131072x128x3.ReducesTo [2] S131072x128
  h_S_ : 0 < S_.numel
  bcast_S_S131072x128 : S_.BroadcastsInDim S131072x128 (![] : Fin 0 → Fin S131072x128.rank)
  bcast_S131072x128_S131072x128x1_0_1 : S131072x128.BroadcastsInDim S131072x128x1 (![0, 1] : Fin 2 → Fin S131072x128x1.rank)
  bcast_S131072x128x1_S131072x128x3_0_1_2 : S131072x128x1.BroadcastsInDim S131072x128x3 (![0, 1, 2] : Fin 3 → Fin S131072x128x3.rank)
  shapeCasts_S131072x128x3_S131072x384 : S131072x128x3.ShapeCasts S131072x384
  shapeCasts_S128x3_S384 : S128x3.ShapeCasts S384
  transposes_S131072x384_S384x131072_1_0 : S131072x384.Transposes [1, 0] S384x131072
  bcast_S_S64x131072 : S_.BroadcastsInDim S64x131072 (![] : Fin 0 → Fin S64x131072.rank)
  bcast_S384_S384x1_0 : S384.BroadcastsInDim S384x1 (![0] : Fin 1 → Fin S384x1.rank)
  transposes_S64x131072_S131072x64_1_0 : S64x131072.Transposes [1, 0] S131072x64
  gather_S131072x64_S128x3x1_S131072x128x3_0_1_n_n_1_2_1310721_wf : GatherDims.WF S131072x64 S128x3x1 S131072x128x3 [0] [1] [] [1] [] 2 ![131072, 1]
  scatter_S64x131072_S384x1_S384x131072_1_0_0_1_wf : ScatterDims.WF S64x131072 S384x1 S384x131072 [1] [0] [0] 1

variable [Facts₀]

def gather_S131072x64_S128x3x1_S131072x128x3_0_1_n_n_1_2_1310721 : GatherDims S131072x64 S128x3x1 S131072x128x3 where
  offsetDims := [0]
  collapsedSliceDims := [1]
  operandBatchingDims := []
  startIndicesBatchingDims := []
  startIndexMap := [1]
  indexVectorDim := 2
  sliceSizes := ![131072, 1]
  wf := gather_S131072x64_S128x3x1_S131072x128x3_0_1_n_n_1_2_1310721_wf
def scatter_S64x131072_S384x1_S384x131072_1_0_0_1 : ScatterDims S64x131072 S384x1 S384x131072 where
  updateWindowDims := [1]
  insertedWindowDims := [0]
  scatterDimsToOperandDims := [0]
  indexVectorDim := 1
  wf := scatter_S64x131072_S384x1_S384x131072_1_0_0_1_wf

class Facts : Prop extends Facts₀ where

variable [Facts]
-- ==== Proof.KEntryBits.lean ====
/-
  The state in which the one pipelined region of the kernel's program is entered: the device's buffers after the host
  lines that come before it (the signs, the clipped weights, the one-hot selections and the three tables built from them,
  and the atoms folded two groundings to a row), as one valuation.
-/
import proofs.«409075_j43920335569479_3_alg».proof.Proof.Gen.Kernel.Launch

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The host lines before the region, as one line. -/
abbrev entryLine : List (HloOp τ sig (Elt F)) :=
  List.flatten [hostOps0, hostOps0_1, hostOps0_2, hostOps0_3, hostOps0_4]

/-- Core `c`'s buffer contents when the region is entered. -/
abbrev V0 (c : Dev nD) : Valuation τ sig (Elt F) := StableHlo.after (entryLine (F := F)) (fun b => m (c, b))

/-- The same read at a TensorCore reference. -/
abbrev V (c : Dev nD) (b : Ref sig .tc) : Buf (Elt F) ((c : Thread nD τ).loc b) := V0 m c (Proc.devRef .tc b)

end Cert.Kernel.Hand

end
-- ==== Proof.KFrameBits.lean ====
/-
  The frame of the kernel's program. @main is five stretches of host lines, ONE pipelined region over a grid of 64 points
  with seven windows, and a closing reshape. Window 0 (a 1024×128 block of a 65536×128 array) moves with the point and is
  fetched at every point; windows 1 to 5 (a 256×768 table, three 1×256 rows, a 1536×128 table) are whole arrays fetched
  once, at the first point; window 6 (a 1024×128 block of the 65536×128 result) is written back at every point. The body
  loads the six input blocks, loads its output buffer (the value is not used), and stores one whole block, `outBlk` of
  the six.

  Proved here: the body's triple on whole staging buffers; the pipeline's proof data (each input's buffer at its block at
  every point, the output's at `outBlk` of the blocks); the body obligation at every point; that @main, from any memory
  with zero counters, runs to the end with every array of the pipeline at what the proof data computes; and the frame:
  the four argument arrays end as launched, since no window stages one and every host line writes only its own result.
-/
import proofs.«409075_j43920335569479_3_alg».proof.Proof.KEntryBits
import proofs.«409075_j43920335569479_3_alg».proof.Proof.Gen.Kernel.Skeleton
import proofs.«409075_j43920335569479_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- what one grid point stores: the body's one stored value as a function of its six loaded blocks -/
def outBlk (x0 : Vec F S1024x128 .f32) (g : Vec F S256x768 .bf16) (s0 s1 s2 : Vec F S1x256 .f32) (st : Vec F S1536x128 .bf16) :
    Vec F S1024x128 .f32 :=
  k0_pay1 (k0_pay13 x0 g s2) (k0_pay14 x0 g s0) (k0_pay15 x0 g s0) (k0_pay16 x0 g s1) (k0_pay17 x0 g s1) st

/-- the two-coordinate offset written out is the zero offset -/
theorem offset00_eq_zero : (![0, 0] : Fin 2 → Nat) = fun _ => 0 := by funext a; fin_cases a <;> rfl

/-! ## The body's triple -/

set_option maxHeartbeats 1000000 in
/-- The kernel body on whole staging memrefs, the six inputs' at read contents and the output's at anything, runs to
    the continuation holding the inputs' as they were and the output's at `outBlk` of the inputs: the five input loads of
    the body's first part, the load of the 1536×128 table, the load of the output buffer (its value unused), and the one whole-block store. -/
theorem sound_kernel (c : Dev nD) (E : Set ℕ) (i : grid0.Coords)
    (a1 : Memref sig .tc .vmem S1024x128 .f32) (h1 : a1.IsWhole)
    (a2 : Memref sig .tc .vmem S256x768 .bf16) (h2 : a2.IsWhole)
    (a3 : Memref sig .tc .vmem S1x256 .f32) (h3 : a3.IsWhole)
    (a4 : Memref sig .tc .vmem S1x256 .f32) (h4 : a4.IsWhole)
    (a5 : Memref sig .tc .vmem S1x256 .f32) (h5 : a5.IsWhole)
    (a6 : Memref sig .tc .vmem S1536x128 .bf16) (h6 : a6.IsWhole)
    (a7 : Memref sig .tc .vmem S1024x128 .f32) (h7 : a7.IsWhole)
    (x0 : Vec F S1024x128 .f32) (g : Vec F S256x768 .bf16) (s0 s1 s2 : Vec F S1x256 .f32) (st : Vec F S1536x128 .bf16)
    (K : PUnit → sProp 𝕄) :
    iprop(owns (c : Thread nD τ) a1 fullShare x0 ∗ owns (c : Thread nD τ) a2 fullShare g
        ∗ owns (c : Thread nD τ) a3 fullShare s0 ∗ owns (c : Thread nD τ) a4 fullShare s1
        ∗ owns (c : Thread nD τ) a5 fullShare s2 ∗ owns (c : Thread nD τ) a6 fullShare st
        ∗ (∃ d, owns (c : Thread nD τ) a7 fullShare d)
        ∗ (iprop(owns (c : Thread nD τ) a1 fullShare x0 ∗ owns (c : Thread nD τ) a2 fullShare g
            ∗ owns (c : Thread nD τ) a3 fullShare s0 ∗ owns (c : Thread nD τ) a4 fullShare s1
            ∗ owns (c : Thread nD τ) a5 fullShare s2 ∗ owns (c : Thread nD τ) a6 fullShare st
            ∗ owns (c : Thread nD τ) a7 fullShare (outBlk x0 g s0 s1 s2 st)) -∗ K ⟨⟩))
      ⊢ wp frame (wpE (defs₀ (F := F)) Variants.none c none) E (cc0__kernel i a1 h1 a2 h2 a3 h3 a4 h4 a5 h5 a6 h6 a7 h7) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  iexists _; isplitr
  swap
  · iexact H7
  ipureintro
  -- the one store covers the block, so the buffer reads the stored value
  refine (View.read_writes_eq_canon _ _ _ (fun y => View.cover_of_tiled [⟨Rect.unit (s := S1024x128) ![0, 0] S1024x128.size inb_S1024x128_S1024x128_0_0, _⟩] S1024x128.size (by rfl) y)).trans ?_
  refine (View.canon_unit_zero (S := S1024x128) offset00_eq_zero inb_S1024x128_S1024x128_0_0 _).trans ?_
  -- each load is of a whole block: it reads the buffer's contents
  have e1 : View.readAt (Elt F) a1.view (Rect.unit (s := S1024x128) ![0, 0] S1024x128.size inb_S1024x128_S1024x128_0_0).toLoadRect f1 = View.read (Elt F) a1.view f1 :=
    View.ld_unit_zero (S := S1024x128) offset00_eq_zero inb_S1024x128_S1024x128_0_0 _
  have e2 : View.readAt (Elt F) a2.view (Rect.unit (s := S256x768) ![0, 0] S256x768.size inb_S256x768_S256x768_0_0).toLoadRect f2 = View.read (Elt F) a2.view f2 :=
    View.ld_unit_zero (S := S256x768) offset00_eq_zero inb_S256x768_S256x768_0_0 _
  have e3 : View.readAt (Elt F) a3.view (Rect.unit (s := S1x256) ![0, 0] S1x256.size inb_S1x256_S1x256_0_0).toLoadRect f3 = View.read (Elt F) a3.view f3 :=
    View.ld_unit_zero (S := S1x256) offset00_eq_zero inb_S1x256_S1x256_0_0 _
  have e4 : View.readAt (Elt F) a4.view (Rect.unit (s := S1x256) ![0, 0] S1x256.size inb_S1x256_S1x256_0_0).toLoadRect f4 = View.read (Elt F) a4.view f4 :=
    View.ld_unit_zero (S := S1x256) offset00_eq_zero inb_S1x256_S1x256_0_0 _
  have e5 : View.readAt (Elt F) a5.view (Rect.unit (s := S1x256) ![0, 0] S1x256.size inb_S1x256_S1x256_0_0).toLoadRect f5 = View.read (Elt F) a5.view f5 :=
    View.ld_unit_zero (S := S1x256) offset00_eq_zero inb_S1x256_S1x256_0_0 _
  have e6 : View.readAt (Elt F) a6.view (Rect.unit (s := S1536x128) ![0, 0] S1536x128.size inb_S1536x128_S1536x128_0_0).toLoadRect f6 = View.read (Elt F) a6.view f6 :=
    View.ld_unit_zero (S := S1536x128) offset00_eq_zero inb_S1536x128_S1536x128_0_0 _
  unfold outBlk
  rw [← e1, ← e2, ← e3, ← e4, ← e5, ← e6]
  rfl

/-! ## The windows' blocks and the proof data -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data of the one pipeline on core `c`: the seven arrays as the region finds them; after the body each of
    the six inputs' buffers still at its block and the output's at `outBlk` of the six blocks; the invariant the scoped
    rest and the generator register, untouched; nothing owed; full shares. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window: each input's buffer at its block, -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
/-- and the output's at the stored value of the six blocks. -/
theorem after_out (c : Dev nD) (t : Fin cfg0.N) :
    (dats m 0 c).after 6 t = outBlk (iblk m c 0 t) (iblk m c 1 t) (iblk m c 2 t) (iblk m c 3 t) (iblk m c 4 t) (iblk m c 5 t) := by
  dsimp only [dats]

/-! ## Each input's staging buffer holds its block at every point

Window 0 moves with the point and is fetched at each; windows 1 to 5 are fetched once, at the first point, and their
block index never moves: unfetched, the buffer still holds what the body left, which is the block. -/

theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl)
    (fun t => by rw [after_in4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl)
    (fun t => by rw [after_in5]; unfold Dat.blockOf iblk; rw [A_eq]; try rfl) t d).trans
    (by unfold Dat.fetched Dat.blockOf iblk; rw [A_eq]; try rfl)

/-! ## The body obligation, at a generic point -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the six inputs' buffers hold their blocks, the output's holds anything, so the body's triple
    applies; the invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## @main around the region -/

/-- The host lines allocate nothing. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the five stretches of host lines, the region, and the closing reshape: run from the launch memory it comes to
    the region with the buffers at `V` and goes on with the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The reshape after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes its own result buffer, which is no array of the pipeline (it READS the output array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The run -/

set_option backward.isDefEq.respectTransparency.types false in
/-- From any memory with zero counters every weakly fair execution of @main on the TensorCores terminates, and every final
    state has each array of the pipeline at what the proof data computes and every other unscoped buffer as the closing
    reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The argument arrays end as launched -/

/-- No host line before the region writes `main_arg0` (each writes only its own result buffer): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [entryLine, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the line after it, and no window stages it: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes `main_arg1` (each writes only its own result buffer): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [entryLine, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the line after it, and no window stages it: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes `main_arg2` (each writes only its own result buffer): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [entryLine, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the line after it, and no window stages it: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes `main_arg3` (each writes only its own result buffer): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [entryLine, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the line after it, and no window stages it: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- THE FRAME: @main runs to the end and each of its four argument arrays ends as launched: none is staged by a window,
    and no host line writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

end Cert.Kernel.Hand

end
-- ==== Proof.KEntry.lean ====
/-
  The state in which the one pipelined region of the kernel's program is entered: the device's buffers after the host
  lines that come before it (the signs, the clipped weights, the one-hot selections and the three tables built from them,
  and the atoms folded two groundings to a row), as one valuation.
-/
import proofs.«409075_j43920335569479_3_alg».proof.Proof.Gen.KernelIdeal.Launch

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The host lines before the region, as one line. -/
abbrev entryLine : List (HloOp τ sig (Elt F)) :=
  List.flatten [hostOps0, hostOps0_1, hostOps0_2, hostOps0_3, hostOps0_4]

/-- Core `c`'s buffer contents when the region is entered. -/
abbrev V0 (c : Dev nD) : Valuation τ sig (Elt F) := StableHlo.after (entryLine (F := F)) (fun b => m (c, b))

/-- The same read at a TensorCore reference. -/
abbrev V (c : Dev nD) (b : Ref sig .tc) : Buf (Elt F) ((c : Thread nD τ).loc b) := V0 m c (Proc.devRef .tc b)

end Cert.KernelIdeal.Hand

end
-- ==== Proof.KFrame.lean ====
/-
  The frame of the kernel's program. @main is five stretches of host lines, ONE pipelined region over a grid of 64 points
  with seven windows, and a closing reshape. Window 0 (a 1024×128 block of a 65536×128 array) moves with the point and is
  fetched at every point; windows 1 to 5 (a 256×768 table, three 1×256 rows, a 1536×128 table) are whole arrays fetched
  once, at the first point; window 6 (a 1024×128 block of the 65536×128 result) is written back at every point. The body
  loads the six input blocks, loads its output buffer (the value is not used), and stores one whole block, `outBlk` of
  the six.

  Proved here: the body's triple on whole staging buffers; the pipeline's proof data (each input's buffer at its block at
  every point, the output's at `outBlk` of the blocks); the body obligation at every point; that @main, from any memory
  with zero counters, runs to the end with every array of the pipeline at what the proof data computes; and the frame:
  the four argument arrays end as launched, since no window stages one and every host line writes only its own result.
-/
import proofs.«409075_j43920335569479_3_alg».proof.Proof.KEntry
import proofs.«409075_j43920335569479_3_alg».proof.Proof.Gen.KernelIdeal.Skeleton
import proofs.«409075_j43920335569479_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- what one grid point stores: the body's one stored value as a function of its six loaded blocks -/
def outBlk (x0 : Vec F S1024x128 .f32) (g : Vec F S256x768 .bf16) (s0 s1 s2 : Vec F S1x256 .f32) (st : Vec F S1536x128 .bf16) :
    Vec F S1024x128 .f32 :=
  k0_pay1 (k0_pay13 x0 g s2) (k0_pay14 x0 g s0) (k0_pay15 x0 g s0) (k0_pay16 x0 g s1) (k0_pay17 x0 g s1) st

/-- the two-coordinate offset written out is the zero offset -/
theorem offset00_eq_zero : (![0, 0] : Fin 2 → Nat) = fun _ => 0 := by funext a; fin_cases a <;> rfl

/-! ## The body's triple -/

set_option maxHeartbeats 1000000 in
/-- The kernel body on whole staging memrefs, the six inputs' at read contents and the output's at anything, runs to
    the continuation holding the inputs' as they were and the output's at `outBlk` of the inputs: the five input loads of
    the body's first part, the load of the 1536×128 table, the load of the output buffer (its value unused), and the one whole-block store. -/
theorem sound_kernel (c : Dev nD) (E : Set ℕ) (i : grid0.Coords)
    (a1 : Memref sig .tc .vmem S1024x128 .f32) (h1 : a1.IsWhole)
    (a2 : Memref sig .tc .vmem S256x768 .bf16) (h2 : a2.IsWhole)
    (a3 : Memref sig .tc .vmem S1x256 .f32) (h3 : a3.IsWhole)
    (a4 : Memref sig .tc .vmem S1x256 .f32) (h4 : a4.IsWhole)
    (a5 : Memref sig .tc .vmem S1x256 .f32) (h5 : a5.IsWhole)
    (a6 : Memref sig .tc .vmem S1536x128 .bf16) (h6 : a6.IsWhole)
    (a7 : Memref sig .tc .vmem S1024x128 .f32) (h7 : a7.IsWhole)
    (x0 : Vec F S1024x128 .f32) (g : Vec F S256x768 .bf16) (s0 s1 s2 : Vec F S1x256 .f32) (st : Vec F S1536x128 .bf16)
    (K : PUnit → sProp 𝕄) :
    iprop(owns (c : Thread nD τ) a1 fullShare x0 ∗ owns (c : Thread nD τ) a2 fullShare g
        ∗ owns (c : Thread nD τ) a3 fullShare s0 ∗ owns (c : Thread nD τ) a4 fullShare s1
        ∗ owns (c : Thread nD τ) a5 fullShare s2 ∗ owns (c : Thread nD τ) a6 fullShare st
        ∗ (∃ d, owns (c : Thread nD τ) a7 fullShare d)
        ∗ (iprop(owns (c : Thread nD τ) a1 fullShare x0 ∗ owns (c : Thread nD τ) a2 fullShare g
            ∗ owns (c : Thread nD τ) a3 fullShare s0 ∗ owns (c : Thread nD τ) a4 fullShare s1
            ∗ owns (c : Thread nD τ) a5 fullShare s2 ∗ owns (c : Thread nD τ) a6 fullShare st
            ∗ owns (c : Thread nD τ) a7 fullShare (outBlk x0 g s0 s1 s2 st)) -∗ K ⟨⟩))
      ⊢ wp frame (wpE (defs₀ (F := F)) Variants.none c none) E (cc0__kernel i a1 h1 a2 h2 a3 h3 a4 h4 a5 h5 a6 h6 a7 h7) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  iexists _; isplitr
  swap
  · iexact H7
  ipureintro
  -- the one store covers the block, so the buffer reads the stored value
  refine (View.read_writes_eq_canon _ _ _ (fun y => View.cover_of_tiled [⟨Rect.unit (s := S1024x128) ![0, 0] S1024x128.size inb_S1024x128_S1024x128_0_0, _⟩] S1024x128.size (by rfl) y)).trans ?_
  refine (View.canon_unit_zero (S := S1024x128) offset00_eq_zero inb_S1024x128_S1024x128_0_0 _).trans ?_
  -- each load is of a whole block: it reads the buffer's contents
  have e1 : View.readAt (Elt F) a1.view (Rect.unit (s := S1024x128) ![0, 0] S1024x128.size inb_S1024x128_S1024x128_0_0).toLoadRect f1 = View.read (Elt F) a1.view f1 :=
    View.ld_unit_zero (S := S1024x128) offset00_eq_zero inb_S1024x128_S1024x128_0_0 _
  have e2 : View.readAt (Elt F) a2.view (Rect.unit (s := S256x768) ![0, 0] S256x768.size inb_S256x768_S256x768_0_0).toLoadRect f2 = View.read (Elt F) a2.view f2 :=
    View.ld_unit_zero (S := S256x768) offset00_eq_zero inb_S256x768_S256x768_0_0 _
  have e3 : View.readAt (Elt F) a3.view (Rect.unit (s := S1x256) ![0, 0] S1x256.size inb_S1x256_S1x256_0_0).toLoadRect f3 = View.read (Elt F) a3.view f3 :=
    View.ld_unit_zero (S := S1x256) offset00_eq_zero inb_S1x256_S1x256_0_0 _
  have e4 : View.readAt (Elt F) a4.view (Rect.unit (s := S1x256) ![0, 0] S1x256.size inb_S1x256_S1x256_0_0).toLoadRect f4 = View.read (Elt F) a4.view f4 :=
    View.ld_unit_zero (S := S1x256) offset00_eq_zero inb_S1x256_S1x256_0_0 _
  have e5 : View.readAt (Elt F) a5.view (Rect.unit (s := S1x256) ![0, 0] S1x256.size inb_S1x256_S1x256_0_0).toLoadRect f5 = View.read (Elt F) a5.view f5 :=
    View.ld_unit_zero (S := S1x256) offset00_eq_zero inb_S1x256_S1x256_0_0 _
  have e6 : View.readAt (Elt F) a6.view (Rect.unit (s := S1536x128) ![0, 0] S1536x128.size inb_S1536x128_S1536x128_0_0).toLoadRect f6 = View.read (Elt F) a6.view f6 :=
    View.ld_unit_zero (S := S1536x128) offset00_eq_zero inb_S1536x128_S1536x128_0_0 _
  unfold outBlk
  rw [← e1, ← e2, ← e3, ← e4, ← e5, ← e6]
  rfl

/-! ## The windows' blocks and the proof data -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data of the one pipeline on core `c`: the seven arrays as the region finds them; after the body each of
    the six inputs' buffers still at its block and the output's at `outBlk` of the six blocks; the invariant the scoped
    rest and the generator register, untouched; nothing owed; full shares. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window: each input's buffer at its block, -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
/-- and the output's at the stored value of the six blocks. -/
theorem after_out (c : Dev nD) (t : Fin cfg0.N) :
    (dats m 0 c).after 6 t = outBlk (iblk m c 0 t) (iblk m c 1 t) (iblk m c 2 t) (iblk m c 3 t) (iblk m c 4 t) (iblk m c 5 t) := by
  dsimp only [dats]

/-! ## Each input's staging buffer holds its block at every point

Window 0 moves with the point and is fetched at each; windows 1 to 5 are fetched once, at the first point, and their
block index never moves: unfetched, the buffer still holds what the body left, which is the block. -/

theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl)
    (fun t => by rw [after_in4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl)
    (fun t => by rw [after_in5]; unfold Dat.blockOf iblk; rw [A_eq]; try rfl) t d).trans
    (by unfold Dat.fetched Dat.blockOf iblk; rw [A_eq]; try rfl)

/-! ## The body obligation, at a generic point -/

/-- What the body is called with at point `t`, the seven windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the six inputs' buffers hold their blocks, the output's holds anything, so the body's triple
    applies; the invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## @main around the region -/

/-- The host lines allocate nothing. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the five stretches of host lines, the region, and the closing reshape: run from the launch memory it comes to
    the region with the buffers at `V` and goes on with the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The reshape after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes its own result buffer, which is no array of the pipeline (it READS the output array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The run -/

set_option backward.isDefEq.respectTransparency.types false in
/-- From any memory with zero counters every weakly fair execution of @main on the TensorCores terminates, and every final
    state has each array of the pipeline at what the proof data computes and every other unscoped buffer as the closing
    reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The argument arrays end as launched -/

/-- No host line before the region writes `main_arg0` (each writes only its own result buffer): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [entryLine, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the line after it, and no window stages it: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes `main_arg1` (each writes only its own result buffer): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [entryLine, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the line after it, and no window stages it: it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes `main_arg2` (each writes only its own result buffer): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [entryLine, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the line after it, and no window stages it: it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes `main_arg3` (each writes only its own result buffer): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [entryLine, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the line after it, and no window stages it: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- THE FRAME: @main runs to the end and each of its four argument arrays ends as launched: none is staged by a window,
    and no host line writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

end Cert.KernelIdeal.Hand

end
-- ==== Proof.SpecBlock.lean ====
/-
  One block of the folded evaluation, as a function of the block's rows and the three tables.

  A block holds 1024 folded rows x[r, ·] of 128 lanes. The first product contracts a row with the selection table g,
  giving for each of the three literals l a plane pre l [r, n] over 256 columns; the three planes go through a softmax
  across l (shifted by their maximum, the denominator inverted once and multiplied in); each weight is scaled by the
  literal's row s l [0, n]; the second product contracts the three scaled planes with the table st. The low-order
  halves a split evaluation carries beside these (a value minus itself) contribute nothing, so they do not appear.
-/
import Idealize.ShloMosaic.PureOps.Ideal
import Idealize.ShloMosaic.Lib.ValueIdx

noncomputable section

open scoped BigOperators

namespace Cert.SpecBlock

open Idealize.ShloMosaic Idealize.ShloMosaic.ValueIdx

abbrev SX : Shape := ⟨2, ![1024, 128]⟩
abbrev SG : Shape := ⟨2, ![256, 768]⟩
abbrev SS : Shape := ⟨2, ![1, 256]⟩
abbrev ST : Shape := ⟨2, ![1536, 128]⟩

variable (x : SX.Idx → EReal) (g : SG.Idx → EReal) (s : Fin 3 → SS.Idx → EReal) (st : ST.Idx → EReal)

/-- Column n of literal plane l, as a column of the 768-wide table. -/
def plane (l : Fin 3) (n : Fin 256) : Fin 768 := ⟨256 * l.val + n.val, by have := l.isLt; have := n.isLt; omega⟩

/-- Row n of literal plane l among the first 768 rows of the 1536-row table. -/
def planeRow (l : Fin 3) (n : Fin 256) : Fin 1536 := ⟨256 * l.val + n.val, by have := l.isLt; have := n.isLt; omega⟩

/-- A lane as a row of the 256-row table's upper half. -/
def laneRow (k : Fin 128) : Fin 256 := ⟨k.val, by have := k.isLt; omega⟩

/-- The first product: row r against column n of plane l. -/
def pre (l : Fin 3) (r : Fin 1024) (n : Fin 256) : EReal :=
  ∑ k : Fin 128, x (ix2 r k) * g (ix2 (laneRow k) (plane l n))

/-- The largest of the three planes at (r, n). -/
def top (r : Fin 1024) (n : Fin 256) : EReal := max (max (pre x g 0 r n) (pre x g 1 r n)) (pre x g 2 r n)

/-- The shifted exponential of plane l at (r, n). -/
def ex (l : Fin 3) (r : Fin 1024) (n : Fin 256) : EReal := Ideal.exp (pre x g l r n - top x g r n)

/-- The softmax denominator at (r, n). -/
def den (r : Fin 1024) (n : Fin 256) : EReal := ex x g 0 r n + ex x g 1 r n + ex x g 2 r n

/-- The scaled softmax weight of plane l at (r, n). -/
def coef (l : Fin 3) (r : Fin 1024) (n : Fin 256) : EReal :=
  (ex x g l r n * Ideal.div 1 (den x g r n)) * s l (ix2 (0 : Fin 1) n)

/-- The block's result at (r, q): the three scaled planes against the second table. -/
def blockOut (r : Fin 1024) (q : Fin 128) : EReal :=
  ∑ l : Fin 3, ∑ n : Fin 256, coef x g s l r n * st (ix2 (planeRow l n) q)

end Cert.SpecBlock

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

/-!
# Finite extended reals, and the algebra of a two-relation mean-aggregating graph layer

General lemmas over `EReal`.

* `IsReal x`: the extended real `x` is (the image of) a real number; closure under the ring
  operations, `max`, finite sums.
* Distributivity `x * (a + b) = x * a + x * b` holds on the finite extended reals (it fails at
  `x = ⊤, a = 1, b = -1`), hence `∑ X (A + B) = ∑ X A + ∑ X B` for finite families.
* Reassociations of the sums that make up one output entry of a layer whose node type has one,
  respectively two, incoming relations.
* Division by a nonzero real is the product with the quotient `1 / r`.
* Gathering from, and scatter-adding into, an everywhere finite array gives an everywhere finite
  array.
-/

namespace Cert.LibERealSage

open Idealize.ShloMosaic

/-! ### Finite extended reals -/

/-- An extended real is *real* (finite) when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two real extended reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real extended reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negation of a real extended real is real. -/
theorem isReal_neg {x : EReal} (hx : IsReal x) : IsReal (-x) := by
  obtain ⟨a, rfl⟩ := hx
  exact ⟨-a, (EReal.coe_neg a).symm⟩

/-- The maximum of two real extended reals is real. -/
theorem isReal_max {x y : EReal} (hx : IsReal x) (hy : IsReal y) : IsReal (max x y) := by
  rcases le_total x y with h | h
  · rw [max_eq_right h]; exact hy
  · rw [max_eq_left h]; exact hx

/-- `max x 0` is real when `x` is. -/
theorem isReal_max_zero {x : EReal} (hx : IsReal x) : IsReal (max x 0) :=
  isReal_max hx isReal_zero

/-- A finite sum of real extended reals is real. -/
theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- A sum over a whole finite type of real extended reals is real. -/
theorem isReal_sum_univ {ι : Type*} [Fintype ι] (f : ι → EReal) (h : ∀ i, IsReal (f i)) :
    IsReal (∑ i, f i) :=
  isReal_sum Finset.univ f (fun i _ => h i)

/-- An extended real is real exactly when it is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

/-! ### Distributivity on the finite extended reals -/

/-- Multiplication distributes over addition when all three extended reals are real. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

/-- A contraction against a sum of two finite families is the sum of the two contractions, when
    the contracted family is finite too. -/
theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

/-- One output entry of a layer whose node type has ONE incoming relation: the neighbour term,
    the root term and the bias, summed in two different orders. No finiteness is needed. -/
theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

/-- One output entry of a layer whose node type has TWO incoming relations: on one side the two
    neighbour terms, ONE root term against the sum of the two root matrices and the sum of the
    two biases; on the other side the two relations' (neighbour, bias, root) triples added in
    turn. Needs the root features and the two root matrices finite. -/
theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

/-- `one_rel_entry` under `max · 0`. -/
theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

/-- `two_rel_entry` under `max · 0`. -/
theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

/-! ### Division by a nonzero real -/

/-- Division by a nonzero real is the product with the quotient `1 / r`, at the infinities
    too. -/
theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

/-- The quotient `1 / r` by a nonzero real is real. -/
theorem isReal_div_one {r : ℝ} (hr : r ≠ 0) :
    IsReal (Idealize.ShloMosaic.Ideal.div 1 (r : EReal)) :=
  ⟨1 / r, by rw [Ideal.div_coe hr, one_mul]⟩

/-- The quotient of a real by a nonzero real is real. -/
theorem isReal_div {s : EReal} (hs : IsReal s) {r : ℝ} (hr : r ≠ 0) :
    IsReal (Idealize.ShloMosaic.Ideal.div s (r : EReal)) := by
  rw [Ideal.div_coe hr]
  exact isReal_mul hs (isReal_coe _)

/-- `max c 1` of a real `c` is a real number that is at least one. -/
theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

/-- `max c 1` of a real `c` is a nonzero real number. -/
theorem isReal_max_one (c : EReal) (hc : IsReal c) :
    ∃ r : ℝ, r ≠ 0 ∧ max c 1 = (r : EReal) := by
  obtain ⟨r, h1, h⟩ := isReal_max_one' c hc
  exact ⟨r, by linarith, h⟩

/-! ### Finiteness through a gather and an accumulating scatter -/

/-- Every element of a gather from an everywhere real array is real. -/
theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

/-- Every element of an accumulating scatter of everywhere real updates into an everywhere real
    array is real. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.KBlock.lean ====
/-
  The value one grid point stores, read at an index, at the ideal values.

  A grid point holds a block x of 1024 rows and 128 lanes, the selection table g (256 rows, 768 columns), three scale
  rows and the second table st (1536 rows, 128 lanes). The stored block is a product of products: x, widened by a
  second half x − x, against g; the 768 columns cut into three planes of 256; a softmax across the three planes with
  the denominator inverted once; each weight scaled by its row; the three scaled planes, widened by their three halves
  c − c, against st. On real entries a value minus itself is 0 and 0 times anything is 0, so each widened product is the
  product over the leading half alone: that is the specification's block.
-/
import proofs.«409075_j43920335569479_3_alg».proof.Proof.Gen.KernelIdeal.Skeleton
import proofs.«409075_j43920335569479_3_alg».proof.Proof.SpecBlock
import proofs.«409075_j43920335569479_3_alg».proof.Proof.LibDotPlain
import proofs.«409075_j43920335569479_3_alg».proof.Proof.LibERealSage
import Idealize.ShloMosaic.Lib.Pipeline.Value
import Idealize.ShloMosaic.Lib.ValueLayout
import Idealize.ShloMosaic.Lib.IdealHost
import Idealize.ShloMosaic.PureOps.Ideal.Laws
import Mathlib.Algebra.BigOperators.Fin

set_option synthInstance.maxSize 4096

noncomputable section

open scoped BigOperators

namespace Cert.KBlock

open Idealize.ShloMosaic Idealize.ShloMosaic.ValueIdx
open Cert.KernelIdeal Cert.KernelIdeal.Gen Cert.LibERealSage

/-- The block one grid point stores, from the block of rows, the two tables and the three scale rows. -/
def outBlk {F : FTy → Type} [FloatOps F] (x0 : Vec F S1024x128 .f32) (g : Vec F S256x768 .bf16)
    (s0 s1 s2 : Vec F S1x256 .f32) (st : Vec F S1536x128 .bf16) : Vec F S1024x128 .f32 :=
  k0_pay1 (k0_pay13 x0 g s2) (k0_pay14 x0 g s0) (k0_pay15 x0 g s0) (k0_pay16 x0 g s1) (k0_pay17 x0 g s1) st

/-! ## Real entries: a value minus itself, and zero times anything -/

/-- A real extended real minus itself is zero. -/
theorem sub_self_of_isReal {a : EReal} (ha : IsReal a) : a - a = 0 := by
  obtain ⟨r, rfl⟩ := ha
  rw [← EReal.coe_sub, sub_self, EReal.coe_zero]

/-! ## The first product -/

/-- The widened block of rows: lanes 0–127 hold x, lanes 128–255 hold x − x. -/
def xCat (x0 : Vec Ideal S1024x128 .f32) : FVec Ideal S1024x256 .bf16 :=
  concatenate S1024x256 1
    [⟨S1024x128, truncf .bf16 (shapeCast S1024x128 x0 shapeCasts_S1024x128_S1024x128) bitsLt_bf16_f32⟩,
     ⟨S1024x128, truncf .bf16 (subf (shapeCast S1024x128 x0 shapeCasts_S1024x128_S1024x128)
        (shapeCast S1024x128 x0 shapeCasts_S1024x128_S1024x128)) bitsLt_bf16_f32⟩]
    concatenates_S1024x128_S1024x128_S1024x256_d1

/-- The first product is the widened block against the table, from zero. -/
theorem firstProduct_eq (x0 : Vec Ideal S1024x128 .f32) (g : Vec Ideal S256x768 .bf16) :
    k0_pay2 (F := Ideal) x0 g
      = matmul dot_S1024x256_S256x768_S1024x768_1_0_0_1_n_n none (xCat x0)
          (shapeCast S256x768 g shapeCasts_S256x768_S256x768 : FVec Ideal S256x768 .bf16)
          (constant S1024x768 .f32 0x00000000#32) := rfl

/-- A leading lane of the widened block is the block's lane. -/
theorem xCat_lead (x0 : Vec Ideal S1024x128 .f32) (r : Fin 1024) (k : Fin 128) :
    xCat x0 (ix2 r (Fin.castAdd 128 k)) = x0 (ix2 r k) := by
  unfold xCat
  refine (concatenate_pair_apply_left (t := S1024x256) (s₁ := S1024x128) (s₂ := S1024x128) 1 _ _ _
    (ix2 r (Fin.castAdd 128 k)) rfl (ix2 r k) ?_).trans ?_
  · intro b
    match b with
    | ⟨0, _⟩ => rfl
    | ⟨1, _⟩ => rfl
  · rw [truncf_apply, shapeCast_self]

/-- A trailing lane of the widened block is a lane of x minus itself: zero on a real block. -/
theorem xCat_trail (x0 : Vec Ideal S1024x128 .f32) (hx : ∀ i, IsReal (x0 i)) (r : Fin 1024) (k : Fin 128) :
    xCat x0 (ix2 r (Fin.natAdd 128 k)) = 0 := by
  unfold xCat
  refine (concatenate_pair_apply_right (t := S1024x256) (s₁ := S1024x128) (s₂ := S1024x128) 1 _ _ _
    (ix2 r (Fin.natAdd 128 k)) rfl rfl (ix2 r k) ?_ ?_).trans ?_
  · intro b hb
    match b, hb with
    | ⟨0, _⟩, _ => rfl
    | ⟨1, _⟩, hb => exact absurd rfl hb
  · show k.val + 128 = 128 + k.val
    omega
  · rw [truncf_apply, subf_apply, shapeCast_self]
    exact sub_self_of_isReal (hx _)

/-- The first product at (r, c): the trailing half contributes nothing, the leading half is row r of x against
    column c of the table's upper 128 rows. -/
theorem firstProduct_apply (x0 : Vec Ideal S1024x128 .f32) (g : Vec Ideal S256x768 .bf16) (hx : ∀ i, IsReal (x0 i))
    (r : Fin 1024) (c : Fin 768) :
    k0_pay2 (F := Ideal) x0 g (ix2 r c)
      = ∑ k : Fin 128, x0 (ix2 r k) * g (ix2 (Cert.SpecBlock.laneRow k) c) := by
  rw [firstProduct_eq]
  refine (Cert.LibDotPlain.matmul_zero_apply (m := 1024) (k := 256) (n := 768)
    dot_S1024x256_S256x768_S1024x768_1_0_0_1_n_n.wf none (xCat x0) _ r c).trans ?_
  rw [shapeCast_self]
  refine (Fin.sum_univ_add (a := 128) (b := 128)
    (fun c' : Fin (128 + 128) => xCat x0 (ix2 r c') * g (ix2 c' c))).trans ?_
  have htrail : ∑ k : Fin 128, xCat x0 (ix2 r (Fin.natAdd 128 k)) * g (ix2 (Fin.natAdd 128 k) c) = 0 :=
    Finset.sum_eq_zero fun k _ => by rw [xCat_trail x0 hx r k, zero_mul]
  rw [htrail, add_zero]
  exact Finset.sum_congr rfl fun k _ => by rw [xCat_lead x0 r k]; rfl

/-! ## The three planes -/

/-- Plane 0 of the first product (columns 0–255) is the specification's first product for literal 0. -/
theorem plane0_apply (x0 : Vec Ideal S1024x128 .f32) (g : Vec Ideal S256x768 .bf16) (hx : ∀ i, IsReal (x0 i))
    (r : Fin 1024) (n : Fin 256) :
    k0_pay3 (F := Ideal) x0 g (ix2 r n) = Cert.SpecBlock.pre x0 g 0 r n := by
  unfold k0_pay3
  refine (extractStridedSlice_apply (s := S1024x768) (t := S1024x256) ![0, 0] _ _ (ix2 r n)
    (ix2 r (Cert.SpecBlock.plane 0 n)) ?_).trans (firstProduct_apply x0 g hx r _)
  intro a
  match a with
  | ⟨0, _⟩ => show r.val = 0 + r.val; omega
  | ⟨1, _⟩ => show 256 * 0 + n.val = 0 + n.val; omega

/-- Plane 1 of the first product (columns 256–511) is the specification's first product for literal 1. -/
theorem plane1_apply (x0 : Vec Ideal S1024x128 .f32) (g : Vec Ideal S256x768 .bf16) (hx : ∀ i, IsReal (x0 i))
    (r : Fin 1024) (n : Fin 256) :
    k0_pay4 (F := Ideal) x0 g (ix2 r n) = Cert.SpecBlock.pre x0 g 1 r n := by
  unfold k0_pay4
  refine (extractStridedSlice_apply (s := S1024x768) (t := S1024x256) ![0, 256] _ _ (ix2 r n)
    (ix2 r (Cert.SpecBlock.plane 1 n)) ?_).trans (firstProduct_apply x0 g hx r _)
  intro a
  match a with
  | ⟨0, _⟩ => show r.val = 0 + r.val; omega
  | ⟨1, _⟩ => show 256 * 1 + n.val = 256 + n.val; omega

/-- Plane 2 of the first product (columns 512–767) is the specification's first product for literal 2. -/
theorem plane2_apply (x0 : Vec Ideal S1024x128 .f32) (g : Vec Ideal S256x768 .bf16) (hx : ∀ i, IsReal (x0 i))
    (r : Fin 1024) (n : Fin 256) :
    k0_pay5 (F := Ideal) x0 g (ix2 r n) = Cert.SpecBlock.pre x0 g 2 r n := by
  unfold k0_pay5
  refine (extractStridedSlice_apply (s := S1024x768) (t := S1024x256) ![0, 512] _ _ (ix2 r n)
    (ix2 r (Cert.SpecBlock.plane 2 n)) ?_).trans (firstProduct_apply x0 g hx r _)
  intro a
  match a with
  | ⟨0, _⟩ => show r.val = 0 + r.val; omega
  | ⟨1, _⟩ => show 256 * 2 + n.val = 512 + n.val; omega

/-! ## The softmax across the three planes -/

/-- The running maximum of the three planes is the specification's top. -/
theorem planeMax_apply (x0 : Vec Ideal S1024x128 .f32) (g : Vec Ideal S256x768 .bf16) (hx : ∀ i, IsReal (x0 i))
    (r : Fin 1024) (n : Fin 256) :
    k0_pay6 (F := Ideal) x0 g (ix2 r n) = Cert.SpecBlock.top x0 g r n := by
  show max (max (k0_pay3 (F := Ideal) x0 g (ix2 r n)) (k0_pay4 (F := Ideal) x0 g (ix2 r n)))
    (k0_pay5 (F := Ideal) x0 g (ix2 r n)) = _
  rw [plane0_apply x0 g hx, plane1_apply x0 g hx, plane2_apply x0 g hx]
  rfl

/-- The shifted exponential of plane 0. -/
theorem shiftedExp0_apply (x0 : Vec Ideal S1024x128 .f32) (g : Vec Ideal S256x768 .bf16) (hx : ∀ i, IsReal (x0 i))
    (r : Fin 1024) (n : Fin 256) :
    k0_pay7 (F := Ideal) x0 g (ix2 r n) = Cert.SpecBlock.ex x0 g 0 r n := by
  show Ideal.exp (k0_pay3 (F := Ideal) x0 g (ix2 r n) - k0_pay6 (F := Ideal) x0 g (ix2 r n)) = _
  rw [plane0_apply x0 g hx, planeMax_apply x0 g hx]
  rfl

/-- The shifted exponential of plane 1. -/
theorem shiftedExp1_apply (x0 : Vec Ideal S1024x128 .f32) (g : Vec Ideal S256x768 .bf16) (hx : ∀ i, IsReal (x0 i))
    (r : Fin 1024) (n : Fin 256) :
    k0_pay8 (F := Ideal) x0 g (ix2 r n) = Cert.SpecBlock.ex x0 g 1 r n := by
  show Ideal.exp (k0_pay4 (F := Ideal) x0 g (ix2 r n) - k0_pay6 (F := Ideal) x0 g (ix2 r n)) = _
  rw [plane1_apply x0 g hx, planeMax_apply x0 g hx]
  rfl

/-- The shifted exponential of plane 2. -/
theorem shiftedExp2_apply (x0 : Vec Ideal S1024x128 .f32) (g : Vec Ideal S256x768 .bf16) (hx : ∀ i, IsReal (x0 i))
    (r : Fin 1024) (n : Fin 256) :
    k0_pay9 (F := Ideal) x0 g (ix2 r n) = Cert.SpecBlock.ex x0 g 2 r n := by
  show Ideal.exp (k0_pay5 (F := Ideal) x0 g (ix2 r n) - k0_pay6 (F := Ideal) x0 g (ix2 r n)) = _
  rw [plane2_apply x0 g hx, planeMax_apply x0 g hx]
  rfl

/-- The inverted denominator: one over the sum of the three shifted exponentials. -/
theorem invDen_apply (x0 : Vec Ideal S1024x128 .f32) (g : Vec Ideal S256x768 .bf16) (hx : ∀ i, IsReal (x0 i))
    (r : Fin 1024) (n : Fin 256) :
    k0_pay10 (F := Ideal) x0 g (ix2 r n) = Ideal.div 1 (Cert.SpecBlock.den x0 g r n) := by
  show Ideal.div (Ideal.ofBits .f32 0x3F800000#32)
    (k0_pay7 (F := Ideal) x0 g (ix2 r n) + k0_pay8 (F := Ideal) x0 g (ix2 r n) + k0_pay9 (F := Ideal) x0 g (ix2 r n)) = _
  rw [Ideal.ofBits_one_f32, shiftedExp0_apply x0 g hx, shiftedExp1_apply x0 g hx, shiftedExp2_apply x0 g hx]
  rfl

/-- A scale row broadcast down the 1024 rows, read at (r, n), is the row's entry n. -/
theorem scaleRow_apply (s : Vec Ideal S1x256 .f32) (r : Fin 1024) (n : Fin 256) :
    (broadcastTo S1024x256 (shapeCast S1x256 s shapeCasts_S1x256_S1x256 : FVec Ideal S1x256 .f32)
      broadcasts_S1x256_S1024x256 : FVec Ideal S1024x256 .f32) (ix2 r n) = s (ix2 (0 : Fin 1) n) := by
  rw [shapeCast_self]
  refine broadcastTo_apply (s := S1x256) (t := S1024x256) s _ (ix2 r n) (ix2 (0 : Fin 1) n) ?_
  intro a
  match a with
  | ⟨0, _⟩ => rfl
  | ⟨1, _⟩ => rfl

/-- The scaled weight of plane 0. -/
theorem weight0_apply (x0 : Vec Ideal S1024x128 .f32) (g : Vec Ideal S256x768 .bf16) (s : Fin 3 → Vec Ideal S1x256 .f32)
    (hx : ∀ i, IsReal (x0 i)) (r : Fin 1024) (n : Fin 256) :
    k0_pay11 (F := Ideal) x0 g (s 0) (ix2 r n) = Cert.SpecBlock.coef x0 g s 0 r n := by
  show (k0_pay7 (F := Ideal) x0 g (ix2 r n) * k0_pay10 (F := Ideal) x0 g (ix2 r n))
    * (broadcastTo S1024x256 (shapeCast S1x256 (s 0) shapeCasts_S1x256_S1x256 : FVec Ideal S1x256 .f32)
      broadcasts_S1x256_S1024x256 : FVec Ideal S1024x256 .f32) (ix2 r n) = _
  rw [scaleRow_apply, shiftedExp0_apply x0 g hx, invDen_apply x0 g hx]
  rfl

/-- The scaled weight of plane 1. -/
theorem weight1_apply (x0 : Vec Ideal S1024x128 .f32) (g : Vec Ideal S256x768 .bf16) (s : Fin 3 → Vec Ideal S1x256 .f32)
    (hx : ∀ i, IsReal (x0 i)) (r : Fin 1024) (n : Fin 256) :
    k0_pay12 (F := Ideal) x0 g (s 1) (ix2 r n) = Cert.SpecBlock.coef x0 g s 1 r n := by
  show (k0_pay8 (F := Ideal) x0 g (ix2 r n) * k0_pay10 (F := Ideal) x0 g (ix2 r n))
    * (broadcastTo S1024x256 (shapeCast S1x256 (s 1) shapeCasts_S1x256_S1x256 : FVec Ideal S1x256 .f32)
      broadcasts_S1x256_S1024x256 : FVec Ideal S1024x256 .f32) (ix2 r n) = _
  rw [scaleRow_apply, shiftedExp1_apply x0 g hx, invDen_apply x0 g hx]
  rfl

/-- The scaled weight of plane 2. -/
theorem weight2_apply (x0 : Vec Ideal S1024x128 .f32) (g : Vec Ideal S256x768 .bf16) (s : Fin 3 → Vec Ideal S1x256 .f32)
    (hx : ∀ i, IsReal (x0 i)) (r : Fin 1024) (n : Fin 256) :
    k0_pay13 (F := Ideal) x0 g (s 2) (ix2 r n) = Cert.SpecBlock.coef x0 g s 2 r n := by
  show (k0_pay9 (F := Ideal) x0 g (ix2 r n) * k0_pay10 (F := Ideal) x0 g (ix2 r n))
    * (broadcastTo S1024x256 (shapeCast S1x256 (s 2) shapeCasts_S1x256_S1x256 : FVec Ideal S1x256 .f32)
      broadcasts_S1x256_S1024x256 : FVec Ideal S1024x256 .f32) (ix2 r n) = _
  rw [scaleRow_apply, shiftedExp2_apply x0 g hx, invDen_apply x0 g hx]
  rfl

/-! ## The scaled weights are real -/

/-- The difference of two real extended reals is real. -/
theorem isReal_sub {a b : EReal} (ha : IsReal a) (hb : IsReal b) : IsReal (a - b) := by
  obtain ⟨x, rfl⟩ := ha
  obtain ⟨y, rfl⟩ := hb
  exact ⟨x - y, (EReal.coe_sub x y).symm⟩

/-- The exponential of a real extended real is a positive real number. -/
theorem exp_pos_of_isReal {a : EReal} (ha : IsReal a) : ∃ t : ℝ, 0 < t ∧ Ideal.exp a = (t : EReal) := by
  obtain ⟨x, rfl⟩ := ha
  exact ⟨Real.exp x, Real.exp_pos x, rfl⟩

section Real

variable (x0 : Vec Ideal S1024x128 .f32) (g : Vec Ideal S256x768 .bf16) (s : Fin 3 → Vec Ideal S1x256 .f32)
variable (hx : ∀ i, IsReal (x0 i)) (hg : ∀ i, IsReal (g i)) (hs : ∀ l i, IsReal (s l i))
include hx hg

/-- A finite sum of products of reals: the first product is real. -/
theorem isReal_pre (l : Fin 3) (r : Fin 1024) (n : Fin 256) : IsReal (Cert.SpecBlock.pre x0 g l r n) :=
  isReal_sum_univ _ fun k => isReal_mul (hx _) (hg _)

/-- The largest of three reals is real. -/
theorem isReal_top (r : Fin 1024) (n : Fin 256) : IsReal (Cert.SpecBlock.top x0 g r n) :=
  isReal_max (isReal_max (isReal_pre x0 g hx hg 0 r n) (isReal_pre x0 g hx hg 1 r n)) (isReal_pre x0 g hx hg 2 r n)

/-- A shifted exponential is a positive real number. -/
theorem ex_pos (l : Fin 3) (r : Fin 1024) (n : Fin 256) :
    ∃ t : ℝ, 0 < t ∧ Cert.SpecBlock.ex x0 g l r n = (t : EReal) :=
  exp_pos_of_isReal (isReal_sub (isReal_pre x0 g hx hg l r n) (isReal_top x0 g hx hg r n))

/-- The softmax denominator is a nonzero real number. -/
theorem den_ne_zero (r : Fin 1024) (n : Fin 256) :
    ∃ t : ℝ, t ≠ 0 ∧ Cert.SpecBlock.den x0 g r n = (t : EReal) := by
  obtain ⟨a, ha, ea⟩ := ex_pos x0 g hx hg 0 r n
  obtain ⟨b, hb, eb⟩ := ex_pos x0 g hx hg 1 r n
  obtain ⟨c, hc, ec⟩ := ex_pos x0 g hx hg 2 r n
  refine ⟨a + b + c, by positivity, ?_⟩
  unfold Cert.SpecBlock.den
  rw [ea, eb, ec, EReal.coe_add, EReal.coe_add]

include hs

/-- A scaled weight is real: a positive real times the real inverse of a nonzero real times a real scale. -/
theorem isReal_coef (l : Fin 3) (r : Fin 1024) (n : Fin 256) : IsReal (Cert.SpecBlock.coef x0 g s l r n) := by
  obtain ⟨a, _, ea⟩ := ex_pos x0 g hx hg l r n
  obtain ⟨d, hd, ed⟩ := den_ne_zero x0 g hx hg r n
  unfold Cert.SpecBlock.coef
  rw [ea, ed]
  exact isReal_mul (isReal_mul (isReal_coe a) (isReal_div_one hd)) (hs l _)

end Real

/-! ## The second product -/

/-- Lane n of plane l among the 1536 lanes of the widened weights (and row n of plane l of the second table). -/
def lane6 (l : Fin 6) (n : Fin 256) : Fin 1536 :=
  ⟨256 * l.val + n.val, by have := l.isLt; have := n.isLt; omega⟩

/-- A sum over 1536 entries is the sum of its six planes of 256. -/
theorem sum_six_planes (f : Fin 1536 → EReal) :
    ∑ c, f c = (∑ n : Fin 256, f (lane6 0 n)) + (∑ n : Fin 256, f (lane6 1 n)) + (∑ n : Fin 256, f (lane6 2 n))
      + (∑ n : Fin 256, f (lane6 3 n)) + (∑ n : Fin 256, f (lane6 4 n)) + (∑ n : Fin 256, f (lane6 5 n)) := by
  rw [← Fin.sum_univ_six (fun l : Fin 6 => ∑ n : Fin 256, f (lane6 l n)),
    ← Equiv.sum_comp (finProdFinEquiv (m := 6) (n := 256)) f, Fintype.sum_prod_type]
  refine Finset.sum_congr rfl fun l _ => Finset.sum_congr rfl fun n _ => congrArg f (Fin.ext ?_)
  show n.val + 256 * l.val = 256 * l.val + n.val
  omega

/-- The widened weights: six planes of 256 lanes side by side. -/
def cCat (p0 p1 p2 p3 p4 p5 : FVec Ideal S1024x256 .bf16) : FVec Ideal S1024x1536 .bf16 :=
  concatenate S1024x1536 1
    [⟨S1024x256, p0⟩, ⟨S1024x256, p1⟩, ⟨S1024x256, p2⟩, ⟨S1024x256, p3⟩, ⟨S1024x256, p4⟩, ⟨S1024x256, p5⟩]
    concatenates_S1024x256_S1024x256_S1024x256_S1024x256_S1024x256_S1024x256_S1024x1536_d1

section Planes

variable (p0 p1 p2 p3 p4 p5 : FVec Ideal S1024x256 .bf16) (r : Fin 1024) (n : Fin 256)

/-- Off the lane axis the widened weights keep the row. -/
theorem row_kept (c : Fin 1536) (b : Fin S1024x256.rank)
    (hb : b.cast (rfl : S1024x256.rank = S1024x1536.rank) ≠ (1 : Fin S1024x1536.rank)) :
    ((ix2 r n : S1024x256.Idx) b).val = ((ix2 r c : S1024x1536.Idx) (b.cast rfl)).val := by
  match b, hb with
  | ⟨0, _⟩, _ => rfl
  | ⟨1, _⟩, hb => exact absurd rfl hb

/-- Plane 0 of the widened weights. -/
theorem cCat_plane0 : cCat p0 p1 p2 p3 p4 p5 (ix2 r (lane6 0 n)) = p0 (ix2 r n) := by
  unfold cCat
  refine concatenate_apply_piece (t := S1024x1536) 1 _ _ (ix2 r (lane6 0 n)) 0 (by simp) S1024x256 p0 rfl rfl
    0 rfl (ix2 r n) (row_kept r n _) ?_
  show 0 + n.val = 256 * 0 + n.val
  omega

/-- Plane 1 of the widened weights. -/
theorem cCat_plane1 : cCat p0 p1 p2 p3 p4 p5 (ix2 r (lane6 1 n)) = p1 (ix2 r n) := by
  unfold cCat
  refine concatenate_apply_piece (t := S1024x1536) 1 _ _ (ix2 r (lane6 1 n)) 1 (by simp) S1024x256 p1 rfl rfl
    256 rfl (ix2 r n) (row_kept r n _) ?_
  show 256 + n.val = 256 * 1 + n.val
  omega

/-- Plane 2 of the widened weights. -/
theorem cCat_plane2 : cCat p0 p1 p2 p3 p4 p5 (ix2 r (lane6 2 n)) = p2 (ix2 r n) := by
  unfold cCat
  refine concatenate_apply_piece (t := S1024x1536) 1 _ _ (ix2 r (lane6 2 n)) 2 (by simp) S1024x256 p2 rfl rfl
    512 rfl (ix2 r n) (row_kept r n _) ?_
  show 512 + n.val = 256 * 2 + n.val
  omega

/-- Plane 3 of the widened weights. -/
theorem cCat_plane3 : cCat p0 p1 p2 p3 p4 p5 (ix2 r (lane6 3 n)) = p3 (ix2 r n) := by
  unfold cCat
  refine concatenate_apply_piece (t := S1024x1536) 1 _ _ (ix2 r (lane6 3 n)) 3 (by simp) S1024x256 p3 rfl rfl
    768 rfl (ix2 r n) (row_kept r n _) ?_
  show 768 + n.val = 256 * 3 + n.val
  omega

/-- Plane 4 of the widened weights. -/
theorem cCat_plane4 : cCat p0 p1 p2 p3 p4 p5 (ix2 r (lane6 4 n)) = p4 (ix2 r n) := by
  unfold cCat
  refine concatenate_apply_piece (t := S1024x1536) 1 _ _ (ix2 r (lane6 4 n)) 4 (by simp) S1024x256 p4 rfl rfl
    1024 rfl (ix2 r n) (row_kept r n _) ?_
  show 1024 + n.val = 256 * 4 + n.val
  omega

/-- Plane 5 of the widened weights. -/
theorem cCat_plane5 : cCat p0 p1 p2 p3 p4 p5 (ix2 r (lane6 5 n)) = p5 (ix2 r n) := by
  unfold cCat
  refine concatenate_apply_piece (t := S1024x1536) 1 _ _ (ix2 r (lane6 5 n)) 5 (by simp) S1024x256 p5 rfl rfl
    1280 rfl (ix2 r n) (row_kept r n _) ?_
  show 1280 + n.val = 256 * 5 + n.val
  omega

end Planes

/-- The second product is the widened weights against the second table, from zero. -/
theorem secondProduct_eq (v39 : FVec Ideal S1024x256 .f32) (v40 v43 v44 : FVec Ideal S1024x256 .bf16)
    (v46 : FVec Ideal S1024x256 .f32) (st : Vec Ideal S1536x128 .bf16) :
    k0_pay1 (F := Ideal) v39 v40 v43 v44 v46 st
      = matmul dot_S1024x1536_S1536x128_S1024x128_1_0_0_1_n_n none
          (cCat v40 v44 (truncf .bf16 v39 bitsLt_bf16_f32) v43 (truncf .bf16 v46 bitsLt_bf16_f32)
            (truncf .bf16 (subf v39 v39) bitsLt_bf16_f32))
          (shapeCast S1536x128 st shapeCasts_S1536x128_S1536x128 : FVec Ideal S1536x128 .bf16)
          (constant S1024x128 .f32 0x00000000#32) := rfl

/-- The second product at (r, q), when the three trailing planes are zero: the three leading planes against their rows
    of the second table. The trailing planes are a plane of zeros, a plane of zeros, and the third weight minus itself. -/
theorem secondProduct_apply (v39 : FVec Ideal S1024x256 .f32) (v40 v43 v44 : FVec Ideal S1024x256 .bf16)
    (v46 : FVec Ideal S1024x256 .f32) (st : Vec Ideal S1536x128 .bf16)
    (h39 : ∀ i, IsReal (v39 i)) (h43 : ∀ i, v43 i = 0) (h46 : ∀ i, v46 i = 0) (r : Fin 1024) (q : Fin 128) :
    k0_pay1 (F := Ideal) v39 v40 v43 v44 v46 st (ix2 r q)
      = (∑ n : Fin 256, v40 (ix2 r n) * st (ix2 (lane6 0 n) q))
        + (∑ n : Fin 256, v44 (ix2 r n) * st (ix2 (lane6 1 n) q))
        + (∑ n : Fin 256, v39 (ix2 r n) * st (ix2 (lane6 2 n) q)) := by
  rw [secondProduct_eq]
  refine (Cert.LibDotPlain.matmul_zero_apply (m := 1024) (k := 1536) (n := 128)
    dot_S1024x1536_S1536x128_S1024x128_1_0_0_1_n_n.wf none _ _ r q).trans ?_
  rw [shapeCast_self, sum_six_planes]
  have e0 : ∀ n : Fin 256, cCat v40 v44 (truncf .bf16 v39 bitsLt_bf16_f32) v43 (truncf .bf16 v46 bitsLt_bf16_f32)
      (truncf .bf16 (subf v39 v39) bitsLt_bf16_f32) (ix2 r (lane6 0 n)) = v40 (ix2 r n) :=
    fun n => cCat_plane0 _ _ _ _ _ _ r n
  have e1 : ∀ n : Fin 256, cCat v40 v44 (truncf .bf16 v39 bitsLt_bf16_f32) v43 (truncf .bf16 v46 bitsLt_bf16_f32)
      (truncf .bf16 (subf v39 v39) bitsLt_bf16_f32) (ix2 r (lane6 1 n)) = v44 (ix2 r n) :=
    fun n => cCat_plane1 _ _ _ _ _ _ r n
  have e2 : ∀ n : Fin 256, cCat v40 v44 (truncf .bf16 v39 bitsLt_bf16_f32) v43 (truncf .bf16 v46 bitsLt_bf16_f32)
      (truncf .bf16 (subf v39 v39) bitsLt_bf16_f32) (ix2 r (lane6 2 n)) = v39 (ix2 r n) :=
    fun n => by rw [cCat_plane2, truncf_apply]
  have e3 : ∀ n : Fin 256, cCat v40 v44 (truncf .bf16 v39 bitsLt_bf16_f32) v43 (truncf .bf16 v46 bitsLt_bf16_f32)
      (truncf .bf16 (subf v39 v39) bitsLt_bf16_f32) (ix2 r (lane6 3 n)) = 0 :=
    fun n => by rw [cCat_plane3, h43]
  have e4 : ∀ n : Fin 256, cCat v40 v44 (truncf .bf16 v39 bitsLt_bf16_f32) v43 (truncf .bf16 v46 bitsLt_bf16_f32)
      (truncf .bf16 (subf v39 v39) bitsLt_bf16_f32) (ix2 r (lane6 4 n)) = 0 :=
    fun n => by rw [cCat_plane4, truncf_apply, h46]
  have e5 : ∀ n : Fin 256, cCat v40 v44 (truncf .bf16 v39 bitsLt_bf16_f32) v43 (truncf .bf16 v46 bitsLt_bf16_f32)
      (truncf .bf16 (subf v39 v39) bitsLt_bf16_f32) (ix2 r (lane6 5 n)) = 0 :=
    fun n => by rw [cCat_plane5, truncf_apply, subf_apply]; exact sub_self_of_isReal (h39 _)
  simp only [e0, e1, e2, e3, e4, e5, zero_mul, Finset.sum_const_zero, add_zero]

/-! ## The stored block -/

/-- The block one grid point stores is the specification's block, on real rows, a real first table and real scales. -/
theorem outBlk_apply (x0 : Vec Ideal S1024x128 .f32) (g : Vec Ideal S256x768 .bf16)
    (s0 s1 s2 : Vec Ideal S1x256 .f32) (st : Vec Ideal S1536x128 .bf16)
    (hx : ∀ i, IsReal (x0 i)) (hg : ∀ i, IsReal (g i)) (hs0 : ∀ i, IsReal (s0 i)) (hs1 : ∀ i, IsReal (s1 i))
    (hs2 : ∀ i, IsReal (s2 i)) (r : Fin 1024) (q : Fin 128) :
    outBlk (F := Ideal) x0 g s0 s1 s2 st (ix2 r q) = Cert.SpecBlock.blockOut x0 g ![s0, s1, s2] st r q := by
  have hs : ∀ (l : Fin 3) i, IsReal ((![s0, s1, s2] : Fin 3 → Vec Ideal S1x256 .f32) l i) := by
    intro l
    match l with
    | ⟨0, _⟩ => exact hs0
    | ⟨1, _⟩ => exact hs1
    | ⟨2, _⟩ => exact hs2
  -- the three scaled weights
  have c0 : ∀ (r : Fin 1024) (n : Fin 256),
      k0_pay11 (F := Ideal) x0 g s0 (ix2 r n) = Cert.SpecBlock.coef x0 g ![s0, s1, s2] 0 r n :=
    fun r n => weight0_apply x0 g ![s0, s1, s2] hx r n
  have c1 : ∀ (r : Fin 1024) (n : Fin 256),
      k0_pay12 (F := Ideal) x0 g s1 (ix2 r n) = Cert.SpecBlock.coef x0 g ![s0, s1, s2] 1 r n :=
    fun r n => weight1_apply x0 g ![s0, s1, s2] hx r n
  have c2 : ∀ (r : Fin 1024) (n : Fin 256),
      k0_pay13 (F := Ideal) x0 g s2 (ix2 r n) = Cert.SpecBlock.coef x0 g ![s0, s1, s2] 2 r n :=
    fun r n => weight2_apply x0 g ![s0, s1, s2] hx r n
  -- each is real, so each minus itself is zero
  have h39 : ∀ i, IsReal (k0_pay13 (F := Ideal) x0 g s2 i) := by
    intro i
    obtain ⟨a, b, rfl⟩ : ∃ (a : Fin 1024) (b : Fin 256), i = ix2 a b := ⟨i 0, i 1, eq_ix2 i⟩
    rw [c2]
    exact isReal_coef x0 g _ hx hg hs 2 a b
  have h43 : ∀ i, k0_pay15 (F := Ideal) x0 g s0 i = 0 := by
    intro i
    obtain ⟨a, b, rfl⟩ : ∃ (a : Fin 1024) (b : Fin 256), i = ix2 a b := ⟨i 0, i 1, eq_ix2 i⟩
    show k0_pay11 (F := Ideal) x0 g s0 (ix2 a b) - k0_pay11 (F := Ideal) x0 g s0 (ix2 a b) = 0
    rw [c0]
    exact sub_self_of_isReal (isReal_coef x0 g _ hx hg hs 0 a b)
  have h46 : ∀ i, k0_pay17 (F := Ideal) x0 g s1 i = 0 := by
    intro i
    obtain ⟨a, b, rfl⟩ : ∃ (a : Fin 1024) (b : Fin 256), i = ix2 a b := ⟨i 0, i 1, eq_ix2 i⟩
    show k0_pay12 (F := Ideal) x0 g s1 (ix2 a b) - k0_pay12 (F := Ideal) x0 g s1 (ix2 a b) = 0
    rw [c1]
    exact sub_self_of_isReal (isReal_coef x0 g _ hx hg hs 1 a b)
  unfold outBlk
  rw [secondProduct_apply _ _ _ _ _ st h39 h43 h46 r q]
  unfold Cert.SpecBlock.blockOut
  rw [Fin.sum_univ_three]
  refine congrArg₂ (· + ·) (congrArg₂ (· + ·) ?_ ?_) ?_
  · refine Finset.sum_congr rfl fun n _ => ?_
    show k0_pay11 (F := Ideal) x0 g s0 (ix2 r n) * _ = _
    rw [c0]
    rfl
  · refine Finset.sum_congr rfl fun n _ => ?_
    show k0_pay12 (F := Ideal) x0 g s1 (ix2 r n) * _ = _
    rw [c1]
    rfl
  · refine Finset.sum_congr rfl fun n _ => ?_
    rw [c2]
    rfl

end Cert.KBlock

end
-- ==== Proof.Spec.lean ====
/-
  The knowledge-enhancer layer as one function of its four argument arrays, on the extended reals.

  Atoms ga[b, p] (b a grounding, p a predicate), clause weights cw[c], and per clause c three literals l, each naming a
  predicate idx[c, l] and carrying a bit sb[c, l]. A literal's sign is 2·bit − 1; its pre-activation at grounding b is
  sign · ga[b, idx[c, l]]; the three pre-activations of a clause go through a softmax (shifted by their maximum); the
  clause's weight, clipped to [0, 500], times the sign times the softmax weight is the literal's contribution, and the
  result at (b, p) is the sum of the contributions of the literals that name predicate p.

  Also here: the tables a blocked evaluation of the same function feeds to two matrix products — two groundings folded
  into one row of 128 lanes, the literals' selections as signed one-hot columns and one-hot rows, block-diagonal over
  the two folded groundings.
-/
import Idealize.ShloMosaic.PureOps.Ideal
import Idealize.ShloMosaic.Lib.ValueIdx

noncomputable section

open scoped BigOperators

namespace Cert.Spec

open Idealize.ShloMosaic Idealize.ShloMosaic.ValueIdx

abbrev SGa : Shape := ⟨2, ![131072, 64]⟩
abbrev SCw : Shape := ⟨1, ![128]⟩
abbrev SLit : Shape := ⟨2, ![128, 3]⟩

/-- The sign a literal's bit stands for: the real number 2·bit − 1, the word arithmetic read signed. -/
def sgn (x : BitVec 32) : EReal := (((2#32 * x - 1#32).toInt : ℝ) : EReal)

/-- A clause weight clipped into [0, 500]. -/
def wt (x : EReal) : EReal :=
  min (Ideal.ofBits .f32 0x43FA0000#32) (max (Ideal.ofBits .f32 0x00000000#32) x)

/-- The predicate (a column of the atoms) an index word names. -/
def colOf (x : BitVec 32) : Fin 64 := ⟨x.toNat % 64, Nat.mod_lt _ (by norm_num)⟩

section
variable (ga : SGa.Idx → EReal) (cw : SCw.Idx → EReal) (idx sb : SLit.Idx → BitVec 32)

/-- Literal l of clause c at grounding b: its sign times the atom it names. -/
def lit (b : Fin 131072) (c : Fin 128) (l : Fin 3) : EReal :=
  sgn (sb (ix2 c l)) * ga (ix2 b (colOf (idx (ix2 c l))))

/-- The largest of a clause's three literals. -/
def top (b : Fin 131072) (c : Fin 128) : EReal :=
  max (max (lit ga idx sb b c 0) (lit ga idx sb b c 1)) (lit ga idx sb b c 2)

/-- The shifted exponential of a literal. -/
def ex (b : Fin 131072) (c : Fin 128) (l : Fin 3) : EReal :=
  Ideal.exp (lit ga idx sb b c l - top ga idx sb b c)

/-- The softmax denominator of a clause. -/
def den (b : Fin 131072) (c : Fin 128) : EReal :=
  ex ga idx sb b c 0 + ex ga idx sb b c 1 + ex ga idx sb b c 2

/-- The signed, weighted softmax weight of a literal. -/
def delta (b : Fin 131072) (c : Fin 128) (l : Fin 3) : EReal :=
  (sgn (sb (ix2 c l)) * wt (cw (ix1 c))) * Ideal.div (ex ga idx sb b c l) (den ga idx sb b c)

/-- The result at grounding b and predicate p: the contributions of the literals naming p. -/
def out (b : Fin 131072) (p : Fin 64) : EReal :=
  ∑ c : Fin 128, ∑ l : Fin 3, if (idx (ix2 c l)).toNat = p.val then delta ga cw idx sb b c l else 0

/-- The whole result array. -/
def result : SGa.Idx → EReal := fun i => out ga cw idx sb (i 0) (i 1)

theorem result_apply (b : Fin 131072) (p : Fin 64) : result ga cw idx sb (ix2 b p) = out ga cw idx sb b p := rfl

/-! ## The folded layout's tables -/

/-- Two consecutive groundings in one row of 128 lanes. -/
def folded (r : Fin 65536) (q : Fin 128) : EReal :=
  ga (ix2 ⟨2 * r.val + q.val / 64, by have := r.isLt; have := q.isLt; omega⟩ ⟨q.val % 64, Nat.mod_lt _ (by norm_num)⟩)

/-- The clause a column n of a 256-wide literal plane belongs to. -/
def clauseOf (n : Nat) : Fin 128 := ⟨n % 128, Nat.mod_lt _ (by norm_num)⟩

/-- The selection table of the first product: row k (the high and the low copy of the 128 folded lanes, 256 rows),
    column n (three literal planes of 256 columns): the literal's sign where the lane is the literal's predicate in the
    same folded half, else zero. -/
def gtab (k : Fin 256) (n : Fin 768) : EReal :=
  if (k.val % 128) / 64 = (n.val % 256) / 128
      ∧ (idx (ix2 (clauseOf n.val) ⟨n.val / 256, by have := n.isLt; omega⟩)).toNat = k.val % 64
  then sgn (sb (ix2 (clauseOf n.val) ⟨n.val / 256, by have := n.isLt; omega⟩)) else 0

/-- The scale row of literal l: sign times clipped weight, the 128 clauses twice. -/
def scale (l : Fin 3) (n : Fin 256) : EReal :=
  sgn (sb (ix2 (clauseOf n.val) l)) * wt (cw (ix1 (clauseOf n.val)))

/-- The selection table of the second product: row k (six planes of 256: the three literals' high parts, then their low
    parts), column q (the 128 folded lanes): one where the lane is the literal's predicate in the same folded half. -/
def stab (k : Fin 1536) (q : Fin 128) : EReal :=
  if (k.val % 256) / 128 = q.val / 64
      ∧ (idx (ix2 (clauseOf k.val) ⟨(k.val / 256) % 3, Nat.mod_lt _ (by norm_num)⟩)).toNat = q.val % 64
  then 1 else 0

end

end Cert.Spec

end
-- ==== Proof.KAlgebra.lean ====
/-
  One block of the folded evaluation, fed with its rows of the folded atoms and the three selection tables, is the
  knowledge-enhancer layer at the grounding and predicate each lane stands for. Pure extended-real algebra.

  Write R = 1024·t + r for the folded row, and for a column n < 256 of a literal plane h = n / 128 (which of the two
  folded groundings) and c = n % 128 (the clause).

  (i)   The first table at lane k and column n of plane l is the sign of literal l of clause c where k lies in half h
        and k % 64 is the predicate the literal names, else zero. So of the 128 terms of the first product only the lane
        64·h + idx[c, l] survives, and there the folded row holds ga[2R + h, idx[c, l]]: the product is the literal of
        clause c at grounding 2R + h.
  (ii)  Hence the maximum, the shifted exponentials and the denominator at (r, n) are the clause's at that grounding.
  (iii) The atoms being finite, each shifted exponential is a positive real, so the denominator is a nonzero real and a
        quotient by it is the product with its inverse; with commutativity the scaled weight at (r, n) is the
        literal's contribution.
  (iv)  The second table at row n of plane l and lane q is one where h = q / 64 and the literal names predicate q % 64,
        else zero. Splitting the 256 columns into the two halves of 128 clauses, the plane's product is the sum over
        the clauses whose literal l names q % 64 of their contribution at grounding 2R + q / 64.
  (v)   Exchanging the sums over literals and clauses gives the layer's result at (2R + q / 64, q % 64).
-/
import Mathlib.Data.EReal.Basic
import Mathlib.Data.EReal.Operations
import Mathlib.Algebra.BigOperators.Group.Finset.Basic
import Mathlib.Algebra.BigOperators.Fin
import Mathlib.Tactic.FinCases
import Mathlib.Tactic.NormNum
import Idealize.ShloMosaic.PureOps.Ideal
import Idealize.ShloMosaic.PureOps.Ideal.Laws
import Idealize.ShloMosaic.Lib.ValueIdx
import proofs.«409075_j43920335569479_3_alg».proof.Proof.Spec
import proofs.«409075_j43920335569479_3_alg».proof.Proof.SpecBlock
import proofs.«409075_j43920335569479_3_alg».proof.Proof.LibERealSage

noncomputable section

open scoped BigOperators

namespace Cert.KAlgebra

open Cert.Spec Cert.SpecBlock Cert.LibERealSage Idealize.ShloMosaic Idealize.ShloMosaic.ValueIdx

variable (ga : SGa.Idx → EReal) (cw : SCw.Idx → EReal) (idx sb : SLit.Idx → BitVec 32)

/-- Folded rows 1024·t … 1024·t + 1023: the block of grid point t. -/
def blockRows (t : Fin 64) : SX.Idx → EReal := fun i =>
  folded ga ⟨1024 * t.val + (i 0).val, by have := t.isLt; have := idx2_lt0 i; omega⟩ (i 1)

/-- The first selection table as an array. -/
def gtabArr : SG.Idx → EReal := fun i => gtab idx sb (i 0) (i 1)

/-- The scale row of literal l as a one-row array. -/
def scaleArr (l : Fin 3) : SS.Idx → EReal := fun i => scale cw sb l (i 1)

/-- The second selection table as an array. -/
def stabArr : ST.Idx → EReal := fun i => stab idx (i 0) (i 1)

/-- A literal's sign is a real number. -/
theorem sgn_real (x : BitVec 32) : IsReal (sgn x) := isReal_coe _

/-- The upper clip bound is 500. -/
theorem top500 : Ideal.ofBits .f32 0x43FA0000#32 = ((500 : ℝ) : EReal) := by
  simp [Ideal.ofBits, Ideal.ieee, -EReal.coe_mul]; norm_num

/-- An index word that reads, signed, inside [0, 64) reads unsigned below 64. -/
theorem toNat_lt (hidx : ∀ i, 0 ≤ (idx i).toInt ∧ (idx i).toInt < 64) (i : SLit.Idx) : (idx i).toNat < 64 := by
  have h := hidx i
  have hl := (idx i).isLt
  rw [BitVec.toInt_eq_toNat_cond] at h
  split_ifs at h <;> omega

/-- The grounding a folded row R = 1024·t + r carries in its half h. -/
def gnd (t : Fin 64) (r : Fin 1024) (h : Fin 2) : Fin 131072 :=
  ⟨2 * (1024 * t.val + r.val) + h.val, by have := t.isLt; have := r.isLt; have := h.isLt; omega⟩

/-- The half (which of the two folded groundings) a column of a 256-wide plane belongs to. -/
def halfOf (n : Fin 256) : Fin 2 := ⟨n.val / 128, by have := n.isLt; omega⟩

theorem blockRows_apply (t : Fin 64) (r : Fin 1024) (k : Fin 128) :
    blockRows ga t (ix2 r k) = folded ga ⟨1024 * t.val + r.val, by have := t.isLt; have := r.isLt; omega⟩ k := rfl

theorem clauseOf_plane (l : Fin 3) (n : Fin 256) : clauseOf (plane l n).val = clauseOf n.val := by
  apply Fin.ext
  show (256 * l.val + n.val) % 128 = n.val % 128
  omega

theorem litOf_plane (l : Fin 3) (n : Fin 256) (h : (plane l n).val / 256 < 3) :
    (⟨(plane l n).val / 256, h⟩ : Fin 3) = l := by
  apply Fin.ext
  show (256 * l.val + n.val) / 256 = l.val
  have := n.isLt
  omega

/-- The first table at a lane row and a plane column: the literal's sign where the lane lies in the column's half and
    is the literal's predicate there, else zero. -/
theorem gtab_lane (k : Fin 128) (l : Fin 3) (n : Fin 256) :
    gtabArr idx sb (ix2 (laneRow k) (plane l n))
      = if k.val / 64 = n.val / 128 ∧ (idx (ix2 (clauseOf n.val) l)).toNat = k.val % 64
        then sgn (sb (ix2 (clauseOf n.val) l)) else 0 := by
  show gtab idx sb (laneRow k) (plane l n) = _
  unfold gtab
  rw [litOf_plane l n, clauseOf_plane l n]
  have h1 : (laneRow k).val % 128 / 64 = k.val / 64 := by
    show k.val % 128 / 64 = k.val / 64
    have := k.isLt; omega
  have h2 : (plane l n).val % 256 / 128 = n.val / 128 := by
    show (256 * l.val + n.val) % 256 / 128 = n.val / 128
    have := n.isLt; omega
  have h3 : (laneRow k).val % 64 = k.val % 64 := rfl
  rw [h1, h2, h3]

/-- The lane of a folded row that holds, in half h, the predicate a literal names. -/
def laneOf (hidx : ∀ i, 0 ≤ (idx i).toInt ∧ (idx i).toInt < 64) (c : Fin 128) (l : Fin 3) (h : Fin 2) : Fin 128 :=
  ⟨64 * h.val + (idx (ix2 c l)).toNat, by have := toNat_lt idx hidx (ix2 c l); have := h.isLt; omega⟩

/-- A folded row at the lane of a literal's predicate is the atom of that predicate at the half's grounding. -/
theorem folded_laneOf (hidx : ∀ i, 0 ≤ (idx i).toInt ∧ (idx i).toInt < 64) (t : Fin 64) (r : Fin 1024)
    (c : Fin 128) (l : Fin 3) (h : Fin 2) :
    folded ga ⟨1024 * t.val + r.val, by have := t.isLt; have := r.isLt; omega⟩ (laneOf idx hidx c l h)
      = ga (ix2 (gnd t r h) (colOf (idx (ix2 c l)))) := by
  have hlt := toNat_lt idx hidx (ix2 c l)
  have hh := h.isLt
  unfold folded
  congr 1
  have e1 : (⟨2 * (1024 * t.val + r.val) + (laneOf idx hidx c l h).val / 64, by
      have := t.isLt; have := r.isLt; have := (laneOf idx hidx c l h).isLt; omega⟩ : Fin 131072) = gnd t r h := by
    apply Fin.ext
    show 2 * (1024 * t.val + r.val) + (64 * h.val + (idx (ix2 c l)).toNat) / 64 = 2 * (1024 * t.val + r.val) + h.val
    omega
  have e2 : (⟨(laneOf idx hidx c l h).val % 64, Nat.mod_lt _ (by norm_num)⟩ : Fin 64) = colOf (idx (ix2 c l)) := by
    apply Fin.ext
    show (64 * h.val + (idx (ix2 c l)).toNat) % 64 = (idx (ix2 c l)).toNat % 64
    omega
  rw [e1, e2]

/-- The first product at (r, n) for literal l is that literal of the column's clause at the column's grounding: of the
    128 terms only the lane of the literal's predicate in the column's half is not a product with zero. -/
theorem pre_eq_lit (hidx : ∀ i, 0 ≤ (idx i).toInt ∧ (idx i).toInt < 64) (t : Fin 64) (l : Fin 3) (r : Fin 1024)
    (n : Fin 256) :
    pre (blockRows ga t) (gtabArr idx sb) l r n
      = lit ga idx sb (gnd t r (halfOf n)) (clauseOf n.val) l := by
  have hlt := toNat_lt idx hidx (ix2 (clauseOf n.val) l)
  unfold pre
  rw [Finset.sum_eq_single (laneOf idx hidx (clauseOf n.val) l (halfOf n))]
  · rw [gtab_lane, blockRows_apply, folded_laneOf, if_pos, lit, mul_comm]
    refine ⟨?_, ?_⟩
    · show (64 * (n.val / 128) + (idx (ix2 (clauseOf n.val) l)).toNat) / 64 = n.val / 128
      omega
    · show (idx (ix2 (clauseOf n.val) l)).toNat = (64 * (n.val / 128) + (idx (ix2 (clauseOf n.val) l)).toNat) % 64
      omega
  · intro k _ hk
    rw [gtab_lane, if_neg, mul_zero]
    rintro ⟨h1, h2⟩
    apply hk
    apply Fin.ext
    show k.val = 64 * (n.val / 128) + (idx (ix2 (clauseOf n.val) l)).toNat
    have := Nat.div_add_mod k.val 64
    omega
  · intro h; exact absurd (Finset.mem_univ _) h

/-! ### The softmax of a column is the softmax of its clause -/

theorem top_eq (hidx : ∀ i, 0 ≤ (idx i).toInt ∧ (idx i).toInt < 64) (t : Fin 64) (r : Fin 1024) (n : Fin 256) :
    SpecBlock.top (blockRows ga t) (gtabArr idx sb) r n
      = Spec.top ga idx sb (gnd t r (halfOf n)) (clauseOf n.val) := by
  unfold SpecBlock.top Spec.top
  rw [pre_eq_lit ga idx sb hidx, pre_eq_lit ga idx sb hidx, pre_eq_lit ga idx sb hidx]

theorem ex_eq (hidx : ∀ i, 0 ≤ (idx i).toInt ∧ (idx i).toInt < 64) (t : Fin 64) (l : Fin 3) (r : Fin 1024)
    (n : Fin 256) :
    SpecBlock.ex (blockRows ga t) (gtabArr idx sb) l r n
      = Spec.ex ga idx sb (gnd t r (halfOf n)) (clauseOf n.val) l := by
  unfold SpecBlock.ex Spec.ex
  rw [pre_eq_lit ga idx sb hidx, top_eq ga idx sb hidx]

theorem den_eq (hidx : ∀ i, 0 ≤ (idx i).toInt ∧ (idx i).toInt < 64) (t : Fin 64) (r : Fin 1024) (n : Fin 256) :
    SpecBlock.den (blockRows ga t) (gtabArr idx sb) r n
      = Spec.den ga idx sb (gnd t r (halfOf n)) (clauseOf n.val) := by
  unfold SpecBlock.den Spec.den
  rw [ex_eq ga idx sb hidx, ex_eq ga idx sb hidx, ex_eq ga idx sb hidx]

/-! ### Finiteness: the denominator is a positive real -/

theorem lit_real (hga : ∀ i, IsReal (ga i)) (b : Fin 131072) (c : Fin 128) (l : Fin 3) :
    IsReal (lit ga idx sb b c l) := isReal_mul (sgn_real _) (hga _)

theorem top_real (hga : ∀ i, IsReal (ga i)) (b : Fin 131072) (c : Fin 128) : IsReal (Spec.top ga idx sb b c) :=
  isReal_max (isReal_max (lit_real ga idx sb hga b c 0) (lit_real ga idx sb hga b c 1)) (lit_real ga idx sb hga b c 2)

/-- The shifted exponential of a literal is a positive real number. -/
theorem ex_pos (hga : ∀ i, IsReal (ga i)) (b : Fin 131072) (c : Fin 128) (l : Fin 3) :
    ∃ e : ℝ, 0 < e ∧ Spec.ex ga idx sb b c l = (e : EReal) := by
  obtain ⟨a, ha⟩ := lit_real ga idx sb hga b c l
  obtain ⟨m, hm⟩ := top_real ga idx sb hga b c
  refine ⟨Real.exp (a - m), Real.exp_pos _, ?_⟩
  unfold Spec.ex
  rw [ha, hm, ← EReal.coe_sub]
  rfl

/-- The softmax denominator of a clause is a positive real number. -/
theorem den_pos (hga : ∀ i, IsReal (ga i)) (b : Fin 131072) (c : Fin 128) :
    ∃ d : ℝ, d ≠ 0 ∧ Spec.den ga idx sb b c = (d : EReal) := by
  obtain ⟨e0, p0, h0⟩ := ex_pos ga idx sb hga b c 0
  obtain ⟨e1, p1, h1⟩ := ex_pos ga idx sb hga b c 1
  obtain ⟨e2, p2, h2⟩ := ex_pos ga idx sb hga b c 2
  refine ⟨e0 + e1 + e2, (add_pos (add_pos p0 p1) p2).ne', ?_⟩
  unfold Spec.den
  rw [h0, h1, h2, EReal.coe_add, EReal.coe_add]

/-- The three scale rows, read through the literal's number. -/
theorem scaleRows_apply (l : Fin 3) (n : Fin 256) :
    (![scaleArr cw sb 0, scaleArr cw sb 1, scaleArr cw sb 2] : Fin 3 → SS.Idx → EReal) l (ix2 (0 : Fin 1) n)
      = sgn (sb (ix2 (clauseOf n.val) l)) * wt (cw (ix1 (clauseOf n.val))) := by
  fin_cases l <;> rfl

/-- The scaled weight of a column is the contribution of its clause's literal: a quotient by a nonzero real is the
    product with the inverted denominator, and the products commute. -/
theorem coef_eq_delta (hga : ∀ i, IsReal (ga i)) (hidx : ∀ i, 0 ≤ (idx i).toInt ∧ (idx i).toInt < 64) (t : Fin 64)
    (l : Fin 3) (r : Fin 1024) (n : Fin 256) :
    coef (blockRows ga t) (gtabArr idx sb) ![scaleArr cw sb 0, scaleArr cw sb 1, scaleArr cw sb 2] l r n
      = delta ga cw idx sb (gnd t r (halfOf n)) (clauseOf n.val) l := by
  obtain ⟨d, hd, hden⟩ := den_pos ga idx sb hga (gnd t r (halfOf n)) (clauseOf n.val)
  unfold coef delta
  rw [scaleRows_apply, ex_eq ga idx sb hidx, den_eq ga idx sb hidx, hden,
    div_eq_mul_one_div (Spec.ex ga idx sb (gnd t r (halfOf n)) (clauseOf n.val) l) hd, mul_comm]

/-! ### Finiteness of the block's rows and of the tables -/

theorem isReal_min {x y : EReal} (hx : IsReal x) (hy : IsReal y) : IsReal (min x y) := by
  rcases le_total x y with h | h
  · rw [min_eq_left h]; exact hx
  · rw [min_eq_right h]; exact hy

theorem wt_real {x : EReal} (hx : IsReal x) : IsReal (wt x) := by
  unfold wt
  rw [top500, Ideal.ofBits_zero_f32]
  exact isReal_min (isReal_coe _) (isReal_max isReal_zero hx)

theorem isReal_blockRows (hga : ∀ i, IsReal (ga i)) (t : Fin 64) : ∀ i, IsReal (blockRows ga t i) :=
  fun _ => hga _

theorem isReal_gtabArr : ∀ i, IsReal (gtabArr idx sb i) := by
  intro i
  unfold gtabArr gtab
  split_ifs
  · exact sgn_real _
  · exact isReal_zero

theorem isReal_scaleArr (hcw : ∀ i, IsReal (cw i)) (l : Fin 3) : ∀ i, IsReal (scaleArr cw sb l i) :=
  fun _ => isReal_mul (sgn_real _) (wt_real (hcw _))

/-! ### The second product -/

theorem clauseOf_planeRow (l : Fin 3) (n : Fin 256) : clauseOf (planeRow l n).val = clauseOf n.val := by
  apply Fin.ext
  show (256 * l.val + n.val) % 128 = n.val % 128
  omega

theorem litOf_planeRow (l : Fin 3) (n : Fin 256) (h : (planeRow l n).val / 256 % 3 < 3) :
    (⟨(planeRow l n).val / 256 % 3, h⟩ : Fin 3) = l := by
  apply Fin.ext
  show (256 * l.val + n.val) / 256 % 3 = l.val
  have := n.isLt; have := l.isLt
  omega

/-- The second table at a plane row and a lane: one where the lane lies in the row's half and is the literal's
    predicate there, else zero. -/
theorem stab_plane (l : Fin 3) (n : Fin 256) (q : Fin 128) :
    stabArr idx (ix2 (planeRow l n) q)
      = if n.val / 128 = q.val / 64 ∧ (idx (ix2 (clauseOf n.val) l)).toNat = q.val % 64 then 1 else 0 := by
  show stab idx (planeRow l n) q = _
  unfold stab
  rw [litOf_planeRow l n, clauseOf_planeRow l n]
  have h2 : (planeRow l n).val % 256 / 128 = n.val / 128 := by
    show (256 * l.val + n.val) % 256 / 128 = n.val / 128
    have := n.isLt; omega
  rw [h2]

/-- The 256 columns of a plane are the two halves of 128 clauses each. -/
def colEquiv : Fin 2 × Fin 128 ≃ Fin 256 where
  toFun p := ⟨128 * p.1.val + p.2.val, by have := p.1.isLt; have := p.2.isLt; omega⟩
  invFun n := (halfOf n, clauseOf n.val)
  left_inv p := by
    apply Prod.ext
    · apply Fin.ext
      show (128 * p.1.val + p.2.val) / 128 = p.1.val
      have := p.2.isLt; omega
    · apply Fin.ext
      show (128 * p.1.val + p.2.val) % 128 = p.2.val
      have := p.2.isLt; omega
  right_inv n := by
    apply Fin.ext
    show 128 * (n.val / 128) + n.val % 128 = n.val
    omega

/-- A sum over the columns of a plane of a function of the column's half and clause is the double sum over the halves
    and the clauses. -/
theorem sum_cols (F : Fin 2 → Fin 128 → EReal) :
    ∑ n : Fin 256, F (halfOf n) (clauseOf n.val) = ∑ h : Fin 2, ∑ c : Fin 128, F h c := by
  rw [← Equiv.sum_comp colEquiv (fun n => F (halfOf n) (clauseOf n.val)), Fintype.sum_prod_type]
  refine Finset.sum_congr rfl (fun h _ => Finset.sum_congr rfl (fun c _ => ?_))
  have e := colEquiv.left_inv (h, c)
  have e1 : halfOf (colEquiv (h, c)) = h := congrArg Prod.fst e
  have e2 : clauseOf (colEquiv (h, c)).val = c := congrArg Prod.snd e
  rw [e1, e2]

/-- What clause c contributes to lane q through literal l when read in half h: the literal's contribution at the half's
    grounding where the half is the lane's and the literal names the lane's predicate, else zero. -/
def laneTerm (t : Fin 64) (l : Fin 3) (r : Fin 1024) (q : Fin 128) (h : Fin 2) (c : Fin 128) : EReal :=
  if h.val = q.val / 64 ∧ (idx (ix2 c l)).toNat = q.val % 64 then delta ga cw idx sb (gnd t r h) c l else 0

/-- A column's scaled weight times its entry of the second table is the column's clause's term in its half. -/
theorem coef_mul_stab (hga : ∀ i, IsReal (ga i)) (hidx : ∀ i, 0 ≤ (idx i).toInt ∧ (idx i).toInt < 64) (t : Fin 64)
    (l : Fin 3) (r : Fin 1024) (q : Fin 128) (n : Fin 256) :
    coef (blockRows ga t) (gtabArr idx sb) ![scaleArr cw sb 0, scaleArr cw sb 1, scaleArr cw sb 2] l r n
        * stabArr idx (ix2 (planeRow l n) q)
      = laneTerm ga cw idx sb t l r q (halfOf n) (clauseOf n.val) := by
  rw [coef_eq_delta ga cw idx sb hga hidx, stab_plane, mul_ite, mul_one, mul_zero]
  rfl

/-- One literal's plane against the second table: the contributions, at the lane's grounding, of the clauses whose
    literal names the lane's predicate. -/
theorem plane_sum (hga : ∀ i, IsReal (ga i)) (hidx : ∀ i, 0 ≤ (idx i).toInt ∧ (idx i).toInt < 64) (t : Fin 64)
    (l : Fin 3) (r : Fin 1024) (q : Fin 128) :
    ∑ n : Fin 256,
        coef (blockRows ga t) (gtabArr idx sb) ![scaleArr cw sb 0, scaleArr cw sb 1, scaleArr cw sb 2] l r n
          * stabArr idx (ix2 (planeRow l n) q)
      = ∑ c : Fin 128, if (idx (ix2 c l)).toNat = q.val % 64
          then delta ga cw idx sb (gnd t r ⟨q.val / 64, by have := q.isLt; omega⟩) c l else 0 := by
  rw [Finset.sum_congr rfl (fun n _ => coef_mul_stab ga cw idx sb hga hidx t l r q n),
    sum_cols (laneTerm ga cw idx sb t l r q)]
  rw [Finset.sum_eq_single (⟨q.val / 64, by have := q.isLt; omega⟩ : Fin 2)]
  · refine Finset.sum_congr rfl (fun c _ => ?_)
    unfold laneTerm
    by_cases hc : (idx (ix2 c l)).toNat = q.val % 64
    · rw [if_pos ⟨rfl, hc⟩, if_pos hc]
    · rw [if_neg (fun h => hc h.2), if_neg hc]
  · intro h _ hh
    refine Finset.sum_eq_zero (fun c _ => ?_)
    unfold laneTerm
    exact if_neg (fun hc => hh (Fin.ext hc.1))
  · intro h; exact absurd (Finset.mem_univ _) h

/-- One block of the folded evaluation is the specification at the grounding and predicate each lane stands for. -/
theorem blockOut_eq (hga : ∀ i, IsReal (ga i)) (hcw : ∀ i, IsReal (cw i))
    (hidx : ∀ i, 0 ≤ (idx i).toInt ∧ (idx i).toInt < 64) (t : Fin 64) (r : Fin 1024) (q : Fin 128) :
    blockOut (blockRows ga t) (gtabArr idx sb) ![scaleArr cw sb 0, scaleArr cw sb 1, scaleArr cw sb 2] (stabArr idx) r q
      = out ga cw idx sb
          ⟨2 * (1024 * t.val + r.val) + q.val / 64, by have := t.isLt; have := r.isLt; have := q.isLt; omega⟩
          ⟨q.val % 64, Nat.mod_lt _ (by norm_num)⟩ := by
  unfold blockOut out
  rw [Finset.sum_congr rfl (fun l _ => plane_sum ga cw idx sb hga hidx t l r q), Finset.sum_comm]
  rfl

end Cert.KAlgebra

end
-- ==== Proof.LibHostRead.lean ====
/-
  A straight line of host operations in which no buffer is rewritten, read at a buffer.

  A line of StableHLO operations over a device's buffers is run as a fold: each operation rewrites the buffers it writes
  and leaves the rest. When every operation writes a buffer that no later operation writes and that no earlier operation
  reads or writes (static single assignment, in program order), the contents of an operation's result buffer AFTER THE
  WHOLE LINE are the operation's function of the contents, after the whole line, of its operand buffers: nothing after
  the operation touches its result or its operands. That order is a decidable property of a literal line; with it the
  fold is never opened again.
-/
import Idealize.ShloMosaic.Lib.StableHlo.Run
import Idealize.ShloMosaic.Lib.Pipeline.Frame

noncomputable section

namespace Cert.HostRead

open Idealize.ShloMosaic Idealize.ShloMosaic.StableHlo

variable {τ : Topo} {sig : RefSig} {Val : EltTy → Type}

/-- No operation writes a buffer an EARLIER operation of the line reads or writes. -/
def Fresh (L : List (HloOp τ sig Val)) : Prop := L.Pairwise fun o₁ o₂ => Disjoint o₂.writes o₁.bufs

instance (L : List (HloOp τ sig Val)) : Decidable (Fresh L) := inferInstanceAs (Decidable (L.Pairwise _))

/-- A buffer of operation number `p` holds, after the whole line, what it held right after that operation. -/
theorem after_at {L : List (HloOp τ sig Val)} (hL : Fresh L) (p : Nat) (hp : p < L.length) (V : Valuation τ sig Val)
    {b : DevRef τ sig} (hb : b ∈ L[p].bufs) : after L V b = L[p].result (after (L.take p) V) b := by
  have hsplit : L.take p ++ L[p] :: L.drop (p + 1) = L := by
    rw [← List.drop_eq_getElem_cons hp, List.take_append_drop]
  have hP : (L.take p ++ L[p] :: L.drop (p + 1)).Pairwise fun o₁ o₂ => Disjoint o₂.writes o₁.bufs := by
    rw [hsplit]; exact hL
  have hd : ∀ o ∈ L.drop (p + 1), Disjoint o.writes L[p].bufs :=
    (List.pairwise_cons.mp (List.pairwise_append.mp hP).2.1).1
  calc after L V b = after (L.take p ++ L[p] :: L.drop (p + 1)) V b := by rw [hsplit]
    _ = L[p].result (after (L.take p) V) b := by
      rw [after_append, after_cons]
      exact after_of_forall_not_mem _ _ fun o ho hw => Finset.disjoint_left.mp (hd o ho) hw hb

variable {L : List (HloOp τ sig Val)} (hL : Fresh L) (p : Nat) {V : Valuation τ sig Val}
include hL

/- In each lemma the operation is named by its number `p` in the line and `hop` says which builder it is (`rfl` on a
   literal line); the builder's own side proofs (its buffers are on the device and unscoped), the bound on `p` and the
   operands' being other buffers than the result are found by computation. -/

/-- A constant. -/
theorem read_nullary {y : Ref sig .tc} {v : y.ty.Contents Val}
    (hy : y.space ≠ .host ∧ (Proc.devRef (τ := τ) .tc y).isScoped = false := by exact ⟨by decide, rfl⟩)
    (hp : p < L.length := by decide) (hop : L[p] = nullary y v hy) :
    after L V (Proc.devRef .tc y) = v := by
  have hy' : Proc.devRef .tc y ∈ L[p].bufs := by rw [hop, nullary_bufs]; exact Finset.mem_singleton_self _
  rw [after_at hL p hp V hy', hop, nullary_result]

/-- An operation of one operand. -/
theorem read_unary {x y : Ref sig .tc} {f : x.ty.Contents Val → y.ty.Contents Val}
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = unary x y f hx hy) (hxy : x ≠ y := by decide) :
    after L V (Proc.devRef .tc y) = f (after L V (Proc.devRef .tc x)) := by
  have hy' : Proc.devRef .tc y ∈ L[p].bufs := by
    rw [hop, unary_bufs]; exact Finset.mem_insert_of_mem (Finset.mem_singleton_self _)
  have hx' : Proc.devRef .tc x ∈ L[p].bufs := by rw [hop, unary_bufs]; exact Finset.mem_insert_self _ _
  rw [after_at hL p hp V hy', after_at hL p hp V hx', hop, unary_result, unary_result_ne _ _ _ _ _ _ hxy]

/-- A reshape. -/
theorem read_reshape {x y : Ref sig .tc} (he : x.ty.elt = y.ty.elt := by rfl)
    (hn : x.ty.shape.ShapeCasts y.ty.shape := by decide)
    (hx : x.space ≠ .host ∧ (Proc.devRef (τ := τ) .tc x).isScoped = false := by exact ⟨by decide, rfl⟩)
    (hy : y.space ≠ .host ∧ (Proc.devRef (τ := τ) .tc y).isScoped = false := by exact ⟨by decide, rfl⟩)
    (hp : p < L.length := by decide) (hop : L[p] = reshape x y he hn hx hy) (hxy : x ≠ y := by decide) :
    after L V (Proc.devRef .tc y) = fun i => he ▸ shapeCast y.ty.shape (after L V (Proc.devRef .tc x)) hn i := by
  have hy' : Proc.devRef .tc y ∈ L[p].bufs := by
    rw [hop, reshape_bufs]; exact Finset.mem_insert_of_mem (Finset.mem_singleton_self _)
  have hx' : Proc.devRef .tc x ∈ L[p].bufs := by rw [hop, reshape_bufs]; exact Finset.mem_insert_self _ _
  rw [after_at hL p hp V hy', after_at hL p hp V hx', hop, reshape_result, reshape_result_ne _ _ _ _ _ _ _ hxy]

/-- An operation of two operands. -/
theorem read_binary {a b y : Ref sig .tc} {f : a.ty.Contents Val → b.ty.Contents Val → y.ty.Contents Val}
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = binary a b y f ha hb hy)
    (hay : a ≠ y := by decide) (hby : b ≠ y := by decide) :
    after L V (Proc.devRef .tc y) = f (after L V (Proc.devRef .tc a)) (after L V (Proc.devRef .tc b)) := by
  have hy' : Proc.devRef .tc y ∈ L[p].bufs := by
    rw [hop, binary_bufs]; exact Finset.mem_insert_of_mem (Finset.mem_insert_of_mem (Finset.mem_singleton_self _))
  have ha' : Proc.devRef .tc a ∈ L[p].bufs := by rw [hop, binary_bufs]; exact Finset.mem_insert_self _ _
  have hb' : Proc.devRef .tc b ∈ L[p].bufs := by
    rw [hop, binary_bufs]; exact Finset.mem_insert_of_mem (Finset.mem_insert_self _ _)
  rw [after_at hL p hp V hy', after_at hL p hp V ha', after_at hL p hp V hb', hop, binary_result,
    binary_result_ne _ _ _ _ _ _ _ _ hay, binary_result_ne _ _ _ _ _ _ _ _ hby]

/-- An operation of three operands. -/
theorem read_ternary {c a b y : Ref sig .tc}
    {f : c.ty.Contents Val → a.ty.Contents Val → b.ty.Contents Val → y.ty.Contents Val}
    (hc : c.space ≠ .host ∧ (Proc.devRef (τ := τ) .tc c).isScoped = false := by exact ⟨by decide, rfl⟩)
    (ha : a.space ≠ .host ∧ (Proc.devRef (τ := τ) .tc a).isScoped = false := by exact ⟨by decide, rfl⟩)
    (hb : b.space ≠ .host ∧ (Proc.devRef (τ := τ) .tc b).isScoped = false := by exact ⟨by decide, rfl⟩)
    (hy : y.space ≠ .host ∧ (Proc.devRef (τ := τ) .tc y).isScoped = false := by exact ⟨by decide, rfl⟩)
    (hp : p < L.length := by decide) (hop : L[p] = ternary c a b y f hc ha hb hy)
    (hcy : c ≠ y := by decide) (hay : a ≠ y := by decide) (hby : b ≠ y := by decide) :
    after L V (Proc.devRef .tc y)
      = f (after L V (Proc.devRef .tc c)) (after L V (Proc.devRef .tc a)) (after L V (Proc.devRef .tc b)) := by
  have hy' : Proc.devRef .tc y ∈ L[p].bufs := by
    rw [hop, ternary_bufs]
    exact Finset.mem_insert_of_mem (Finset.mem_insert_of_mem (Finset.mem_insert_of_mem (Finset.mem_singleton_self _)))
  have hc' : Proc.devRef .tc c ∈ L[p].bufs := by rw [hop, ternary_bufs]; exact Finset.mem_insert_self _ _
  have ha' : Proc.devRef .tc a ∈ L[p].bufs := by
    rw [hop, ternary_bufs]; exact Finset.mem_insert_of_mem (Finset.mem_insert_self _ _)
  have hb' : Proc.devRef .tc b ∈ L[p].bufs := by
    rw [hop, ternary_bufs]; exact Finset.mem_insert_of_mem (Finset.mem_insert_of_mem (Finset.mem_insert_self _ _))
  rw [after_at hL p hp V hy', after_at hL p hp V hc', after_at hL p hp V ha', after_at hL p hp V hb', hop, ternary_result,
    ternary_result_ne _ _ _ _ _ _ _ _ _ _ hcy, ternary_result_ne _ _ _ _ _ _ _ _ _ _ hay, ternary_result_ne _ _ _ _ _ _ _ _ _ _ hby]

/-- An operation of a family of operands (a concatenation). -/
theorem read_nary {n : Nat} {xs : Fin n → Ref sig .tc} {y : Ref sig .tc}
    {f : ((k : Fin n) → (xs k).ty.Contents Val) → y.ty.Contents Val}
    (hxs : ∀ k, (xs k).space ≠ .host ∧ (Proc.devRef (τ := τ) .tc (xs k)).isScoped = false := by decide)
    (hy : y.space ≠ .host ∧ (Proc.devRef (τ := τ) .tc y).isScoped = false := by exact ⟨by decide, rfl⟩)
    (hp : p < L.length := by decide) (hop : L[p] = nary xs y f hxs hy) (hne : ∀ k, xs k ≠ y := by decide) :
    after L V (Proc.devRef .tc y) = f (fun k => after L V (Proc.devRef .tc (xs k))) := by
  have hb : (nary (τ := τ) xs y f hxs hy).bufs
      = insert (Proc.devRef .tc y) (Finset.univ.image fun k => Proc.devRef (τ := τ) .tc (xs k)) := rfl
  have hy' : Proc.devRef .tc y ∈ L[p].bufs := by rw [hop, hb]; exact Finset.mem_insert_self _ _
  have hx' : ∀ k, Proc.devRef .tc (xs k) ∈ L[p].bufs := fun k => by
    rw [hop, hb]; exact Finset.mem_insert_of_mem (Finset.mem_image_of_mem _ (Finset.mem_univ k))
  rw [after_at hL p hp V hy', hop, nary_result]
  congr 1
  funext k
  rw [after_at hL p hp V (hx' k), hop, nary_result_ne _ _ _ _ _ _ (hne k)]

end Cert.HostRead

end
-- ==== Proof.LibHostRank.lean ====
/-
  Freshness of a straight line of host operations from a ranking of its buffers.

  A line is fresh when no operation writes a buffer that an earlier operation reads or writes. Checked pair by pair that
  is quadratic in the length of the line. When the buffers carry a rank — their index in the buffer table, say — such
  that operation number p writes only buffers of rank n + p and touches only buffers of rank at most n + p, the line is
  fresh: a later operation's results have a larger rank than anything an earlier one touches. That condition is linear
  in the length of the line, and it splits along a concatenation.
-/
import proofs.«409075_j43920335569479_3_alg».proof.Proof.LibHostRead

noncomputable section

namespace Cert.HostRead

open Idealize.ShloMosaic Idealize.ShloMosaic.StableHlo

variable {τ : Topo} {sig : RefSig} {Val : EltTy → Type}

/-- From rank n on, each operation writes only buffers of the next rank and touches only buffers up to it. -/
def Ranked (rk : DevRef τ sig → Nat) : Nat → List (HloOp τ sig Val) → Prop
  | _, [] => True
  | n, o :: l => (∀ b ∈ o.writes, rk b = n) ∧ (∀ b ∈ o.bufs, rk b ≤ n) ∧ Ranked rk (n + 1) l

instance decRanked (rk : DevRef τ sig → Nat) : ∀ (n : Nat) (L : List (HloOp τ sig Val)), Decidable (Ranked rk n L)
  | _, [] => isTrue trivial
  | n, o :: l =>
    have := decRanked rk (n + 1) l
    inferInstanceAs (Decidable ((∀ b ∈ o.writes, rk b = n) ∧ (∀ b ∈ o.bufs, rk b ≤ n) ∧ Ranked rk (n + 1) l))

/-- A ranked line followed by a line ranked from where the first ends is ranked. -/
theorem Ranked.append (rk : DevRef τ sig → Nat) : ∀ (n : Nat) (L₁ L₂ : List (HloOp τ sig Val)),
    Ranked rk n L₁ → Ranked rk (n + L₁.length) L₂ → Ranked rk n (L₁ ++ L₂)
  | n, [], L₂, _, h₂ => by simpa using h₂
  | n, o :: l, L₂, h₁, h₂ => by
    refine ⟨h₁.1, h₁.2.1, Ranked.append rk (n + 1) l L₂ h₁.2.2 ?_⟩
    have e : n + 1 + l.length = n + (o :: l).length := by simp [List.length_cons]; omega
    rw [e]; exact h₂

/-- In a line ranked from n every operation writes only buffers of rank at least n. -/
theorem Ranked.le_of_mem_writes (rk : DevRef τ sig → Nat) : ∀ (n : Nat) (L : List (HloOp τ sig Val)), Ranked rk n L →
    ∀ o ∈ L, ∀ b ∈ o.writes, n ≤ rk b
  | _, [], _, o, ho, _, _ => absurd ho List.not_mem_nil
  | n, o' :: l, h, o, ho, b, hb => by
    rcases List.mem_cons.mp ho with rfl | ho
    · exact (h.1 b hb).ge
    · exact Nat.le_of_succ_le (Ranked.le_of_mem_writes rk (n + 1) l h.2.2 o ho b hb)

/-- A buffer ranked below a line's first rank is written by no operation of the line: it keeps its contents. -/
theorem Ranked.after_of_lt (rk : DevRef τ sig → Nat) (n : Nat) (L : List (HloOp τ sig Val)) (h : Ranked rk n L)
    (V : Valuation τ sig Val) (b : DevRef τ sig) (hb : rk b < n) : after L V b = V b :=
  after_of_forall_not_mem _ _ fun o ho hw => by
    have := Ranked.le_of_mem_writes rk n L h o ho b hw
    omega

/-- A ranked line is fresh. -/
theorem Ranked.fresh (rk : DevRef τ sig → Nat) : ∀ (n : Nat) (L : List (HloOp τ sig Val)), Ranked rk n L → Fresh L
  | _, [], _ => List.Pairwise.nil
  | n, o :: l, h => by
    refine List.Pairwise.cons (fun o' ho' => ?_) (Ranked.fresh rk (n + 1) l h.2.2)
    refine Finset.disjoint_left.mpr fun b hw hb => ?_
    have h1 : n + 1 ≤ rk b := Ranked.le_of_mem_writes rk (n + 1) l h.2.2 o' ho' b hw
    have h2 : rk b ≤ n := h.2.1 b hb
    omega

end Cert.HostRead

end
-- ==== Proof.KFresh.lean ====
/-
  The host lines before the region write every buffer once, in the order of the buffer table: line number p writes the
  buffer at place 4 + p (the four arguments hold places 0 to 3) and reads only earlier places. So after the whole line
  each buffer holds its operation's function of the operand buffers' final contents, and an argument is never rewritten.
-/
import proofs.«409075_j43920335569479_3_alg».proof.Proof.KEntry
import proofs.«409075_j43920335569479_3_alg».proof.Proof.LibHostRank
import Idealize.ShloMosaic.PureOps.Ideal

noncomputable section

namespace Cert.KernelIdeal.Hand

open Cert.KernelIdeal Cert.KernelIdeal.Gen Cert.HostRead
open Idealize.ShloMosaic Idealize.ShloMosaic.TcCoe Idealize.SL.Sem

/-- A buffer's place in the table of device buffers. -/
def place (b : DevRef τ sig) : Nat := match b.table with | .hbm => b.idx.val | _ => 0

set_option maxRecDepth 100000 in
set_option maxHeartbeats 4000000 in
/-- Line p writes place 4 + p and touches no later place. -/
theorem entry_ranked : Ranked (Val := Elt Ideal) place 4 (entryLine (F := Ideal)) := by
  decide +kernel

/-- No line writes a buffer an earlier line read or wrote. -/
theorem entry_fresh : Fresh (entryLine (F := Ideal)) := Ranked.fresh place 4 _ entry_ranked

end Cert.KernelIdeal.Hand

end
-- ==== Proof.KHostBase.lean ====
/-
  The base stages of the host lines at an index: the literal signs 2·bit − 1 as reals, the clause weights clipped to
  [0, 500], the one-hot selection of each literal's predicate, its signed and transposed form, the sign-times-weight
  rows, and the atoms folded two groundings to a row of 128 lanes.
-/
import proofs.«409075_j43920335569479_3_alg».proof.Proof.KFresh
import proofs.«409075_j43920335569479_3_alg».proof.Proof.Spec
import Idealize.ShloMosaic.Lib.Pipeline.Value
import Idealize.ShloMosaic.Lib.ValueIdx

noncomputable section

namespace Cert.KernelIdeal.Hand

open Cert.KernelIdeal Cert.KernelIdeal.Gen Cert.HostRead
open Idealize.ShloMosaic Idealize.ShloMosaic.TcCoe Idealize.SL.Sem Idealize.ShloMosaic.ValueIdx

variable (m : (ℓ : Loc nD τ sig) → Buf (Elt Ideal) ℓ) (c : Dev nD)

/-! ## The four arguments are never rewritten -/

theorem arg0_eq : V m c main_arg0 = m ((c : Thread nD τ).loc main_arg0) :=
  Ranked.after_of_lt place 4 _ entry_ranked _ _ (by decide)

theorem arg1_eq : V m c main_arg1 = m ((c : Thread nD τ).loc main_arg1) :=
  Ranked.after_of_lt place 4 _ entry_ranked _ _ (by decide)

theorem arg2_eq : V m c main_arg2 = m ((c : Thread nD τ).loc main_arg2) :=
  Ranked.after_of_lt place 4 _ entry_ranked _ _ (by decide)

theorem arg3_eq : V m c main_arg3 = m ((c : Thread nD τ).loc main_arg3) :=
  Ranked.after_of_lt place 4 _ entry_ranked _ _ (by decide)

/-! ## The folded atoms -/

set_option maxHeartbeats 2000000 in
/-- The folded atoms are the atoms reshaped. -/
theorem v81_eq : (V m c main_v81 : (⟨S65536x128, .f32⟩ : BufTy).Contents (Elt Ideal))
    = fun i => shapeCast S65536x128 (V m c main_arg0) shapeCasts_S131072x64_S65536x128 i :=
  read_reshape entry_fresh 101 (x := main_arg0) (y := main_v81) (hop := rfl)

/-- Entry (r, q) of the folded atoms sits at row-major place 128 r + q = 64 (2 r + q / 64) + q % 64 of the atoms. -/
theorem folded_apply (r : Fin 65536) (q : Fin 128) :
    V m c main_v81 (ix2 r q) = Cert.Spec.folded (m ((c : Thread nD τ).loc main_arg0)) r q := by
  have h := congrFun (v81_eq m c) (ix2 r q)
  refine h.trans ?_
  have hk : ((S131072x64).rowMajor (ix2 (⟨2 * r.val + q.val / 64, by have := r.isLt; have := q.isLt; omega⟩ : Fin 131072)
        (⟨q.val % 64, Nat.mod_lt _ (by norm_num)⟩ : Fin 64))).val = ((S65536x128).rowMajor (ix2 r q)).val := by
    rw [Shape.rowMajor_val_two, Shape.rowMajor_val_two]
    show (2 * r.val + q.val / 64) * 64 + q.val % 64 = r.val * 128 + q.val
    omega
  refine (shapeCast_apply (s := S131072x64) (t := S65536x128) (V m c main_arg0) shapeCasts_S131072x64_S65536x128 (ix2 r q) _ hk).trans ?_
  rw [arg0_eq]; rfl

/-! ## The literal signs -/

set_option maxHeartbeats 2000000 in
theorem c_eq : V m c main_c = constantI S_ 32 2#32 :=
  read_nullary entry_fresh 0 (y := main_c) (hop := rfl)

set_option maxHeartbeats 2000000 in
theorem v0_eq : V m c main_v0 = broadcastInDim (α := BitVec 32) S128x3 ![] bcast_S_S128x3 (V m c main_c) :=
  read_unary entry_fresh 1 (x := main_c) (y := main_v0) (hop := rfl)

set_option maxHeartbeats 2000000 in
theorem v1_eq : V m c main_v1 = muli (s := S128x3) (w := 32) (V m c main_v0) (V m c main_arg3) :=
  read_binary entry_fresh 2 (a := main_v0) (b := main_arg3) (y := main_v1) (hop := rfl)

set_option maxHeartbeats 2000000 in
theorem c_0_eq : V m c main_c_0 = constantI S_ 32 1#32 :=
  read_nullary entry_fresh 3 (y := main_c_0) (hop := rfl)

set_option maxHeartbeats 2000000 in
theorem v2_eq : V m c main_v2 = broadcastInDim (α := BitVec 32) S128x3 ![] bcast_S_S128x3 (V m c main_c_0) :=
  read_unary entry_fresh 4 (x := main_c_0) (y := main_v2) (hop := rfl)

set_option maxHeartbeats 2000000 in
theorem v3_eq : V m c main_v3 = subi (s := S128x3) (w := 32) (V m c main_v1) (V m c main_v2) :=
  read_binary entry_fresh 5 (a := main_v1) (b := main_v2) (y := main_v3) (hop := rfl)

set_option maxHeartbeats 2000000 in
theorem v4_eq : V m c main_v4 = sitofp (F := Ideal) (s := S128x3) (w := 32) .f32 (V m c main_v3) :=
  read_unary entry_fresh 6 (x := main_v3) (y := main_v4) (hop := rfl)

/-- The word under a sign: twice the bit, less one. -/
theorem signWord_apply (j : S128x3.Idx) :
    V m c main_v3 j = 2#32 * m ((c : Thread nD τ).loc main_arg3) j - 1#32 := by
  rw [v3_eq, v1_eq, v0_eq, v2_eq, c_eq, c_0_eq, arg3_eq]
  rfl

/-- A literal's sign is the real number its word 2·bit − 1 stands for, read signed. -/
theorem sign_apply (c' : Fin 128) (l : Fin 3) :
    V m c main_v4 (ix2 c' l) = Cert.Spec.sgn (m ((c : Thread nD τ).loc main_arg3) (ix2 c' l)) := by
  have h := congrFun (v4_eq m c) (ix2 c' l)
  refine h.trans ?_
  show (((V m c main_v3 (ix2 c' l)).toInt : ℝ) : EReal) = _
  rw [signWord_apply]
  rfl

/-! ## The clipped clause weights -/

set_option maxHeartbeats 2000000 in
theorem cst_eq : V m c main_cst = constant (F := Ideal) S_ .f32 0x00000000#32 :=
  read_nullary entry_fresh 7 (y := main_cst) (hop := rfl)

set_option maxHeartbeats 2000000 in
theorem cst_1_eq : V m c main_cst_1 = constant (F := Ideal) S_ .f32 0x43FA0000#32 :=
  read_nullary entry_fresh 8 (y := main_cst_1) (hop := rfl)

set_option maxHeartbeats 2000000 in
theorem call0_v0_eq : V m c main_call0_v0 = V m c main_cst :=
  read_unary entry_fresh 9 (x := main_cst) (y := main_call0_v0) (f := id) (hop := rfl)

set_option maxHeartbeats 2000000 in
theorem call0_v1_eq : V m c main_call0_v1 = broadcastInDim (α := EReal) S128 ![] bcast_S_S128 (V m c main_call0_v0) :=
  read_unary entry_fresh 10 (x := main_call0_v0) (y := main_call0_v1) (hop := rfl)

set_option maxHeartbeats 2000000 in
theorem call0_v2_eq : V m c main_call0_v2 = maximumf (F := Ideal) (s := S128) (φ := .f32) (V m c main_call0_v1) (V m c main_arg1) :=
  read_binary entry_fresh 11 (a := main_call0_v1) (b := main_arg1) (y := main_call0_v2) (hop := rfl)

set_option maxHeartbeats 2000000 in
theorem call0_v3_eq : V m c main_call0_v3 = V m c main_cst_1 :=
  read_unary entry_fresh 12 (x := main_cst_1) (y := main_call0_v3) (f := id) (hop := rfl)

set_option maxHeartbeats 2000000 in
theorem call0_v4_eq : V m c main_call0_v4 = broadcastInDim (α := EReal) S128 ![] bcast_S_S128 (V m c main_call0_v3) :=
  read_unary entry_fresh 13 (x := main_call0_v3) (y := main_call0_v4) (hop := rfl)

set_option maxHeartbeats 2000000 in
theorem v5_eq : V m c main_v5 = minimumf (F := Ideal) (s := S128) (φ := .f32) (V m c main_call0_v4) (V m c main_call0_v2) :=
  read_binary entry_fresh 14 (a := main_call0_v4) (b := main_call0_v2) (y := main_v5) (hop := rfl)

/-- A clause's weight after the clip: the smaller of 500 and the larger of 0 and the weight. -/
theorem weight_apply (c' : Fin 128) :
    V m c main_v5 (ix1 c') = Cert.Spec.wt (m ((c : Thread nD τ).loc main_arg1) (ix1 c')) := by
  rw [v5_eq, call0_v4_eq, call0_v3_eq, cst_1_eq, call0_v2_eq, call0_v1_eq, call0_v0_eq, cst_eq, arg1_eq]
  rfl

/-! ## The one-hot selection of each literal's predicate -/

set_option maxHeartbeats 2000000 in
theorem v6_eq : V m c main_v6 = transpose (α := BitVec 32) S3x128 [1, 0] (V m c main_arg2) transposes_S128x3_S3x128_1_0 :=
  read_unary entry_fresh 15 (x := main_arg2) (y := main_v6)
    (f := fun x => transpose S3x128 [1, 0] x transposes_S128x3_S3x128_1_0) (hop := rfl)

set_option maxHeartbeats 2000000 in
theorem v7_eq : V m c main_v7 = transpose (α := EReal) S3x128 [1, 0] (V m c main_v4) transposes_S128x3_S3x128_1_0 :=
  read_unary entry_fresh 16 (x := main_v4) (y := main_v7)
    (f := fun x => transpose S3x128 [1, 0] x transposes_S128x3_S3x128_1_0) (hop := rfl)

set_option maxHeartbeats 2000000 in
theorem call1_v0_eq : V m c main_call1_v0
    = broadcastInDim (α := BitVec 32) S3x128x1 ![0, 1] bcast_S3x128_S3x128x1_0_1 (V m c main_v6) :=
  read_unary entry_fresh 17 (x := main_v6) (y := main_call1_v0) (hop := rfl)

set_option maxHeartbeats 2000000 in
theorem call1_v1_eq : V m c main_call1_v1 = iotaInDim S1x1x64 32 2 :=
  read_nullary entry_fresh 18 (y := main_call1_v1) (hop := rfl)

set_option maxHeartbeats 2000000 in
theorem call1_v2_eq : V m c main_call1_v2
    = broadcastInDim (α := BitVec 32) S3x128x64 ![0, 1, 2] bcast_S3x128x1_S3x128x64_0_1_2 (V m c main_call1_v0) :=
  read_unary entry_fresh 19 (x := main_call1_v0) (y := main_call1_v2) (hop := rfl)

set_option maxHeartbeats 2000000 in
theorem call1_v3_eq : V m c main_call1_v3
    = broadcastInDim (α := BitVec 32) S3x128x64 ![0, 1, 2] bcast_S1x1x64_S3x128x64_0_1_2 (V m c main_call1_v1) :=
  read_unary entry_fresh 20 (x := main_call1_v1) (y := main_call1_v3) (hop := rfl)

set_option maxHeartbeats 2000000 in
theorem call1_v4_eq : V m c main_call1_v4 = cmpi (s := S3x128x64) (w := 32) .eq (V m c main_call1_v2) (V m c main_call1_v3) :=
  read_binary entry_fresh 21 (a := main_call1_v2) (b := main_call1_v3) (y := main_call1_v4) (hop := rfl)

set_option maxHeartbeats 2000000 in
theorem v8_eq : V m c main_v8 = uitofp (F := Ideal) (s := S3x128x64) (w := 1) .f32 (V m c main_call1_v4) :=
  read_unary entry_fresh 22 (x := main_call1_v4) (y := main_v8) (hop := rfl)

/-- The transposed index words: entry (l, c) is literal l of clause c. -/
theorem idxT_apply (l : Fin 3) (c' : Fin 128) :
    V m c main_v6 (ix2 l c') = m ((c : Thread nD τ).loc main_arg2) (ix2 c' l) := by
  have h := congrFun (v6_eq m c) (ix2 l c')
  refine h.trans ?_
  refine (transpose_apply (s := S128x3) (t := S3x128) [1, 0] (V m c main_arg2) transposes_S128x3_S3x128_1_0 (ix2 l c') (ix2 c' l)
    (fun b => match b with | ⟨0, _⟩ => rfl | ⟨1, _⟩ => rfl)).trans ?_
  rw [arg2_eq]

/-- The transposed signs: entry (l, c) is the sign of literal l of clause c. -/
theorem signT_apply (l : Fin 3) (c' : Fin 128) :
    V m c main_v7 (ix2 l c') = Cert.Spec.sgn (m ((c : Thread nD τ).loc main_arg3) (ix2 c' l)) := by
  have h := congrFun (v7_eq m c) (ix2 l c')
  refine h.trans ?_
  refine (transpose_apply (s := S128x3) (t := S3x128) [1, 0] (V m c main_v4) transposes_S128x3_S3x128_1_0 (ix2 l c') (ix2 c' l)
    (fun b => match b with | ⟨0, _⟩ => rfl | ⟨1, _⟩ => rfl)).trans ?_
  exact sign_apply m c c' l

/-- A 32-bit word equals the word of a number below 64 exactly when it stands for that number. -/
theorem word_eq_ofNat_iff (x : BitVec 32) (p : Fin 64) : x = BitVec.ofNat 32 p.val ↔ x.toNat = p.val := by
  have hp := p.isLt
  constructor
  · intro h
    rw [h, BitVec.toNat_ofNat]
    omega
  · intro h
    apply BitVec.eq_of_toNat_eq
    rw [BitVec.toNat_ofNat, h]
    omega

/-- The comparison of a word with a number below 64, read as a real: one where they agree, else zero. -/
theorem hot_scalar (x : BitVec 32) (p : Fin 64) :
    (FloatOps.uitofp (F := Ideal) .f32 (IntOp.cmpi .eq x (BitVec.ofNat 32 p.val)) : EReal)
      = if x.toNat = p.val then 1 else 0 := by
  show (((BitVec.ofBool (x == BitVec.ofNat 32 p.val)).toNat : ℝ) : EReal) = _
  by_cases h : x.toNat = p.val
  · rw [if_pos h, (word_eq_ofNat_iff x p).2 h]
    simp
  · rw [if_neg h]
    have hne : ¬ x = BitVec.ofNat 32 p.val := fun e => h ((word_eq_ofNat_iff x p).1 e)
    simp [hne]

/-- The one-hot selection: entry (l, c, p) is one where literal l of clause c names predicate p. -/
theorem onehot_apply (l : Fin 3) (c' : Fin 128) (p : Fin 64) :
    V m c main_v8 (ix3 l c' p)
      = (if (m ((c : Thread nD τ).loc main_arg2) (ix2 c' l)).toNat = p.val then 1 else 0 : EReal) := by
  have h := congrFun (v8_eq m c) (ix3 l c' p)
  refine h.trans ?_
  have h2 : V m c main_call1_v2 (ix3 l c' p) = m ((c : Thread nD τ).loc main_arg2) (ix2 c' l) := by
    have e := congrFun (call1_v2_eq m c) (ix3 l c' p)
    refine e.trans ?_
    refine (broadcastInDim_apply (s := S3x128x1) (t := S3x128x64) ![0, 1, 2] bcast_S3x128x1_S3x128x64_0_1_2 (V m c main_call1_v0)
      (ix3 l c' p) (ix3 l c' (0 : Fin 1)) (fun a => match a with | ⟨0, _⟩ => rfl | ⟨1, _⟩ => rfl | ⟨2, _⟩ => rfl)).trans ?_
    have e0 := congrFun (call1_v0_eq m c) (ix3 l c' (0 : Fin 1))
    refine e0.trans ?_
    refine (broadcastInDim_apply (s := S3x128) (t := S3x128x1) ![0, 1] bcast_S3x128_S3x128x1_0_1 (V m c main_v6)
      (ix3 l c' (0 : Fin 1)) (ix2 l c') (fun a => match a with | ⟨0, _⟩ => rfl | ⟨1, _⟩ => rfl)).trans ?_
    exact idxT_apply m c l c'
  have h3 : V m c main_call1_v3 (ix3 l c' p) = BitVec.ofNat 32 p.val := by
    have e := congrFun (call1_v3_eq m c) (ix3 l c' p)
    refine e.trans ?_
    refine (broadcastInDim_apply (s := S1x1x64) (t := S3x128x64) ![0, 1, 2] bcast_S1x1x64_S3x128x64_0_1_2 (V m c main_call1_v1)
      (ix3 l c' p) (ix3 (0 : Fin 1) (0 : Fin 1) p) (fun a => match a with | ⟨0, _⟩ => rfl | ⟨1, _⟩ => rfl | ⟨2, _⟩ => rfl)).trans ?_
    rw [call1_v1_eq]
    rfl
  show FloatOps.uitofp (F := Ideal) .f32 (V m c main_call1_v4 (ix3 l c' p)) = _
  rw [call1_v4_eq]
  show FloatOps.uitofp (F := Ideal) .f32 (IntOp.cmpi .eq (V m c main_call1_v2 (ix3 l c' p)) (V m c main_call1_v3 (ix3 l c' p))) = _
  rw [h2, h3]
  exact hot_scalar _ p

/-! ## The signed one-hot columns and the sign-times-weight rows -/

set_option maxHeartbeats 2000000 in
theorem v9_eq : V m c main_v9
    = transpose (α := EReal) S3x64x128 [0, 2, 1] (V m c main_v8) transposes_S3x128x64_S3x64x128_0_2_1 :=
  read_unary entry_fresh 23 (x := main_v8) (y := main_v9)
    (f := fun x => transpose S3x64x128 [0, 2, 1] x transposes_S3x128x64_S3x64x128_0_2_1) (hop := rfl)

set_option maxHeartbeats 2000000 in
theorem v10_eq : V m c main_v10 = broadcastInDim (α := EReal) S3x1x128 ![0, 2] bcast_S3x128_S3x1x128_0_2 (V m c main_v7) :=
  read_unary entry_fresh 24 (x := main_v7) (y := main_v10) (hop := rfl)

set_option maxHeartbeats 2000000 in
theorem v11_eq : V m c main_v11
    = broadcastInDim (α := EReal) S3x64x128 ![0, 1, 2] bcast_S3x1x128_S3x64x128_0_1_2 (V m c main_v10) :=
  read_unary entry_fresh 25 (x := main_v10) (y := main_v11) (hop := rfl)

set_option maxHeartbeats 2000000 in
theorem v12_eq : V m c main_v12 = mulf (F := Ideal) (s := S3x64x128) (φ := .f32) (V m c main_v9) (V m c main_v11) :=
  read_binary entry_fresh 26 (a := main_v9) (b := main_v11) (y := main_v12) (hop := rfl)

set_option maxHeartbeats 2000000 in
theorem v13_eq : V m c main_v13 = broadcastInDim (α := EReal) S1x128 ![1] bcast_S128_S1x128_1 (V m c main_v5) :=
  read_unary entry_fresh 27 (x := main_v5) (y := main_v13) (hop := rfl)

set_option maxHeartbeats 2000000 in
theorem v14_eq : V m c main_v14 = broadcastInDim (α := EReal) S3x128 ![0, 1] bcast_S1x128_S3x128_0_1 (V m c main_v13) :=
  read_unary entry_fresh 28 (x := main_v13) (y := main_v14) (hop := rfl)

set_option maxHeartbeats 2000000 in
theorem v15_eq : V m c main_v15 = mulf (F := Ideal) (s := S3x128) (φ := .f32) (V m c main_v7) (V m c main_v14) :=
  read_binary entry_fresh 29 (a := main_v7) (b := main_v14) (y := main_v15) (hop := rfl)

/-- The one-hot selection with its last two axes exchanged: entry (l, p, c). -/
theorem onehotT_apply (l : Fin 3) (p : Fin 64) (c' : Fin 128) :
    V m c main_v9 (ix3 l p c')
      = (if (m ((c : Thread nD τ).loc main_arg2) (ix2 c' l)).toNat = p.val then 1 else 0 : EReal) := by
  have e := congrFun (v9_eq m c) (ix3 l p c')
  refine e.trans ?_
  refine (transpose_apply (s := S3x128x64) (t := S3x64x128) [0, 2, 1] (V m c main_v8) transposes_S3x128x64_S3x64x128_0_2_1
    (ix3 l p c') (ix3 l c' p) (fun b => match b with | ⟨0, _⟩ => rfl | ⟨1, _⟩ => rfl | ⟨2, _⟩ => rfl)).trans ?_
  exact onehot_apply m c l c' p

/-- The transposed signs repeated along the predicate axis: entry (l, p, c) is the sign of literal l of clause c. -/
theorem signRep_apply (l : Fin 3) (p : Fin 64) (c' : Fin 128) :
    V m c main_v11 (ix3 l p c') = Cert.Spec.sgn (m ((c : Thread nD τ).loc main_arg3) (ix2 c' l)) := by
  have e := congrFun (v11_eq m c) (ix3 l p c')
  refine e.trans ?_
  refine (broadcastInDim_apply (s := S3x1x128) (t := S3x64x128) ![0, 1, 2] bcast_S3x1x128_S3x64x128_0_1_2 (V m c main_v10)
    (ix3 l p c') (ix3 l (0 : Fin 1) c') (fun a => match a with | ⟨0, _⟩ => rfl | ⟨1, _⟩ => rfl | ⟨2, _⟩ => rfl)).trans ?_
  have e0 := congrFun (v10_eq m c) (ix3 l (0 : Fin 1) c')
  refine e0.trans ?_
  refine (broadcastInDim_apply (s := S3x128) (t := S3x1x128) ![0, 2] bcast_S3x128_S3x1x128_0_2 (V m c main_v7)
    (ix3 l (0 : Fin 1) c') (ix2 l c') (fun a => match a with | ⟨0, _⟩ => rfl | ⟨1, _⟩ => rfl)).trans ?_
  exact signT_apply m c l c'

/-- The signed one-hot columns: entry (l, p, c) is the sign of literal l of clause c where that literal names predicate
    p, else zero (one times the sign, zero times the sign). -/
theorem signedhot_apply (l : Fin 3) (p : Fin 64) (c' : Fin 128) :
    V m c main_v12 (ix3 l p c')
      = (if (m ((c : Thread nD τ).loc main_arg2) (ix2 c' l)).toNat = p.val
          then Cert.Spec.sgn (m ((c : Thread nD τ).loc main_arg3) (ix2 c' l)) else 0 : EReal) := by
  have h := congrFun (v12_eq m c) (ix3 l p c')
  refine h.trans ?_
  refine (mulf_apply (s := S3x64x128) (φ := .f32) (V m c main_v9) (V m c main_v11) (ix3 l p c')).trans ?_
  rw [onehotT_apply m c l p c', signRep_apply m c l p c']
  by_cases hx : (m ((c : Thread nD τ).loc main_arg2) (ix2 c' l)).toNat = p.val
  · rw [if_pos hx, if_pos hx, one_mul]
  · rw [if_neg hx, if_neg hx, zero_mul]

/-- The clipped weights repeated for the three literals: entry (l, c) is the clipped weight of clause c. -/
theorem weightRep_apply (l : Fin 3) (c' : Fin 128) :
    V m c main_v14 (ix2 l c') = Cert.Spec.wt (m ((c : Thread nD τ).loc main_arg1) (ix1 c')) := by
  have e := congrFun (v14_eq m c) (ix2 l c')
  refine e.trans ?_
  refine (broadcastInDim_apply (s := S1x128) (t := S3x128) ![0, 1] bcast_S1x128_S3x128_0_1 (V m c main_v13)
    (ix2 l c') (ix2 (0 : Fin 1) c') (fun a => match a with | ⟨0, _⟩ => rfl | ⟨1, _⟩ => rfl)).trans ?_
  have e0 := congrFun (v13_eq m c) (ix2 (0 : Fin 1) c')
  refine e0.trans ?_
  refine (broadcastInDim_apply (s := S128) (t := S1x128) ![1] bcast_S128_S1x128_1 (V m c main_v5)
    (ix2 (0 : Fin 1) c') (ix1 c') (fun a => match a with | ⟨0, _⟩ => rfl)).trans ?_
  exact weight_apply m c c'

/-- The sign-times-weight rows: entry (l, c) is the sign of literal l of clause c times the clause's clipped weight. -/
theorem scaleT_apply (l : Fin 3) (c' : Fin 128) :
    V m c main_v15 (ix2 l c')
      = Cert.Spec.sgn (m ((c : Thread nD τ).loc main_arg3) (ix2 c' l)) * Cert.Spec.wt (m ((c : Thread nD τ).loc main_arg1) (ix1 c')) := by
  have h := congrFun (v15_eq m c) (ix2 l c')
  refine h.trans ?_
  refine (mulf_apply (s := S3x128) (φ := .f32) (V m c main_v7) (V m c main_v14) (ix2 l c')).trans ?_
  rw [signT_apply m c l c', weightRep_apply m c l c']

end Cert.KernelIdeal.Hand

end
-- ==== Proof.KHostG.lean ====
/-
  The first table of the kernel, read at an index.

  From the signed one-hot stage X [3,64,128] (literal, atom, clause) the host lines build, for each literal l, the
  [128,256] block-diagonal array with the slab X[l] twice on its diagonal and zeros elsewhere, round it to bf16 (the
  identity on ideal numbers), stack its 128 rows twice to a [256,256] plane, and lay the three planes side by side:
  the table G [256,768]. So G at (k, n) is X at (n / 256, k mod 64, n mod 128) when the row half (k mod 128) / 64 and
  the column half (n mod 256) / 128 agree, and 0 otherwise.

  First three facts about arrays in general (the diagonal doubling, the row doubling, three planes side by side), then
  one literal's plane from its nine lines, then the lines' equations and the table.
-/
import proofs.«409075_j43920335569479_3_alg».proof.Proof.KFresh
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Hand
open Cert.KernelIdeal Cert.KernelIdeal.Gen Cert.HostRead
open Idealize.ShloMosaic Idealize.ShloMosaic.TcCoe Idealize.SL.Sem
open Idealize.ShloMosaic.ValueIdx

section Doubling
variable {α : Type}

/-- A [64,128] array A laid twice on the diagonal of a [128,256] array, the off-diagonal blocks filled from an
    array Z whose every entry is z: at (k, n) it reads A at (k mod 64, n mod 128) when the row half k / 64 and
    the column half n / 128 agree, and z otherwise. -/
theorem blockDiag_apply (A Z : S64x128.Idx → α) (z : α) (hZ : ∀ i, Z i = z)
    (h1 : Shape.Concatenates [S64x128, S64x128] S64x256 1) (h0 : Shape.Concatenates [S64x256, S64x256] S128x256 0)
    (k : Fin 128) (n : Fin 256) (a : Fin 64) (b : Fin 128) (ha : a.val = k.val % 64) (hb : b.val = n.val % 128) :
    concatenate S128x256 0 [⟨S64x256, concatenate S64x256 1 [⟨S64x128, A⟩, ⟨S64x128, Z⟩] h1⟩,
        ⟨S64x256, concatenate S64x256 1 [⟨S64x128, Z⟩, ⟨S64x128, A⟩] h1⟩] h0 (ix2 k n)
      = if k.val / 64 = n.val / 128 then A (ix2 a b) else z := by
  have hk := k.isLt
  have hn := n.isLt
  by_cases hk64 : k.val < 64
  · -- the upper 64 rows are the rows of [A, Z]
    refine (concatenate_pair_apply_left (0 : Fin S128x256.rank) _ _ h0 (ix2 k n) rfl (ix2 a n) ?_).trans ?_
    · intro d
      match d with
      | ⟨0, _⟩ => show a.val = k.val; omega
      | ⟨1, _⟩ => rfl
    by_cases hn128 : n.val < 128
    · rw [if_pos (by omega)]
      refine concatenate_pair_apply_left (1 : Fin S64x256.rank) A Z h1 (ix2 a n) rfl (ix2 a b) ?_
      intro d
      match d with
      | ⟨0, _⟩ => rfl
      | ⟨1, _⟩ => show b.val = n.val; omega
    · rw [if_neg (by omega)]
      refine (concatenate_pair_apply_right (1 : Fin S64x256.rank) A Z h1 (ix2 a n) rfl rfl (ix2 a b) ?_ ?_).trans (hZ _)
      · intro d hd
        match d with
        | ⟨0, _⟩ => rfl
        | ⟨1, _⟩ => exact absurd rfl hd
      · show b.val + 128 = n.val; omega
  · -- the lower 64 rows are the rows of [Z, A]
    refine (concatenate_pair_apply_right (0 : Fin S128x256.rank) _ _ h0 (ix2 k n) rfl rfl (ix2 a n) ?_ ?_).trans ?_
    · intro d hd
      match d with
      | ⟨0, _⟩ => exact absurd rfl hd
      | ⟨1, _⟩ => rfl
    · show a.val + 64 = k.val; omega
    by_cases hn128 : n.val < 128
    · rw [if_neg (by omega)]
      refine (concatenate_pair_apply_left (1 : Fin S64x256.rank) Z A h1 (ix2 a n) rfl (ix2 a b) ?_).trans (hZ _)
      intro d
      match d with
      | ⟨0, _⟩ => rfl
      | ⟨1, _⟩ => show b.val = n.val; omega
    · rw [if_pos (by omega)]
      refine concatenate_pair_apply_right (1 : Fin S64x256.rank) Z A h1 (ix2 a n) rfl rfl (ix2 a b) ?_ ?_
      · intro d hd
        match d with
        | ⟨0, _⟩ => rfl
        | ⟨1, _⟩ => exact absurd rfl hd
      · show b.val + 128 = n.val; omega

/-- The same 128 rows D stacked twice: row k of the [256,256] result is row k mod 128 of D. -/
theorem rowTwice_apply (D : S128x256.Idx → α) (h : Shape.Concatenates [S128x256, S128x256] S256x256 0)
    (k : Fin 256) (n : Fin 256) (r : Fin 128) (hr : r.val = k.val % 128) :
    concatenate S256x256 0 [⟨S128x256, D⟩, ⟨S128x256, D⟩] h (ix2 k n) = D (ix2 r n) := by
  have hk := k.isLt
  by_cases hk128 : k.val < 128
  · refine concatenate_pair_apply_left (0 : Fin S256x256.rank) D D h (ix2 k n) rfl (ix2 r n) ?_
    intro d
    match d with
    | ⟨0, _⟩ => show r.val = k.val; omega
    | ⟨1, _⟩ => rfl
  · refine concatenate_pair_apply_right (0 : Fin S256x256.rank) D D h (ix2 k n) rfl rfl (ix2 r n) ?_ ?_
    · intro d hd
      match d with
      | ⟨0, _⟩ => exact absurd rfl hd
      | ⟨1, _⟩ => rfl
    · show r.val + 128 = k.val; omega

/-- Three [256,256] planes side by side: column n of the [256,768] result lies in the first plane below 256, in the
    second below 512 and in the third from there on, at column n mod 256. -/
theorem threePlanes_apply (P0 P1 P2 : S256x256.Idx → α)
    (h : Shape.Concatenates [S256x256, S256x256, S256x256] S256x768 1)
    (k : Fin 256) (n : Fin 768) (q : Fin 256) (hq : q.val = n.val % 256) :
    concatenate S256x768 1 [⟨S256x256, P0⟩, ⟨S256x256, P1⟩, ⟨S256x256, P2⟩] h (ix2 k n)
      = if n.val < 256 then P0 (ix2 k q) else if n.val < 512 then P1 (ix2 k q) else P2 (ix2 k q) := by
  have hn := n.isLt
  have hoff : ∀ d : Fin S256x256.rank, d.cast (rfl : S256x256.rank = S256x768.rank) ≠ (1 : Fin S256x768.rank) →
      ((ix2 k q : S256x256.Idx) d).val = ((ix2 k n : S256x768.Idx) (d.cast rfl)).val := by
    intro d hd
    match d with
    | ⟨0, _⟩ => rfl
    | ⟨1, _⟩ => exact absurd rfl hd
  by_cases h0 : n.val < 256
  · rw [if_pos h0]
    exact concatenate_apply_piece (1 : Fin S256x768.rank) [⟨S256x256, P0⟩, ⟨S256x256, P1⟩, ⟨S256x256, P2⟩] h (ix2 k n)
      0 (show 0 < 3 by omega) S256x256 P0 rfl rfl 0 rfl (ix2 k q) hoff (by show 0 + q.val = n.val; omega)
  · rw [if_neg h0]
    by_cases h1 : n.val < 512
    · rw [if_pos h1]
      exact concatenate_apply_piece (1 : Fin S256x768.rank) [⟨S256x256, P0⟩, ⟨S256x256, P1⟩, ⟨S256x256, P2⟩] h (ix2 k n)
        1 (show 1 < 3 by omega) S256x256 P1 rfl rfl 256 rfl (ix2 k q) hoff (by show 256 + q.val = n.val; omega)
    · rw [if_neg h1]
      exact concatenate_apply_piece (1 : Fin S256x768.rank) [⟨S256x256, P0⟩, ⟨S256x256, P1⟩, ⟨S256x256, P2⟩] h (ix2 k n)
        2 (show 2 < 3 by omega) S256x256 P2 rfl rfl 512 rfl (ix2 k q) hoff (by show 512 + q.val = n.val; omega)

end Doubling

section Plane

/-- The zero plane: a scalar constant with all bits clear, spread over a [64,128] array, is 0 at every index. -/
theorem zeroBlock_apply (hb : S_.BroadcastsInDim S64x128 (![] : Fin 0 → Fin S64x128.rank)) (i : S64x128.Idx) :
    broadcastInDim (s := S_) (α := EReal) S64x128 ![] hb (constant (F := Ideal) S_ .f32 0x00000000#32) i = 0 := by
  refine (broadcastInDim_apply (s := S_) (t := S64x128) ![] hb _ i ix0 (fun a => a.elim0)).trans ?_
  exact Ideal.ofBits_zero_f32

/-- One literal's plane read at an index. From the signed one-hot X [3,64,128] the lines cut literal o's slab, drop
    its unit axis (A17), lay it twice on the diagonal of a [128,256] array beside zero blocks (D21), round (the
    identity on ideal numbers, T22) and stack the 128 rows twice (P). So P at (k, n) is X at
    (o, k mod 64, n mod 128) when (k mod 128) / 64 = n / 128, and 0 otherwise. -/
theorem plane_read {X : S3x64x128.Idx → EReal} {o : Nat} {hs : S3x64x128.Slices ![o, 0, 0] S1x64x128}
    {hc : S1x64x128.ShapeCasts S64x128} {hb : S_.BroadcastsInDim S64x128 (![] : Fin 0 → Fin S64x128.rank)}
    {h1 : Shape.Concatenates [S64x128, S64x128] S64x256 1} {h0 : Shape.Concatenates [S64x256, S64x256] S128x256 0}
    {hD : Shape.Concatenates [S128x256, S128x256] S256x256 0} {hlt : FTy.bits .bf16 < FTy.bits .f32}
    {A16 : S1x64x128.Idx → EReal} {A17 : S64x128.Idx → EReal} {C : S_.Idx → EReal} {Z : S64x128.Idx → EReal}
    {B19 B20 : S64x256.Idx → EReal} {D21 T22 : S128x256.Idx → EReal} {P : S256x256.Idx → EReal}
    (e16 : A16 = extractStridedSlice (s := S3x64x128) S1x64x128 ![o, 0, 0] X hs)
    (e17 : A17 = fun i => shapeCast S64x128 A16 hc i)
    (eC : C = constant (F := Ideal) S_ .f32 0x00000000#32)
    (eZ : Z = broadcastInDim (s := S_) S64x128 ![] hb C)
    (e19 : B19 = concatenate S64x256 1 [⟨S64x128, A17⟩, ⟨S64x128, Z⟩] h1)
    (e20 : B20 = concatenate S64x256 1 [⟨S64x128, Z⟩, ⟨S64x128, A17⟩] h1)
    (e21 : D21 = concatenate S128x256 0 [⟨S64x256, B19⟩, ⟨S64x256, B20⟩] h0)
    (e22 : T22 = truncf (F := Ideal) (s := S128x256) (φ := .f32) .bf16 D21 hlt)
    (eP : P = concatenate S256x256 0 [⟨S128x256, T22⟩, ⟨S128x256, T22⟩] hD)
    (k n : Fin 256) (l : Fin 3) (a : Fin 64) (b : Fin 128)
    (hl : l.val = o) (ha : a.val = k.val % 64) (hb' : b.val = n.val % 128) :
    P (ix2 k n) = if (k.val % 128) / 64 = n.val / 128 then X (ix3 l a b) else 0 := by
  subst eP e22 e21 e20 e19 eZ eC e17 e16
  -- rows k and k mod 128 agree
  refine (rowTwice_apply _ hD k n ⟨k.val % 128, Nat.mod_lt _ (by norm_num)⟩ rfl).trans ?_
  -- rounding is the identity
  refine (truncf_apply (s := S128x256) (φ := .f32) _ hlt _).trans ?_
  -- the block-diagonal array
  refine (blockDiag_apply _ _ 0 (zeroBlock_apply hb) h1 h0 ⟨k.val % 128, Nat.mod_lt _ (by norm_num)⟩ n a b
    (by show a.val = k.val % 128 % 64; omega) hb').trans ?_
  show (if k.val % 128 / 64 = n.val / 128 then _ else _) = _
  congr 1
  -- the slab without its unit axis, then the slab in X
  refine (shapeCast_1ab_ab_apply _ hc a b).trans ?_
  refine extractStridedSlice_apply (s := S3x64x128) (t := S1x64x128) ![o, 0, 0] X hs _ (ix3 l a b) (fun d => ?_)
  match d with
  | ⟨0, _⟩ => show l.val = o + 0; omega
  | ⟨1, _⟩ => show a.val = 0 + a.val; omega
  | ⟨2, _⟩ => show b.val = 0 + b.val; omega

end Plane

variable (m : (ℓ : Loc nD τ sig) → Buf (Elt Ideal) ℓ) (c : Dev nD)

/-! ### Literal 0: the lines that build its plane -/

set_option maxHeartbeats 1000000 in
theorem v16_eq : V m c main_v16 = extractStridedSlice (s := S3x64x128) (α := EReal) S1x64x128 ![0, 0, 0] (V m c main_v12) slices_S3x64x128_S1x64x128_0_0_0 := by
  have h := read_unary entry_fresh 30 (V := fun b => m (c, b)) (x := main_v12) (y := main_v16)
    (f := ((extractStridedSlice S1x64x128 ![0, 0, 0] · slices_S3x64x128_S1x64x128_0_0_0) : (⟨S3x64x128, .f32⟩ : BufTy).Contents (Elt Ideal) → (⟨S1x64x128, .f32⟩ : BufTy).Contents (Elt Ideal))) (hop := rfl)
  exact h

set_option maxHeartbeats 1000000 in
theorem v17_eq : (V m c main_v17 : (⟨S64x128, .f32⟩ : BufTy).Contents (Elt Ideal)) = fun i => shapeCast S64x128 (V m c main_v16) shapeCasts_S1x64x128_S64x128 i := by
  have h := read_reshape entry_fresh 31 (V := fun b => m (c, b)) (x := main_v16) (y := main_v17) (hop := rfl)
  exact h

set_option maxHeartbeats 1000000 in
theorem cst_2_eq : V m c main_cst_2 = constant (F := Ideal) S_ .f32 0x00000000#32 := by
  have h := read_nullary entry_fresh 32 (V := fun b => m (c, b)) (y := main_cst_2) (v := constant (F := Ideal) S_ .f32 0x00000000#32) (hop := rfl)
  exact h

set_option maxHeartbeats 1000000 in
theorem v18_eq : V m c main_v18 = broadcastInDim (s := S_) (α := EReal) S64x128 ![] bcast_S_S64x128 (V m c main_cst_2) := by
  have h := read_unary entry_fresh 33 (V := fun b => m (c, b)) (x := main_cst_2) (y := main_v18)
    (f := (broadcastInDim S64x128 ![] bcast_S_S64x128 : (⟨S_, .f32⟩ : BufTy).Contents (Elt Ideal) → (⟨S64x128, .f32⟩ : BufTy).Contents (Elt Ideal))) (hop := rfl)
  exact h

set_option maxHeartbeats 1000000 in
theorem v19_eq : V m c main_v19 = concatenate (α := EReal) S64x256 1 [⟨S64x128, V m c main_v17⟩, ⟨S64x128, V m c main_v18⟩] concatenates_S64x128_S64x128_S64x256_d1 := by
  have h := read_binary entry_fresh 34 (V := fun b => m (c, b)) (a := main_v17) (b := main_v18) (y := main_v19)
    (f := ((fun a b => concatenate S64x256 1 [⟨S64x128, a⟩, ⟨S64x128, b⟩] concatenates_S64x128_S64x128_S64x256_d1) : (⟨S64x128, .f32⟩ : BufTy).Contents (Elt Ideal) → (⟨S64x128, .f32⟩ : BufTy).Contents (Elt Ideal) → (⟨S64x256, .f32⟩ : BufTy).Contents (Elt Ideal))) (hop := rfl)
  exact h

set_option maxHeartbeats 1000000 in
theorem v20_eq : V m c main_v20 = concatenate (α := EReal) S64x256 1 [⟨S64x128, V m c main_v18⟩, ⟨S64x128, V m c main_v17⟩] concatenates_S64x128_S64x128_S64x256_d1 := by
  have h := read_binary entry_fresh 35 (V := fun b => m (c, b)) (a := main_v18) (b := main_v17) (y := main_v20)
    (f := ((fun a b => concatenate S64x256 1 [⟨S64x128, a⟩, ⟨S64x128, b⟩] concatenates_S64x128_S64x128_S64x256_d1) : (⟨S64x128, .f32⟩ : BufTy).Contents (Elt Ideal) → (⟨S64x128, .f32⟩ : BufTy).Contents (Elt Ideal) → (⟨S64x256, .f32⟩ : BufTy).Contents (Elt Ideal))) (hop := rfl)
  exact h

set_option maxHeartbeats 1000000 in
theorem v21_eq : V m c main_v21 = concatenate (α := EReal) S128x256 0 [⟨S64x256, V m c main_v19⟩, ⟨S64x256, V m c main_v20⟩] concatenates_S64x256_S64x256_S128x256_d0 := by
  have h := read_binary entry_fresh 36 (V := fun b => m (c, b)) (a := main_v19) (b := main_v20) (y := main_v21)
    (f := ((fun a b => concatenate S128x256 0 [⟨S64x256, a⟩, ⟨S64x256, b⟩] concatenates_S64x256_S64x256_S128x256_d0) : (⟨S64x256, .f32⟩ : BufTy).Contents (Elt Ideal) → (⟨S64x256, .f32⟩ : BufTy).Contents (Elt Ideal) → (⟨S128x256, .f32⟩ : BufTy).Contents (Elt Ideal))) (hop := rfl)
  exact h

set_option maxHeartbeats 1000000 in
theorem v22_eq : V m c main_v22 = truncf (F := Ideal) (s := S128x256) (φ := .f32) .bf16 (V m c main_v21) bitsLt_bf16_f32 := by
  have h := read_unary entry_fresh 37 (V := fun b => m (c, b)) (x := main_v21) (y := main_v22)
    (f := fun x => truncf (F := Ideal) (s := S128x256) (φ := .f32) .bf16 x bitsLt_bf16_f32) (hop := rfl)
  exact h

set_option maxHeartbeats 1000000 in
theorem v76_eq : V m c main_v76 = concatenate (α := EReal) S256x256 0 [⟨S128x256, V m c main_v22⟩, ⟨S128x256, V m c main_v22⟩] concatenates_S128x256_S128x256_S256x256_d0 := by
  have h := read_binary entry_fresh 96 (V := fun b => m (c, b)) (a := main_v22) (b := main_v22) (y := main_v76)
    (f := ((fun a b => concatenate S256x256 0 [⟨S128x256, a⟩, ⟨S128x256, b⟩] concatenates_S128x256_S128x256_S256x256_d0) : (⟨S128x256, .bf16⟩ : BufTy).Contents (Elt Ideal) → (⟨S128x256, .bf16⟩ : BufTy).Contents (Elt Ideal) → (⟨S256x256, .bf16⟩ : BufTy).Contents (Elt Ideal))) (hop := rfl)
  exact h

/-! ### Literal 1: the lines that build its plane -/

set_option maxHeartbeats 1000000 in
theorem v36_eq : V m c main_v36 = extractStridedSlice (s := S3x64x128) (α := EReal) S1x64x128 ![1, 0, 0] (V m c main_v12) slices_S3x64x128_S1x64x128_1_0_0 := by
  have h := read_unary entry_fresh 52 (V := fun b => m (c, b)) (x := main_v12) (y := main_v36)
    (f := ((extractStridedSlice S1x64x128 ![1, 0, 0] · slices_S3x64x128_S1x64x128_1_0_0) : (⟨S3x64x128, .f32⟩ : BufTy).Contents (Elt Ideal) → (⟨S1x64x128, .f32⟩ : BufTy).Contents (Elt Ideal))) (hop := rfl)
  exact h

set_option maxHeartbeats 1000000 in
theorem v37_eq : (V m c main_v37 : (⟨S64x128, .f32⟩ : BufTy).Contents (Elt Ideal)) = fun i => shapeCast S64x128 (V m c main_v36) shapeCasts_S1x64x128_S64x128 i := by
  have h := read_reshape entry_fresh 53 (V := fun b => m (c, b)) (x := main_v36) (y := main_v37) (hop := rfl)
  exact h

set_option maxHeartbeats 1000000 in
theorem cst_4_eq : V m c main_cst_4 = constant (F := Ideal) S_ .f32 0x00000000#32 := by
  have h := read_nullary entry_fresh 54 (V := fun b => m (c, b)) (y := main_cst_4) (v := constant (F := Ideal) S_ .f32 0x00000000#32) (hop := rfl)
  exact h

set_option maxHeartbeats 1000000 in
theorem v38_eq : V m c main_v38 = broadcastInDim (s := S_) (α := EReal) S64x128 ![] bcast_S_S64x128 (V m c main_cst_4) := by
  have h := read_unary entry_fresh 55 (V := fun b => m (c, b)) (x := main_cst_4) (y := main_v38)
    (f := (broadcastInDim S64x128 ![] bcast_S_S64x128 : (⟨S_, .f32⟩ : BufTy).Contents (Elt Ideal) → (⟨S64x128, .f32⟩ : BufTy).Contents (Elt Ideal))) (hop := rfl)
  exact h

set_option maxHeartbeats 1000000 in
theorem v39_eq : V m c main_v39 = concatenate (α := EReal) S64x256 1 [⟨S64x128, V m c main_v37⟩, ⟨S64x128, V m c main_v38⟩] concatenates_S64x128_S64x128_S64x256_d1 := by
  have h := read_binary entry_fresh 56 (V := fun b => m (c, b)) (a := main_v37) (b := main_v38) (y := main_v39)
    (f := ((fun a b => concatenate S64x256 1 [⟨S64x128, a⟩, ⟨S64x128, b⟩] concatenates_S64x128_S64x128_S64x256_d1) : (⟨S64x128, .f32⟩ : BufTy).Contents (Elt Ideal) → (⟨S64x128, .f32⟩ : BufTy).Contents (Elt Ideal) → (⟨S64x256, .f32⟩ : BufTy).Contents (Elt Ideal))) (hop := rfl)
  exact h

set_option maxHeartbeats 1000000 in
theorem v40_eq : V m c main_v40 = concatenate (α := EReal) S64x256 1 [⟨S64x128, V m c main_v38⟩, ⟨S64x128, V m c main_v37⟩] concatenates_S64x128_S64x128_S64x256_d1 := by
  have h := read_binary entry_fresh 57 (V := fun b => m (c, b)) (a := main_v38) (b := main_v37) (y := main_v40)
    (f := ((fun a b => concatenate S64x256 1 [⟨S64x128, a⟩, ⟨S64x128, b⟩] concatenates_S64x128_S64x128_S64x256_d1) : (⟨S64x128, .f32⟩ : BufTy).Contents (Elt Ideal) → (⟨S64x128, .f32⟩ : BufTy).Contents (Elt Ideal) → (⟨S64x256, .f32⟩ : BufTy).Contents (Elt Ideal))) (hop := rfl)
  exact h

set_option maxHeartbeats 1000000 in
theorem v41_eq : V m c main_v41 = concatenate (α := EReal) S128x256 0 [⟨S64x256, V m c main_v39⟩, ⟨S64x256, V m c main_v40⟩] concatenates_S64x256_S64x256_S128x256_d0 := by
  have h := read_binary entry_fresh 58 (V := fun b => m (c, b)) (a := main_v39) (b := main_v40) (y := main_v41)
    (f := ((fun a b => concatenate S128x256 0 [⟨S64x256, a⟩, ⟨S64x256, b⟩] concatenates_S64x256_S64x256_S128x256_d0) : (⟨S64x256, .f32⟩ : BufTy).Contents (Elt Ideal) → (⟨S64x256, .f32⟩ : BufTy).Contents (Elt Ideal) → (⟨S128x256, .f32⟩ : BufTy).Contents (Elt Ideal))) (hop := rfl)
  exact h

set_option maxHeartbeats 1000000 in
theorem v42_eq : V m c main_v42 = truncf (F := Ideal) (s := S128x256) (φ := .f32) .bf16 (V m c main_v41) bitsLt_bf16_f32 := by
  have h := read_unary entry_fresh 59 (V := fun b => m (c, b)) (x := main_v41) (y := main_v42)
    (f := fun x => truncf (F := Ideal) (s := S128x256) (φ := .f32) .bf16 x bitsLt_bf16_f32) (hop := rfl)
  exact h

set_option maxHeartbeats 1000000 in
theorem v77_eq : V m c main_v77 = concatenate (α := EReal) S256x256 0 [⟨S128x256, V m c main_v42⟩, ⟨S128x256, V m c main_v42⟩] concatenates_S128x256_S128x256_S256x256_d0 := by
  have h := read_binary entry_fresh 97 (V := fun b => m (c, b)) (a := main_v42) (b := main_v42) (y := main_v77)
    (f := ((fun a b => concatenate S256x256 0 [⟨S128x256, a⟩, ⟨S128x256, b⟩] concatenates_S128x256_S128x256_S256x256_d0) : (⟨S128x256, .bf16⟩ : BufTy).Contents (Elt Ideal) → (⟨S128x256, .bf16⟩ : BufTy).Contents (Elt Ideal) → (⟨S256x256, .bf16⟩ : BufTy).Contents (Elt Ideal))) (hop := rfl)
  exact h

/-! ### Literal 2: the lines that build its plane -/

set_option maxHeartbeats 1000000 in
theorem v56_eq : V m c main_v56 = extractStridedSlice (s := S3x64x128) (α := EReal) S1x64x128 ![2, 0, 0] (V m c main_v12) slices_S3x64x128_S1x64x128_2_0_0 := by
  have h := read_unary entry_fresh 74 (V := fun b => m (c, b)) (x := main_v12) (y := main_v56)
    (f := ((extractStridedSlice S1x64x128 ![2, 0, 0] · slices_S3x64x128_S1x64x128_2_0_0) : (⟨S3x64x128, .f32⟩ : BufTy).Contents (Elt Ideal) → (⟨S1x64x128, .f32⟩ : BufTy).Contents (Elt Ideal))) (hop := rfl)
  exact h

set_option maxHeartbeats 1000000 in
theorem v57_eq : (V m c main_v57 : (⟨S64x128, .f32⟩ : BufTy).Contents (Elt Ideal)) = fun i => shapeCast S64x128 (V m c main_v56) shapeCasts_S1x64x128_S64x128 i := by
  have h := read_reshape entry_fresh 75 (V := fun b => m (c, b)) (x := main_v56) (y := main_v57) (hop := rfl)
  exact h

set_option maxHeartbeats 1000000 in
theorem cst_6_eq : V m c main_cst_6 = constant (F := Ideal) S_ .f32 0x00000000#32 := by
  have h := read_nullary entry_fresh 76 (V := fun b => m (c, b)) (y := main_cst_6) (v := constant (F := Ideal) S_ .f32 0x00000000#32) (hop := rfl)
  exact h

set_option maxHeartbeats 1000000 in
theorem v58_eq : V m c main_v58 = broadcastInDim (s := S_) (α := EReal) S64x128 ![] bcast_S_S64x128 (V m c main_cst_6) := by
  have h := read_unary entry_fresh 77 (V := fun b => m (c, b)) (x := main_cst_6) (y := main_v58)
    (f := (broadcastInDim S64x128 ![] bcast_S_S64x128 : (⟨S_, .f32⟩ : BufTy).Contents (Elt Ideal) → (⟨S64x128, .f32⟩ : BufTy).Contents (Elt Ideal))) (hop := rfl)
  exact h

set_option maxHeartbeats 1000000 in
theorem v59_eq : V m c main_v59 = concatenate (α := EReal) S64x256 1 [⟨S64x128, V m c main_v57⟩, ⟨S64x128, V m c main_v58⟩] concatenates_S64x128_S64x128_S64x256_d1 := by
  have h := read_binary entry_fresh 78 (V := fun b => m (c, b)) (a := main_v57) (b := main_v58) (y := main_v59)
    (f := ((fun a b => concatenate S64x256 1 [⟨S64x128, a⟩, ⟨S64x128, b⟩] concatenates_S64x128_S64x128_S64x256_d1) : (⟨S64x128, .f32⟩ : BufTy).Contents (Elt Ideal) → (⟨S64x128, .f32⟩ : BufTy).Contents (Elt Ideal) → (⟨S64x256, .f32⟩ : BufTy).Contents (Elt Ideal))) (hop := rfl)
  exact h

set_option maxHeartbeats 1000000 in
theorem v60_eq : V m c main_v60 = concatenate (α := EReal) S64x256 1 [⟨S64x128, V m c main_v58⟩, ⟨S64x128, V m c main_v57⟩] concatenates_S64x128_S64x128_S64x256_d1 := by
  have h := read_binary entry_fresh 79 (V := fun b => m (c, b)) (a := main_v58) (b := main_v57) (y := main_v60)
    (f := ((fun a b => concatenate S64x256 1 [⟨S64x128, a⟩, ⟨S64x128, b⟩] concatenates_S64x128_S64x128_S64x256_d1) : (⟨S64x128, .f32⟩ : BufTy).Contents (Elt Ideal) → (⟨S64x128, .f32⟩ : BufTy).Contents (Elt Ideal) → (⟨S64x256, .f32⟩ : BufTy).Contents (Elt Ideal))) (hop := rfl)
  exact h

set_option maxHeartbeats 1000000 in
theorem v61_eq : V m c main_v61 = concatenate (α := EReal) S128x256 0 [⟨S64x256, V m c main_v59⟩, ⟨S64x256, V m c main_v60⟩] concatenates_S64x256_S64x256_S128x256_d0 := by
  have h := read_binary entry_fresh 80 (V := fun b => m (c, b)) (a := main_v59) (b := main_v60) (y := main_v61)
    (f := ((fun a b => concatenate S128x256 0 [⟨S64x256, a⟩, ⟨S64x256, b⟩] concatenates_S64x256_S64x256_S128x256_d0) : (⟨S64x256, .f32⟩ : BufTy).Contents (Elt Ideal) → (⟨S64x256, .f32⟩ : BufTy).Contents (Elt Ideal) → (⟨S128x256, .f32⟩ : BufTy).Contents (Elt Ideal))) (hop := rfl)
  exact h

set_option maxHeartbeats 1000000 in
theorem v62_eq : V m c main_v62 = truncf (F := Ideal) (s := S128x256) (φ := .f32) .bf16 (V m c main_v61) bitsLt_bf16_f32 := by
  have h := read_unary entry_fresh 81 (V := fun b => m (c, b)) (x := main_v61) (y := main_v62)
    (f := fun x => truncf (F := Ideal) (s := S128x256) (φ := .f32) .bf16 x bitsLt_bf16_f32) (hop := rfl)
  exact h

set_option maxHeartbeats 1000000 in
theorem v78_eq : V m c main_v78 = concatenate (α := EReal) S256x256 0 [⟨S128x256, V m c main_v62⟩, ⟨S128x256, V m c main_v62⟩] concatenates_S128x256_S128x256_S256x256_d0 := by
  have h := read_binary entry_fresh 98 (V := fun b => m (c, b)) (a := main_v62) (b := main_v62) (y := main_v78)
    (f := ((fun a b => concatenate S256x256 0 [⟨S128x256, a⟩, ⟨S128x256, b⟩] concatenates_S128x256_S128x256_S256x256_d0) : (⟨S128x256, .bf16⟩ : BufTy).Contents (Elt Ideal) → (⟨S128x256, .bf16⟩ : BufTy).Contents (Elt Ideal) → (⟨S256x256, .bf16⟩ : BufTy).Contents (Elt Ideal))) (hop := rfl)
  exact h

/-! ### The table: the three planes side by side -/

set_option maxHeartbeats 1000000 in
theorem v79_eq : V m c main_v79 = concatenate (α := EReal) S256x768 1 [⟨S256x256, V m c main_v76⟩, ⟨S256x256, V m c main_v77⟩, ⟨S256x256, V m c main_v78⟩] concatenates_S256x256_S256x256_S256x256_S256x768_d1 := by
  have h := read_nary entry_fresh 99 (V := fun b => m (c, b)) (xs := ![main_v76, main_v77, main_v78]) (y := main_v79)
    (f := fun u => concatenate S256x768 1 [⟨S256x256, u 0⟩, ⟨S256x256, u 1⟩, ⟨S256x256, u 2⟩] concatenates_S256x256_S256x256_S256x256_S256x768_d1) (hop := rfl)
  exact h

/-- The first table at (k, n): the signed one-hot at literal n / 256, atom k mod 64, clause n mod 128 where the
    row half and the column half agree, and 0 elsewhere. -/
theorem gtab_of_signedhot (k : Fin 256) (n : Fin 768) :
    (V m c main_v79 (ix2 k n) : EReal) = (if (k.val % 128) / 64 = (n.val % 256) / 128
      then V m c main_v12 (ix3 (⟨n.val / 256, by have := n.isLt; omega⟩ : Fin 3) (⟨k.val % 64, Nat.mod_lt _ (by norm_num)⟩ : Fin 64) (⟨n.val % 128, Nat.mod_lt _ (by norm_num)⟩ : Fin 128)) else 0 : EReal) := by
  have hn := n.isLt
  have hl : n.val / 256 < 3 := by omega
  have hq : n.val % 256 < 256 := Nat.mod_lt _ (by norm_num)
  have ha : k.val % 64 < 64 := Nat.mod_lt _ (by norm_num)
  have hb : n.val % 128 < 128 := Nat.mod_lt _ (by norm_num)
  refine (congrFun (v79_eq m c) (ix2 k n)).trans ?_
  refine (threePlanes_apply _ _ _ _ k n ⟨n.val % 256, hq⟩ rfl).trans ?_
  by_cases h0 : n.val < 256
  · rw [if_pos h0]
    exact plane_read (v16_eq m c) (v17_eq m c) (cst_2_eq m c) (v18_eq m c) (v19_eq m c) (v20_eq m c) (v21_eq m c)
      (v22_eq m c) (v76_eq m c) k ⟨n.val % 256, hq⟩ ⟨n.val / 256, hl⟩ ⟨k.val % 64, ha⟩ ⟨n.val % 128, hb⟩
      (by show n.val / 256 = 0; omega) rfl (by show n.val % 128 = n.val % 256 % 128; omega)
  · rw [if_neg h0]
    by_cases h1 : n.val < 512
    · rw [if_pos h1]
      exact plane_read (v36_eq m c) (v37_eq m c) (cst_4_eq m c) (v38_eq m c) (v39_eq m c) (v40_eq m c) (v41_eq m c)
        (v42_eq m c) (v77_eq m c) k ⟨n.val % 256, hq⟩ ⟨n.val / 256, hl⟩ ⟨k.val % 64, ha⟩ ⟨n.val % 128, hb⟩
        (by show n.val / 256 = 1; omega) rfl (by show n.val % 128 = n.val % 256 % 128; omega)
    · rw [if_neg h1]
      exact plane_read (v56_eq m c) (v57_eq m c) (cst_6_eq m c) (v58_eq m c) (v59_eq m c) (v60_eq m c) (v61_eq m c)
        (v62_eq m c) (v78_eq m c) k ⟨n.val % 256, hq⟩ ⟨n.val / 256, hl⟩ ⟨k.val % 64, ha⟩ ⟨n.val % 128, hb⟩
        (by show n.val / 256 = 2; omega) rfl (by show n.val % 128 = n.val % 256 % 128; omega)

end Cert.KernelIdeal.Hand
end
-- ==== Proof.KHostS.lean ====
/-
  The second table and the three scale rows the host lines build before the pipelined region, read at an index.

  The second table S is [1536,128]. For each of the three literals l the host takes plane l of the one-hot stage
  H [3,128,64] (clause p, atom a: 1 when literal l of clause p names atom a), a [128,64] array B_l, and lays it out
  block-diagonally twice: E_l = [[B_l, 0], [0, B_l]], a [256,128] array. S stacks E_0, E_1, E_2, E_0, E_1, E_2 along the
  rows. So row k of S lies in plane (k / 256) mod 3 at row k mod 256, and

      S (k, q) = H ((k / 256) mod 3, k mod 128, q mod 64)   when (k mod 256) / 128 = q / 64,   and 0 otherwise.

  The scale row of literal l is row l of the scaled sign table T [3,128] laid twice end to end as a [1,256] row:
  entry n is T (l, n mod 128).

  Each buffer's contents after the whole host line are its operation's function of its operands' contents (no buffer is
  written twice), so the tables are read off the composed operations: a slice shifts an index by its offsets, a reshape
  keeps the row-major position, a concatenation reads the piece whose span holds the coordinate along its axis, and the
  conversion to the narrower float type is the identity on the ideal values.
-/
import proofs.«409075_j43920335569479_3_alg».proof.Proof.KFresh
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Cert.HostRead
open Idealize.ShloMosaic Idealize.ShloMosaic.TcCoe Idealize.SL.Sem Idealize.ShloMosaic.ValueIdx

/-! ## The layouts, for any contents -/

section Layouts
variable {α : Type}

/-- A row of a three-row table, taken out as a [1,128] slice, flattened, laid twice end to end and given back a unit row
    axis: entry n is the row's entry n mod 128. -/
theorem doubledRow_apply (X : S3x128.Idx → α) (off : Fin 2 → Nat) (h : S3x128.Slices off S1x128) (l : Fin 3)
    (h0 : off 0 = l.val) (h1 : off 1 = 0) (hc1 : S1x128.ShapeCasts S128)
    (hcat : Shape.Concatenates [S128, S128] S256 0) (hc2 : S256.ShapeCasts S1x256) (n : Fin 256) :
    shapeCast S1x256 (concatenate S256 0 [⟨S128, shapeCast S128 (extractStridedSlice S1x128 off X h) hc1⟩,
      ⟨S128, shapeCast S128 (extractStridedSlice S1x128 off X h) hc1⟩] hcat) hc2 (ix2 (0 : Fin 1) n)
      = X (ix2 l (⟨n.val % 128, Nat.mod_lt _ (by norm_num)⟩ : Fin 128)) := by
  -- the row-major position of (0, n) in a [1,256] array is n
  refine (shapeCast_apply _ hc2 (ix2 (0 : Fin 1) n) (ix1 n) ?_).trans ?_
  · rw [Shape.rowMajor_val_one, Shape.rowMajor_val_two]; show n.val = 0 * 256 + n.val; omega
  -- either half is the flattened slice: entry q of it is the table at (l, q)
  have half : ∀ q : Fin 128, shapeCast S128 (extractStridedSlice S1x128 off X h) hc1 (ix1 q) = X (ix2 l q) := by
    intro q
    refine (shapeCast_apply _ hc1 (ix1 q) (ix2 (0 : Fin 1) q) ?_).trans ?_
    · rw [Shape.rowMajor_val_one, Shape.rowMajor_val_two]; show 0 * 128 + q.val = q.val; omega
    refine extractStridedSlice_apply off X h (ix2 (0 : Fin 1) q) (ix2 l q) fun a => ?_
    match a with
    | ⟨0, _⟩ => show l.val = off 0 + 0; omega
    | ⟨1, _⟩ => show q.val = off 1 + q.val; omega
  by_cases hn : n.val < 128
  · -- the first copy: n mod 128 = n
    refine (concatenate_pair_apply_left (t := S256) (s₁ := S128) (s₂ := S128) (0 : Fin 1) _ _ hcat (ix1 n) rfl
      (ix1 (⟨n.val, hn⟩ : Fin 128)) fun b => ?_).trans ?_
    · match b with
      | ⟨0, _⟩ => rfl
    rw [half]
    congr 2
    exact Fin.ext (Nat.mod_eq_of_lt hn).symm
  · -- the second copy: n mod 128 = n - 128
    have hn' : n.val - 128 < 128 := by have := n.isLt; omega
    refine (concatenate_pair_apply_right (t := S256) (s₁ := S128) (s₂ := S128) (0 : Fin 1) _ _ hcat (ix1 n) rfl rfl
      (ix1 (⟨n.val - 128, hn'⟩ : Fin 128)) (fun b hb => ?_) ?_).trans ?_
    · match b with
      | ⟨0, _⟩ => exact absurd rfl hb
    · show (n.val - 128) + 128 = n.val; omega
    rw [half]
    congr 2
    apply Fin.ext
    show n.val - 128 = n.val % 128
    have := n.isLt; omega

/-- The block-diagonal doubling of a [128,64] array B with a constant filler z: rows 0..127 hold [B | z], rows 128..255
    hold [z | B]. At (k, q) it is B at (k mod 128, q mod 64) when the row half k / 128 equals the column half q / 64,
    and the filler otherwise. -/
theorem blockDiagTall_apply (B Z : S128x64.Idx → α) (z : α) (hZ : ∀ i, Z i = z)
    (h1 : Shape.Concatenates [S128x64, S128x64] S128x128 1) (h0 : Shape.Concatenates [S128x128, S128x128] S256x128 0)
    (k : Fin 256) (q : Fin 128) :
    concatenate S256x128 0 [⟨S128x128, concatenate S128x128 1 [⟨S128x64, B⟩, ⟨S128x64, Z⟩] h1⟩,
      ⟨S128x128, concatenate S128x128 1 [⟨S128x64, Z⟩, ⟨S128x64, B⟩] h1⟩] h0 (ix2 k q)
      = if k.val / 128 = q.val / 64
        then B (ix2 (⟨k.val % 128, Nat.mod_lt _ (by norm_num)⟩ : Fin 128) (⟨q.val % 64, Nat.mod_lt _ (by norm_num)⟩ : Fin 64))
        else z := by
  have hk := k.isLt
  have hq := q.isLt
  -- a row of either half: columns below 64 read the left piece, the others the right piece 64 columns back
  have left : ∀ (L R : S128x64.Idx → α) (r : Fin 128) (hq' : q.val < 64),
      concatenate S128x128 1 [⟨S128x64, L⟩, ⟨S128x64, R⟩] h1 (ix2 r q) = L (ix2 r (⟨q.val, hq'⟩ : Fin 64)) := by
    intro L R r hq'
    refine concatenate_pair_apply_left (t := S128x128) (s₁ := S128x64) (s₂ := S128x64) (1 : Fin 2) L R h1 (ix2 r q) rfl
      (ix2 r (⟨q.val, hq'⟩ : Fin 64)) fun b => ?_
    match b with
    | ⟨0, _⟩ => rfl
    | ⟨1, _⟩ => rfl
  have right : ∀ (L R : S128x64.Idx → α) (r : Fin 128) (hq' : q.val - 64 < 64) (hq'' : 64 ≤ q.val),
      concatenate S128x128 1 [⟨S128x64, L⟩, ⟨S128x64, R⟩] h1 (ix2 r q) = R (ix2 r (⟨q.val - 64, hq'⟩ : Fin 64)) := by
    intro L R r hq' hq''
    refine concatenate_pair_apply_right (t := S128x128) (s₁ := S128x64) (s₂ := S128x64) (1 : Fin 2) L R h1 (ix2 r q) rfl rfl
      (ix2 r (⟨q.val - 64, hq'⟩ : Fin 64)) (fun b hb => ?_) ?_
    · match b with
      | ⟨0, _⟩ => rfl
      | ⟨1, _⟩ => exact absurd rfl hb
    · show (q.val - 64) + 64 = q.val; omega
  by_cases hkl : k.val < 128
  · -- the upper half: [B | z]
    refine (concatenate_pair_apply_left (t := S256x128) (s₁ := S128x128) (s₂ := S128x128) (0 : Fin 2) _ _ h0 (ix2 k q) rfl
      (ix2 (⟨k.val, hkl⟩ : Fin 128) q) fun b => ?_).trans ?_
    · match b with
      | ⟨0, _⟩ => rfl
      | ⟨1, _⟩ => rfl
    by_cases hql : q.val < 64
    · rw [left B Z _ hql, if_pos (by omega)]
      congr 2
      · exact Fin.ext (Nat.mod_eq_of_lt hkl).symm
      · exact Fin.ext (Nat.mod_eq_of_lt hql).symm
    · rw [right B Z _ (by omega) (by omega), hZ, if_neg (by omega)]
  · -- the lower half: [z | B]
    have hk' : k.val - 128 < 128 := by omega
    refine (concatenate_pair_apply_right (t := S256x128) (s₁ := S128x128) (s₂ := S128x128) (0 : Fin 2) _ _ h0 (ix2 k q) rfl rfl
      (ix2 (⟨k.val - 128, hk'⟩ : Fin 128) q) (fun b hb => ?_) ?_).trans ?_
    · match b with
      | ⟨0, _⟩ => exact absurd rfl hb
      | ⟨1, _⟩ => rfl
    · show (k.val - 128) + 128 = k.val; omega
    by_cases hql : q.val < 64
    · rw [left Z B _ hql, hZ, if_neg (by omega)]
    · rw [right Z B _ (by omega) (by omega), if_pos (by omega)]
      congr 2
      · apply Fin.ext; show k.val - 128 = k.val % 128; omega
      · apply Fin.ext; show q.val - 64 = q.val % 64; omega

/-- One literal's plane of a [3,128,64] table, taken out as a [1,128,64] slice and flattened to [128,64]: entry (r, w) is
    the table at (l, r, w). -/
theorem literalPlane_apply (X : S3x128x64.Idx → α) (off : Fin 3 → Nat) (h : S3x128x64.Slices off S1x128x64) (l : Fin 3)
    (h0 : off 0 = l.val) (h1 : off 1 = 0) (h2 : off 2 = 0) (hc : S1x128x64.ShapeCasts S128x64) (r : Fin 128) (w : Fin 64) :
    shapeCast S128x64 (extractStridedSlice S1x128x64 off X h) hc (ix2 r w) = X (ix3 l r w) := by
  refine (shapeCast_apply _ hc (ix2 r w) (ix3 (0 : Fin 1) r w) ?_).trans ?_
  · rw [Shape.rowMajor_val_two, Shape.rowMajor_val_three]
    show (0 * 128 + r.val) * 64 + w.val = r.val * 64 + w.val
    omega
  refine extractStridedSlice_apply off X h (ix3 (0 : Fin 1) r w) (ix3 l r w) fun a => ?_
  match a with
  | ⟨0, _⟩ => show l.val = off 0 + 0; omega
  | ⟨1, _⟩ => show r.val = off 1 + r.val; omega
  | ⟨2, _⟩ => show w.val = off 2 + w.val; omega

/-- [256,128] planes stacked along the rows of a [1536,128] array: row k lies in plane k / 256, at its row k mod 256
    (the planes before it span 256 rows each). -/
theorem stackedPlane_apply (xs : List ((s : Shape) × (s.Idx → α))) (h : Shape.Concatenates (xs.map (·.1)) S1536x128 0)
    (k : Fin 1536) (q : Fin 128) (j : Nat) (hj : j < xs.length) (P : S256x128.Idx → α) (hxj : xs[j] = ⟨S256x128, P⟩)
    (hpre : (((xs.take j).map (·.1)).map fun s => if h : s.rank = S1536x128.rank then s.size ((0 : Fin 2).cast h.symm) else 0).sum = j * 256)
    (hkj : k.val / 256 = j) :
    concatenate S1536x128 0 xs h (ix2 k q) = P (ix2 (⟨k.val % 256, Nat.mod_lt _ (by norm_num)⟩ : Fin 256) q) := by
  refine concatenate_apply_piece (t := S1536x128) (0 : Fin 2) xs h (ix2 k q) j hj S256x128 P hxj rfl (j * 256) hpre
    (ix2 (⟨k.val % 256, Nat.mod_lt _ (by norm_num)⟩ : Fin 256) q) (fun b hb => ?_) ?_
  · match b with
    | ⟨0, _⟩ => exact absurd rfl hb
    | ⟨1, _⟩ => rfl
  · show j * 256 + k.val % 256 = k.val
    omega

end Layouts

variable (m : (ℓ : Loc nD τ sig) → Buf (Elt Ideal) ℓ) (c : Dev nD)

/-! ## The scale rows

For literal l: row l of the scaled sign table T (buffer %15) sliced out and flattened, twice; the two copies laid end to
end; a unit row axis put back. -/

/-! ### Literal 0: %30 … %35 -/

set_option maxHeartbeats 2000000 in
theorem v30_eq : V m c main_v30 = extractStridedSlice (s := S3x128) (α := EReal) S1x128 ![0, 0] (V m c main_v15) slices_S3x128_S1x128_0_0 :=
  read_unary entry_fresh 46 (x := main_v15) (y := main_v30)
    (f := fun x => extractStridedSlice (s := S3x128) (α := EReal) S1x128 ![0, 0] x slices_S3x128_S1x128_0_0) (hop := rfl)

set_option maxHeartbeats 2000000 in
theorem v31_eq : (V m c main_v31 : (⟨S128, .f32⟩ : BufTy).Contents (Elt Ideal))
    = fun i => shapeCast (s := S1x128) (α := EReal) S128 (V m c main_v30) shapeCasts_S1x128_S128 i :=
  read_reshape entry_fresh 47 (x := main_v30) (y := main_v31) (hop := rfl)

set_option maxHeartbeats 2000000 in
theorem v32_eq : V m c main_v32 = extractStridedSlice (s := S3x128) (α := EReal) S1x128 ![0, 0] (V m c main_v15) slices_S3x128_S1x128_0_0 :=
  read_unary entry_fresh 48 (x := main_v15) (y := main_v32)
    (f := fun x => extractStridedSlice (s := S3x128) (α := EReal) S1x128 ![0, 0] x slices_S3x128_S1x128_0_0) (hop := rfl)

set_option maxHeartbeats 2000000 in
theorem v33_eq : (V m c main_v33 : (⟨S128, .f32⟩ : BufTy).Contents (Elt Ideal))
    = fun i => shapeCast (s := S1x128) (α := EReal) S128 (V m c main_v32) shapeCasts_S1x128_S128 i :=
  read_reshape entry_fresh 49 (x := main_v32) (y := main_v33) (hop := rfl)

set_option maxHeartbeats 2000000 in
theorem v34_eq : V m c main_v34 = concatenate (α := EReal) S256 0 [⟨S128, V m c main_v31⟩, ⟨S128, V m c main_v33⟩] concatenates_S128_S128_S256_d0 :=
  read_binary entry_fresh 50 (a := main_v31) (b := main_v33) (y := main_v34)
    (f := fun a b => concatenate (α := EReal) S256 0 [⟨S128, a⟩, ⟨S128, b⟩] concatenates_S128_S128_S256_d0) (hop := rfl)

set_option maxHeartbeats 2000000 in
theorem v35_eq : (V m c main_v35 : (⟨S1x256, .f32⟩ : BufTy).Contents (Elt Ideal))
    = fun i => shapeCast (s := S256) (α := EReal) S1x256 (V m c main_v34) shapeCasts_S256_S1x256 i :=
  read_reshape entry_fresh 51 (x := main_v34) (y := main_v35) (hop := rfl)

/-- The scale row of literal 0 is row 0 of the scaled sign table, twice. -/
theorem scale0_of_scaleT (n : Fin 256) : V m c main_v35 (ix2 (0 : Fin 1) n) = V m c main_v15 (ix2 (0 : Fin 3) (⟨n.val % 128, Nat.mod_lt _ (by norm_num)⟩ : Fin 128)) := by
  rw [v35_eq, v34_eq, v31_eq, v33_eq, v30_eq, v32_eq]
  exact doubledRow_apply (V m c main_v15) ![0, 0] slices_S3x128_S1x128_0_0 0 rfl rfl _ _ _ n

/-! ### Literal 1: %50 … %55 -/

set_option maxHeartbeats 2000000 in
theorem v50_eq : V m c main_v50 = extractStridedSlice (s := S3x128) (α := EReal) S1x128 ![1, 0] (V m c main_v15) slices_S3x128_S1x128_1_0 :=
  read_unary entry_fresh 68 (x := main_v15) (y := main_v50)
    (f := fun x => extractStridedSlice (s := S3x128) (α := EReal) S1x128 ![1, 0] x slices_S3x128_S1x128_1_0) (hop := rfl)

set_option maxHeartbeats 2000000 in
theorem v51_eq : (V m c main_v51 : (⟨S128, .f32⟩ : BufTy).Contents (Elt Ideal))
    = fun i => shapeCast (s := S1x128) (α := EReal) S128 (V m c main_v50) shapeCasts_S1x128_S128 i :=
  read_reshape entry_fresh 69 (x := main_v50) (y := main_v51) (hop := rfl)

set_option maxHeartbeats 2000000 in
theorem v52_eq : V m c main_v52 = extractStridedSlice (s := S3x128) (α := EReal) S1x128 ![1, 0] (V m c main_v15) slices_S3x128_S1x128_1_0 :=
  read_unary entry_fresh 70 (x := main_v15) (y := main_v52)
    (f := fun x => extractStridedSlice (s := S3x128) (α := EReal) S1x128 ![1, 0] x slices_S3x128_S1x128_1_0) (hop := rfl)

set_option maxHeartbeats 2000000 in
theorem v53_eq : (V m c main_v53 : (⟨S128, .f32⟩ : BufTy).Contents (Elt Ideal))
    = fun i => shapeCast (s := S1x128) (α := EReal) S128 (V m c main_v52) shapeCasts_S1x128_S128 i :=
  read_reshape entry_fresh 71 (x := main_v52) (y := main_v53) (hop := rfl)

set_option maxHeartbeats 2000000 in
theorem v54_eq : V m c main_v54 = concatenate (α := EReal) S256 0 [⟨S128, V m c main_v51⟩, ⟨S128, V m c main_v53⟩] concatenates_S128_S128_S256_d0 :=
  read_binary entry_fresh 72 (a := main_v51) (b := main_v53) (y := main_v54)
    (f := fun a b => concatenate (α := EReal) S256 0 [⟨S128, a⟩, ⟨S128, b⟩] concatenates_S128_S128_S256_d0) (hop := rfl)

set_option maxHeartbeats 2000000 in
theorem v55_eq : (V m c main_v55 : (⟨S1x256, .f32⟩ : BufTy).Contents (Elt Ideal))
    = fun i => shapeCast (s := S256) (α := EReal) S1x256 (V m c main_v54) shapeCasts_S256_S1x256 i :=
  read_reshape entry_fresh 73 (x := main_v54) (y := main_v55) (hop := rfl)

/-- The scale row of literal 1 is row 1 of the scaled sign table, twice. -/
theorem scale1_of_scaleT (n : Fin 256) : V m c main_v55 (ix2 (0 : Fin 1) n) = V m c main_v15 (ix2 (1 : Fin 3) (⟨n.val % 128, Nat.mod_lt _ (by norm_num)⟩ : Fin 128)) := by
  rw [v55_eq, v54_eq, v51_eq, v53_eq, v50_eq, v52_eq]
  exact doubledRow_apply (V m c main_v15) ![1, 0] slices_S3x128_S1x128_1_0 1 rfl rfl _ _ _ n

/-! ### Literal 2: %70 … %75 -/

set_option maxHeartbeats 2000000 in
theorem v70_eq : V m c main_v70 = extractStridedSlice (s := S3x128) (α := EReal) S1x128 ![2, 0] (V m c main_v15) slices_S3x128_S1x128_2_0 :=
  read_unary entry_fresh 90 (x := main_v15) (y := main_v70)
    (f := fun x => extractStridedSlice (s := S3x128) (α := EReal) S1x128 ![2, 0] x slices_S3x128_S1x128_2_0) (hop := rfl)

set_option maxHeartbeats 2000000 in
theorem v71_eq : (V m c main_v71 : (⟨S128, .f32⟩ : BufTy).Contents (Elt Ideal))
    = fun i => shapeCast (s := S1x128) (α := EReal) S128 (V m c main_v70) shapeCasts_S1x128_S128 i :=
  read_reshape entry_fresh 91 (x := main_v70) (y := main_v71) (hop := rfl)

set_option maxHeartbeats 2000000 in
theorem v72_eq : V m c main_v72 = extractStridedSlice (s := S3x128) (α := EReal) S1x128 ![2, 0] (V m c main_v15) slices_S3x128_S1x128_2_0 :=
  read_unary entry_fresh 92 (x := main_v15) (y := main_v72)
    (f := fun x => extractStridedSlice (s := S3x128) (α := EReal) S1x128 ![2, 0] x slices_S3x128_S1x128_2_0) (hop := rfl)

set_option maxHeartbeats 2000000 in
theorem v73_eq : (V m c main_v73 : (⟨S128, .f32⟩ : BufTy).Contents (Elt Ideal))
    = fun i => shapeCast (s := S1x128) (α := EReal) S128 (V m c main_v72) shapeCasts_S1x128_S128 i :=
  read_reshape entry_fresh 93 (x := main_v72) (y := main_v73) (hop := rfl)

set_option maxHeartbeats 2000000 in
theorem v74_eq : V m c main_v74 = concatenate (α := EReal) S256 0 [⟨S128, V m c main_v71⟩, ⟨S128, V m c main_v73⟩] concatenates_S128_S128_S256_d0 :=
  read_binary entry_fresh 94 (a := main_v71) (b := main_v73) (y := main_v74)
    (f := fun a b => concatenate (α := EReal) S256 0 [⟨S128, a⟩, ⟨S128, b⟩] concatenates_S128_S128_S256_d0) (hop := rfl)

set_option maxHeartbeats 2000000 in
theorem v75_eq : (V m c main_v75 : (⟨S1x256, .f32⟩ : BufTy).Contents (Elt Ideal))
    = fun i => shapeCast (s := S256) (α := EReal) S1x256 (V m c main_v74) shapeCasts_S256_S1x256 i :=
  read_reshape entry_fresh 95 (x := main_v74) (y := main_v75) (hop := rfl)

/-- The scale row of literal 2 is row 2 of the scaled sign table, twice. -/
theorem scale2_of_scaleT (n : Fin 256) : V m c main_v75 (ix2 (0 : Fin 1) n) = V m c main_v15 (ix2 (2 : Fin 3) (⟨n.val % 128, Nat.mod_lt _ (by norm_num)⟩ : Fin 128)) := by
  rw [v75_eq, v74_eq, v71_eq, v73_eq, v70_eq, v72_eq]
  exact doubledRow_apply (V m c main_v15) ![2, 0] slices_S3x128_S1x128_2_0 2 rfl rfl _ _ _ n

/-! ## The planes of the second table

For literal l: plane l of the one-hot stage H (buffer %8) sliced out and flattened to B_l [128,64]; a zero array of the
same shape; [B_l | 0] and [0 | B_l] side by side; the two stacked; the result converted to the narrower float type. -/

/-! ### Literal 0: %23 … %29 -/

set_option maxHeartbeats 2000000 in
theorem v23_eq : V m c main_v23 = extractStridedSlice (s := S3x128x64) (α := EReal) S1x128x64 ![0, 0, 0] (V m c main_v8) slices_S3x128x64_S1x128x64_0_0_0 :=
  read_unary entry_fresh 38 (x := main_v8) (y := main_v23)
    (f := fun x => extractStridedSlice (s := S3x128x64) (α := EReal) S1x128x64 ![0, 0, 0] x slices_S3x128x64_S1x128x64_0_0_0) (hop := rfl)

set_option maxHeartbeats 2000000 in
theorem v24_eq : (V m c main_v24 : (⟨S128x64, .f32⟩ : BufTy).Contents (Elt Ideal))
    = fun i => shapeCast (s := S1x128x64) (α := EReal) S128x64 (V m c main_v23) shapeCasts_S1x128x64_S128x64 i :=
  read_reshape entry_fresh 39 (x := main_v23) (y := main_v24) (hop := rfl)

set_option maxHeartbeats 2000000 in
theorem cst3_eq : V m c main_cst_3 = constant (F := Ideal) S_ .f32 0x00000000#32 :=
  read_nullary entry_fresh 40 (y := main_cst_3) (hop := rfl)

set_option maxHeartbeats 2000000 in
theorem v25_eq : V m c main_v25 = broadcastInDim (s := S_) (α := EReal) S128x64 ![] bcast_S_S128x64 (V m c main_cst_3) :=
  read_unary entry_fresh 41 (x := main_cst_3) (y := main_v25)
    (f := broadcastInDim (s := S_) (α := EReal) S128x64 ![] bcast_S_S128x64) (hop := rfl)

set_option maxHeartbeats 2000000 in
theorem v26_eq : V m c main_v26 = concatenate (α := EReal) S128x128 1 [⟨S128x64, V m c main_v24⟩, ⟨S128x64, V m c main_v25⟩] concatenates_S128x64_S128x64_S128x128_d1 :=
  read_binary entry_fresh 42 (a := main_v24) (b := main_v25) (y := main_v26)
    (f := fun a b => concatenate (α := EReal) S128x128 1 [⟨S128x64, a⟩, ⟨S128x64, b⟩] concatenates_S128x64_S128x64_S128x128_d1) (hop := rfl)

set_option maxHeartbeats 2000000 in
theorem v27_eq : V m c main_v27 = concatenate (α := EReal) S128x128 1 [⟨S128x64, V m c main_v25⟩, ⟨S128x64, V m c main_v24⟩] concatenates_S128x64_S128x64_S128x128_d1 :=
  read_binary entry_fresh 43 (a := main_v25) (b := main_v24) (y := main_v27)
    (f := fun a b => concatenate (α := EReal) S128x128 1 [⟨S128x64, a⟩, ⟨S128x64, b⟩] concatenates_S128x64_S128x64_S128x128_d1) (hop := rfl)

set_option maxHeartbeats 2000000 in
theorem v28_eq : V m c main_v28 = concatenate (α := EReal) S256x128 0 [⟨S128x128, V m c main_v26⟩, ⟨S128x128, V m c main_v27⟩] concatenates_S128x128_S128x128_S256x128_d0 :=
  read_binary entry_fresh 44 (a := main_v26) (b := main_v27) (y := main_v28)
    (f := fun a b => concatenate (α := EReal) S256x128 0 [⟨S128x128, a⟩, ⟨S128x128, b⟩] concatenates_S128x128_S128x128_S256x128_d0) (hop := rfl)

set_option maxHeartbeats 2000000 in
theorem v29_eq : V m c main_v29 = truncf (F := Ideal) (s := S256x128) (φ := .f32) .bf16 (V m c main_v28) bitsLt_bf16_f32 :=
  read_unary entry_fresh 45 (x := main_v28) (y := main_v29)
    (f := fun x => truncf (F := Ideal) (s := S256x128) (φ := .f32) .bf16 x bitsLt_bf16_f32) (hop := rfl)

/-- The filler of literal 0's plane is the real zero. -/
theorem v25_zero (i : S128x64.Idx) : V m c main_v25 i = (0 : EReal) := by
  rw [v25_eq, cst3_eq]
  exact Ideal.ofBits_zero_f32

/-- Literal 0's plane of the second table: the one-hot rows of literal 0, laid block-diagonally twice. -/
theorem plane0_apply (r : Nat) (hr : r < 256) (q : Fin 128) :
    V m c main_v29 (ix2 (⟨r, hr⟩ : Fin 256) q) = if r / 128 = q.val / 64
      then V m c main_v8 (ix3 (0 : Fin 3) (⟨r % 128, Nat.mod_lt _ (by norm_num)⟩ : Fin 128) (⟨q.val % 64, Nat.mod_lt _ (by norm_num)⟩ : Fin 64))
      else (0 : EReal) := by
  have hB : ∀ (a : Fin 128) (w : Fin 64), V m c main_v24 (ix2 a w) = V m c main_v8 (ix3 (0 : Fin 3) a w) := by
    intro a w
    rw [v24_eq, v23_eq]
    exact literalPlane_apply (V m c main_v8) ![0, 0, 0] slices_S3x128x64_S1x128x64_0_0_0 0 rfl rfl rfl _ a w
  rw [v29_eq, v28_eq, v26_eq, v27_eq]
  refine Eq.trans (truncf_apply _ _ _) ?_
  refine Eq.trans (blockDiagTall_apply (V m c main_v24) (V m c main_v25) (0 : EReal) (v25_zero m c) _ _ (⟨r, hr⟩ : Fin 256) q) ?_
  rw [hB]

/-! ### Literal 1: %43 … %49 -/

set_option maxHeartbeats 2000000 in
theorem v43_eq : V m c main_v43 = extractStridedSlice (s := S3x128x64) (α := EReal) S1x128x64 ![1, 0, 0] (V m c main_v8) slices_S3x128x64_S1x128x64_1_0_0 :=
  read_unary entry_fresh 60 (x := main_v8) (y := main_v43)
    (f := fun x => extractStridedSlice (s := S3x128x64) (α := EReal) S1x128x64 ![1, 0, 0] x slices_S3x128x64_S1x128x64_1_0_0) (hop := rfl)

set_option maxHeartbeats 2000000 in
theorem v44_eq : (V m c main_v44 : (⟨S128x64, .f32⟩ : BufTy).Contents (Elt Ideal))
    = fun i => shapeCast (s := S1x128x64) (α := EReal) S128x64 (V m c main_v43) shapeCasts_S1x128x64_S128x64 i :=
  read_reshape entry_fresh 61 (x := main_v43) (y := main_v44) (hop := rfl)

set_option maxHeartbeats 2000000 in
theorem cst5_eq : V m c main_cst_5 = constant (F := Ideal) S_ .f32 0x00000000#32 :=
  read_nullary entry_fresh 62 (y := main_cst_5) (hop := rfl)

set_option maxHeartbeats 2000000 in
theorem v45_eq : V m c main_v45 = broadcastInDim (s := S_) (α := EReal) S128x64 ![] bcast_S_S128x64 (V m c main_cst_5) :=
  read_unary entry_fresh 63 (x := main_cst_5) (y := main_v45)
    (f := broadcastInDim (s := S_) (α := EReal) S128x64 ![] bcast_S_S128x64) (hop := rfl)

set_option maxHeartbeats 2000000 in
theorem v46_eq : V m c main_v46 = concatenate (α := EReal) S128x128 1 [⟨S128x64, V m c main_v44⟩, ⟨S128x64, V m c main_v45⟩] concatenates_S128x64_S128x64_S128x128_d1 :=
  read_binary entry_fresh 64 (a := main_v44) (b := main_v45) (y := main_v46)
    (f := fun a b => concatenate (α := EReal) S128x128 1 [⟨S128x64, a⟩, ⟨S128x64, b⟩] concatenates_S128x64_S128x64_S128x128_d1) (hop := rfl)

set_option maxHeartbeats 2000000 in
theorem v47_eq : V m c main_v47 = concatenate (α := EReal) S128x128 1 [⟨S128x64, V m c main_v45⟩, ⟨S128x64, V m c main_v44⟩] concatenates_S128x64_S128x64_S128x128_d1 :=
  read_binary entry_fresh 65 (a := main_v45) (b := main_v44) (y := main_v47)
    (f := fun a b => concatenate (α := EReal) S128x128 1 [⟨S128x64, a⟩, ⟨S128x64, b⟩] concatenates_S128x64_S128x64_S128x128_d1) (hop := rfl)

set_option maxHeartbeats 2000000 in
theorem v48_eq : V m c main_v48 = concatenate (α := EReal) S256x128 0 [⟨S128x128, V m c main_v46⟩, ⟨S128x128, V m c main_v47⟩] concatenates_S128x128_S128x128_S256x128_d0 :=
  read_binary entry_fresh 66 (a := main_v46) (b := main_v47) (y := main_v48)
    (f := fun a b => concatenate (α := EReal) S256x128 0 [⟨S128x128, a⟩, ⟨S128x128, b⟩] concatenates_S128x128_S128x128_S256x128_d0) (hop := rfl)

set_option maxHeartbeats 2000000 in
theorem v49_eq : V m c main_v49 = truncf (F := Ideal) (s := S256x128) (φ := .f32) .bf16 (V m c main_v48) bitsLt_bf16_f32 :=
  read_unary entry_fresh 67 (x := main_v48) (y := main_v49)
    (f := fun x => truncf (F := Ideal) (s := S256x128) (φ := .f32) .bf16 x bitsLt_bf16_f32) (hop := rfl)

/-- The filler of literal 1's plane is the real zero. -/
theorem v45_zero (i : S128x64.Idx) : V m c main_v45 i = (0 : EReal) := by
  rw [v45_eq, cst5_eq]
  exact Ideal.ofBits_zero_f32

/-- Literal 1's plane of the second table: the one-hot rows of literal 1, laid block-diagonally twice. -/
theorem plane1_apply (r : Nat) (hr : r < 256) (q : Fin 128) :
    V m c main_v49 (ix2 (⟨r, hr⟩ : Fin 256) q) = if r / 128 = q.val / 64
      then V m c main_v8 (ix3 (1 : Fin 3) (⟨r % 128, Nat.mod_lt _ (by norm_num)⟩ : Fin 128) (⟨q.val % 64, Nat.mod_lt _ (by norm_num)⟩ : Fin 64))
      else (0 : EReal) := by
  have hB : ∀ (a : Fin 128) (w : Fin 64), V m c main_v44 (ix2 a w) = V m c main_v8 (ix3 (1 : Fin 3) a w) := by
    intro a w
    rw [v44_eq, v43_eq]
    exact literalPlane_apply (V m c main_v8) ![1, 0, 0] slices_S3x128x64_S1x128x64_1_0_0 1 rfl rfl rfl _ a w
  rw [v49_eq, v48_eq, v46_eq, v47_eq]
  refine Eq.trans (truncf_apply _ _ _) ?_
  refine Eq.trans (blockDiagTall_apply (V m c main_v44) (V m c main_v45) (0 : EReal) (v45_zero m c) _ _ (⟨r, hr⟩ : Fin 256) q) ?_
  rw [hB]

/-! ### Literal 2: %63 … %69 -/

set_option maxHeartbeats 2000000 in
theorem v63_eq : V m c main_v63 = extractStridedSlice (s := S3x128x64) (α := EReal) S1x128x64 ![2, 0, 0] (V m c main_v8) slices_S3x128x64_S1x128x64_2_0_0 :=
  read_unary entry_fresh 82 (x := main_v8) (y := main_v63)
    (f := fun x => extractStridedSlice (s := S3x128x64) (α := EReal) S1x128x64 ![2, 0, 0] x slices_S3x128x64_S1x128x64_2_0_0) (hop := rfl)

set_option maxHeartbeats 2000000 in
theorem v64_eq : (V m c main_v64 : (⟨S128x64, .f32⟩ : BufTy).Contents (Elt Ideal))
    = fun i => shapeCast (s := S1x128x64) (α := EReal) S128x64 (V m c main_v63) shapeCasts_S1x128x64_S128x64 i :=
  read_reshape entry_fresh 83 (x := main_v63) (y := main_v64) (hop := rfl)

set_option maxHeartbeats 2000000 in
theorem cst7_eq : V m c main_cst_7 = constant (F := Ideal) S_ .f32 0x00000000#32 :=
  read_nullary entry_fresh 84 (y := main_cst_7) (hop := rfl)

set_option maxHeartbeats 2000000 in
theorem v65_eq : V m c main_v65 = broadcastInDim (s := S_) (α := EReal) S128x64 ![] bcast_S_S128x64 (V m c main_cst_7) :=
  read_unary entry_fresh 85 (x := main_cst_7) (y := main_v65)
    (f := broadcastInDim (s := S_) (α := EReal) S128x64 ![] bcast_S_S128x64) (hop := rfl)

set_option maxHeartbeats 2000000 in
theorem v66_eq : V m c main_v66 = concatenate (α := EReal) S128x128 1 [⟨S128x64, V m c main_v64⟩, ⟨S128x64, V m c main_v65⟩] concatenates_S128x64_S128x64_S128x128_d1 :=
  read_binary entry_fresh 86 (a := main_v64) (b := main_v65) (y := main_v66)
    (f := fun a b => concatenate (α := EReal) S128x128 1 [⟨S128x64, a⟩, ⟨S128x64, b⟩] concatenates_S128x64_S128x64_S128x128_d1) (hop := rfl)

set_option maxHeartbeats 2000000 in
theorem v67_eq : V m c main_v67 = concatenate (α := EReal) S128x128 1 [⟨S128x64, V m c main_v65⟩, ⟨S128x64, V m c main_v64⟩] concatenates_S128x64_S128x64_S128x128_d1 :=
  read_binary entry_fresh 87 (a := main_v65) (b := main_v64) (y := main_v67)
    (f := fun a b => concatenate (α := EReal) S128x128 1 [⟨S128x64, a⟩, ⟨S128x64, b⟩] concatenates_S128x64_S128x64_S128x128_d1) (hop := rfl)

set_option maxHeartbeats 2000000 in
theorem v68_eq : V m c main_v68 = concatenate (α := EReal) S256x128 0 [⟨S128x128, V m c main_v66⟩, ⟨S128x128, V m c main_v67⟩] concatenates_S128x128_S128x128_S256x128_d0 :=
  read_binary entry_fresh 88 (a := main_v66) (b := main_v67) (y := main_v68)
    (f := fun a b => concatenate (α := EReal) S256x128 0 [⟨S128x128, a⟩, ⟨S128x128, b⟩] concatenates_S128x128_S128x128_S256x128_d0) (hop := rfl)

set_option maxHeartbeats 2000000 in
theorem v69_eq : V m c main_v69 = truncf (F := Ideal) (s := S256x128) (φ := .f32) .bf16 (V m c main_v68) bitsLt_bf16_f32 :=
  read_unary entry_fresh 89 (x := main_v68) (y := main_v69)
    (f := fun x => truncf (F := Ideal) (s := S256x128) (φ := .f32) .bf16 x bitsLt_bf16_f32) (hop := rfl)

/-- The filler of literal 2's plane is the real zero. -/
theorem v65_zero (i : S128x64.Idx) : V m c main_v65 i = (0 : EReal) := by
  rw [v65_eq, cst7_eq]
  exact Ideal.ofBits_zero_f32

/-- Literal 2's plane of the second table: the one-hot rows of literal 2, laid block-diagonally twice. -/
theorem plane2_apply (r : Nat) (hr : r < 256) (q : Fin 128) :
    V m c main_v69 (ix2 (⟨r, hr⟩ : Fin 256) q) = if r / 128 = q.val / 64
      then V m c main_v8 (ix3 (2 : Fin 3) (⟨r % 128, Nat.mod_lt _ (by norm_num)⟩ : Fin 128) (⟨q.val % 64, Nat.mod_lt _ (by norm_num)⟩ : Fin 64))
      else (0 : EReal) := by
  have hB : ∀ (a : Fin 128) (w : Fin 64), V m c main_v64 (ix2 a w) = V m c main_v8 (ix3 (2 : Fin 3) a w) := by
    intro a w
    rw [v64_eq, v63_eq]
    exact literalPlane_apply (V m c main_v8) ![2, 0, 0] slices_S3x128x64_S1x128x64_2_0_0 2 rfl rfl rfl _ a w
  rw [v69_eq, v68_eq, v66_eq, v67_eq]
  refine Eq.trans (truncf_apply _ _ _) ?_
  refine Eq.trans (blockDiagTall_apply (V m c main_v64) (V m c main_v65) (0 : EReal) (v65_zero m c) _ _ (⟨r, hr⟩ : Fin 256) q) ?_
  rw [hB]

/-! ## The second table: the six planes stacked -/

set_option maxHeartbeats 2000000 in
theorem v80_eq : V m c main_v80 = concatenate (α := EReal) S1536x128 0 [⟨S256x128, V m c main_v29⟩, ⟨S256x128, V m c main_v49⟩,
      ⟨S256x128, V m c main_v69⟩, ⟨S256x128, V m c main_v29⟩, ⟨S256x128, V m c main_v49⟩, ⟨S256x128, V m c main_v69⟩]
      concatenates_S256x128_S256x128_S256x128_S256x128_S256x128_S256x128_S1536x128_d0 :=
  read_nary entry_fresh 100 (xs := ![main_v29, main_v49, main_v69, main_v29, main_v49, main_v69]) (y := main_v80)
    (f := fun u => concatenate S1536x128 0 [⟨S256x128, u 0⟩, ⟨S256x128, u 1⟩, ⟨S256x128, u 2⟩, ⟨S256x128, u 3⟩, ⟨S256x128, u 4⟩, ⟨S256x128, u 5⟩]
      concatenates_S256x128_S256x128_S256x128_S256x128_S256x128_S256x128_S1536x128_d0) (hop := rfl)

/-- The second table from the one-hot stage: row k lies in the plane of literal (k / 256) mod 3 (planes 3, 4, 5 repeat
    planes 0, 1, 2) at that plane's row k mod 256, whose block-diagonal form leaves the one-hot entry of clause k mod 128
    and atom q mod 64 where the row half meets the column half, and zero elsewhere. -/
theorem stab_of_onehot (k : Fin 1536) (q : Fin 128) :
    V m c main_v80 (ix2 k q) = if (k.val % 256) / 128 = q.val / 64
      then V m c main_v8 (ix3 (⟨(k.val / 256) % 3, Nat.mod_lt _ (by norm_num)⟩ : Fin 3) (⟨k.val % 128, Nat.mod_lt _ (by norm_num)⟩ : Fin 128) (⟨q.val % 64, Nat.mod_lt _ (by norm_num)⟩ : Fin 64)) else (0 : EReal) := by
  have hk := k.isLt
  -- a plane's reading names its literal l and the row (k mod 256) mod 128: l is (k / 256) mod 3, the row is k mod 128
  have fin : ∀ l : Fin 3, l.val = (k.val / 256) % 3 →
      (if (k.val % 256) / 128 = q.val / 64
        then V m c main_v8 (ix3 l (⟨(k.val % 256) % 128, Nat.mod_lt _ (by norm_num)⟩ : Fin 128) (⟨q.val % 64, Nat.mod_lt _ (by norm_num)⟩ : Fin 64)) else (0 : EReal))
      = if (k.val % 256) / 128 = q.val / 64
        then V m c main_v8 (ix3 (⟨(k.val / 256) % 3, Nat.mod_lt _ (by norm_num)⟩ : Fin 3) (⟨k.val % 128, Nat.mod_lt _ (by norm_num)⟩ : Fin 128) (⟨q.val % 64, Nat.mod_lt _ (by norm_num)⟩ : Fin 64)) else (0 : EReal) := by
    intro l hl
    have e1 : l = (⟨(k.val / 256) % 3, Nat.mod_lt _ (by norm_num)⟩ : Fin 3) := Fin.ext hl
    have e2 : (⟨(k.val % 256) % 128, Nat.mod_lt _ (by norm_num)⟩ : Fin 128) = ⟨k.val % 128, Nat.mod_lt _ (by norm_num)⟩ :=
      Fin.ext (by show k.val % 256 % 128 = k.val % 128; omega)
    rw [e1, e2]
  rw [v80_eq]
  rcases (by omega : k.val / 256 = 0 ∨ k.val / 256 = 1 ∨ k.val / 256 = 2 ∨ k.val / 256 = 3 ∨ k.val / 256 = 4 ∨ k.val / 256 = 5)
    with h | h | h | h | h | h
  · refine Eq.trans (stackedPlane_apply _ _ k q 0 (by simp) (V m c main_v29) rfl rfl h) ?_
    refine Eq.trans (plane0_apply m c (k.val % 256) (Nat.mod_lt _ (by norm_num)) q) ?_
    exact fin 0 (by show 0 = k.val / 256 % 3; omega)
  · refine Eq.trans (stackedPlane_apply _ _ k q 1 (by simp) (V m c main_v49) rfl rfl h) ?_
    refine Eq.trans (plane1_apply m c (k.val % 256) (Nat.mod_lt _ (by norm_num)) q) ?_
    exact fin 1 (by show 1 = k.val / 256 % 3; omega)
  · refine Eq.trans (stackedPlane_apply _ _ k q 2 (by simp) (V m c main_v69) rfl rfl h) ?_
    refine Eq.trans (plane2_apply m c (k.val % 256) (Nat.mod_lt _ (by norm_num)) q) ?_
    exact fin 2 (by show 2 = k.val / 256 % 3; omega)
  · refine Eq.trans (stackedPlane_apply _ _ k q 3 (by simp) (V m c main_v29) rfl rfl h) ?_
    refine Eq.trans (plane0_apply m c (k.val % 256) (Nat.mod_lt _ (by norm_num)) q) ?_
    exact fin 0 (by show 0 = k.val / 256 % 3; omega)
  · refine Eq.trans (stackedPlane_apply _ _ k q 4 (by simp) (V m c main_v49) rfl rfl h) ?_
    refine Eq.trans (plane1_apply m c (k.val % 256) (Nat.mod_lt _ (by norm_num)) q) ?_
    exact fin 1 (by show 1 = k.val / 256 % 3; omega)
  · refine Eq.trans (stackedPlane_apply _ _ k q 5 (by simp) (V m c main_v69) rfl rfl h) ?_
    refine Eq.trans (plane2_apply m c (k.val % 256) (Nat.mod_lt _ (by norm_num)) q) ?_
    exact fin 2 (by show 2 = k.val / 256 % 3; omega)

end Cert.KernelIdeal.Hand

end
-- ==== Proof.KValue.lean ====
/-
  What the kernel's program computes, at the ideal values: its result array is the layer's specification of the four
  argument arrays.

  The region's output array holds two groundings per row of 128 lanes. Grid point t writes the 1024 folded rows
  1024·t … 1024·t + 1023: its input block is those rows of the folded atoms, its three tables are whole arrays, and the
  block it stores is the blocked evaluation of the specification, which the algebra of the tables identifies with the
  specification at grounding 2·row + lane / 64 and predicate lane % 64. The 64 blocks tile the array; the host line after
  the region unfolds each row into its two groundings.
-/
import proofs.«409075_j43920335569479_3_alg».proof.Proof.KFrame
import proofs.«409075_j43920335569479_3_alg».proof.Proof.KBlock
import proofs.«409075_j43920335569479_3_alg».proof.Proof.KAlgebra
import proofs.«409075_j43920335569479_3_alg».proof.Proof.KHostBase
import proofs.«409075_j43920335569479_3_alg».proof.Proof.KHostG
import proofs.«409075_j43920335569479_3_alg».proof.Proof.KHostS
import Idealize.ShloMosaic.Lib.Pipeline.Value

set_option maxRecDepth 16384

noncomputable section

open scoped BigOperators

namespace Cert.KernelIdeal.Hand

open Cert.KernelIdeal Cert.KernelIdeal.Gen Cert.LibERealSage
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- The four argument arrays as the program is launched with them. -/
abbrev ga : Cert.Spec.SGa.Idx → EReal := m ((c : Thread nD τ).loc main_arg0)
abbrev cw : Cert.Spec.SCw.Idx → EReal := m ((c : Thread nD τ).loc main_arg1)
abbrev idx : Cert.Spec.SLit.Idx → BitVec 32 := m ((c : Thread nD τ).loc main_arg2)
abbrev sb : Cert.Spec.SLit.Idx → BitVec 32 := m ((c : Thread nD τ).loc main_arg3)

/-! ## The three tables and the folded atoms, as the region finds them -/

/-- The first table: the literal's sign at the lane of its predicate, in its own folded half. -/
theorem gtab_apply (k : Fin 256) (n : Fin 768) :
    V m c main_v79 (ix2 k n) = Cert.Spec.gtab (idx m c) (sb m c) k n := by
  rw [gtab_of_signedhot, signedhot_apply]
  unfold Cert.Spec.gtab Cert.Spec.clauseOf
  by_cases h1 : (k.val % 128) / 64 = (n.val % 256) / 128
  · by_cases h2 : (idx m c (ix2 (⟨n.val % 128, Nat.mod_lt _ (by norm_num)⟩ : Fin 128) (⟨n.val / 256, by have := n.isLt; omega⟩ : Fin 3))).toNat = k.val % 64
    · rw [if_pos h1, if_pos h2, if_pos ⟨h1, h2⟩]
    · rw [if_pos h1, if_neg h2, if_neg (fun h => h2 h.2)]
  · rw [if_neg h1, if_neg (fun h => h1 h.1)]

/-- The second table: one at the lane of the literal's predicate, in its own folded half. -/
theorem stab_apply (k : Fin 1536) (q : Fin 128) :
    V m c main_v80 (ix2 k q) = Cert.Spec.stab (idx m c) k q := by
  rw [stab_of_onehot, onehot_apply]
  unfold Cert.Spec.stab Cert.Spec.clauseOf
  by_cases h1 : (k.val % 256) / 128 = q.val / 64
  · by_cases h2 : (idx m c (ix2 (⟨k.val % 128, Nat.mod_lt _ (by norm_num)⟩ : Fin 128) (⟨(k.val / 256) % 3, Nat.mod_lt _ (by norm_num)⟩ : Fin 3))).toNat = q.val % 64
    · rw [if_pos h1, if_pos h2, if_pos ⟨h1, h2⟩]
    · rw [if_pos h1, if_neg h2, if_neg (fun h => h2 h.2)]
  · rw [if_neg h1, if_neg (fun h => h1 h.1)]

/-- The three scale rows: sign times clipped weight, the clauses twice. -/
theorem scale0_apply (n : Fin 256) : V m c main_v35 (ix2 (0 : Fin 1) n) = Cert.Spec.scale (cw m c) (sb m c) 0 n := by
  rw [scale0_of_scaleT, scaleT_apply]; rfl
theorem scale1_apply (n : Fin 256) : V m c main_v55 (ix2 (0 : Fin 1) n) = Cert.Spec.scale (cw m c) (sb m c) 1 n := by
  rw [scale1_of_scaleT, scaleT_apply]; rfl
theorem scale2_apply (n : Fin 256) : V m c main_v75 (ix2 (0 : Fin 1) n) = Cert.Spec.scale (cw m c) (sb m c) 2 n := by
  rw [scale2_of_scaleT, scaleT_apply]; rfl

/-! ## The blocks a grid point is handed -/

/-- The printed index maps over the grid: windows 0 and 6 take block t of the rows, the tables their one block. -/
theorem index_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- A grid point as a block number below 64. -/
def blockNo (t : Fin cfg0.N) : Fin 64 := ⟨t.val, N_0 ▸ t.isLt⟩

theorem blk0_eq (t : Fin cfg0.N) : iblk m c 0 t = Cert.KAlgebra.blockRows (ga m c) (blockNo t) := by
  obtain ⟨e0, e1, -⟩ := index_facts t
  funext j
  obtain ⟨r, k, rfl⟩ : ∃ (r : Fin 1024) (k : Fin 128), j = ix2 r k := ⟨j 0, j 1, eq_ix2 j⟩
  have hr : 1024 * t.val + r.val < 65536 := by have := (blockNo t).isLt; have := r.isLt; show 1024 * (blockNo t).val + r.val < 65536; omega
  show V m c main_v81 (((cfg0.win 0).blk t).view.emb (ix2 r k)) = _
  have he : ((cfg0.win 0).blk t).view.emb (ix2 r k) = ix2 (⟨1024 * t.val + r.val, hr⟩ : Fin 65536) k := by
    funext a; apply Fin.ext
    match a with
    | ⟨0, _⟩ => show win0_0.index t (0 : Fin 2) * 1024 + 1 * r.val = 1024 * t.val + r.val; omega
    | ⟨1, _⟩ => show win0_0.index t (1 : Fin 2) * 128 + 1 * k.val = k.val; omega
  rw [he, folded_apply]
  rfl

theorem blk1_eq (t : Fin cfg0.N) : iblk m c 1 t = Cert.KAlgebra.gtabArr (idx m c) (sb m c) := by
  obtain ⟨-, -, -, -, e0, e1, -⟩ := index_facts t
  funext j
  obtain ⟨k, n, rfl⟩ : ∃ (k : Fin 256) (n : Fin 768), j = ix2 k n := ⟨j 0, j 1, eq_ix2 j⟩
  show V m c main_v79 (((cfg0.win 1).blk t).view.emb (ix2 k n)) = _
  have he : ((cfg0.win 1).blk t).view.emb (ix2 k n) = ix2 k n := by
    funext a; apply Fin.ext
    match a with
    | ⟨0, _⟩ => show win0_1.index t (0 : Fin 2) * 256 + 1 * k.val = k.val; omega
    | ⟨1, _⟩ => show win0_1.index t (1 : Fin 2) * 768 + 1 * n.val = n.val; omega
  rw [he, gtab_apply]
  rfl

theorem blk2_eq (t : Fin cfg0.N) : iblk m c 2 t = Cert.KAlgebra.scaleArr (cw m c) (sb m c) 0 := by
  obtain ⟨-, -, -, -, -, -, e0, e1, -⟩ := index_facts t
  funext j
  obtain ⟨z, n, rfl⟩ : ∃ (z : Fin 1) (n : Fin 256), j = ix2 z n := ⟨j 0, j 1, eq_ix2 j⟩
  obtain rfl : z = 0 := Subsingleton.elim _ _
  show V m c main_v35 (((cfg0.win 2).blk t).view.emb (ix2 0 n)) = _
  have he : ((cfg0.win 2).blk t).view.emb (ix2 (0 : Fin 1) n) = ix2 (0 : Fin 1) n := by
    funext a; apply Fin.ext
    match a with
    | ⟨0, _⟩ => show win0_2.index t (0 : Fin 2) * 1 + 1 * 0 = 0; omega
    | ⟨1, _⟩ => show win0_2.index t (1 : Fin 2) * 256 + 1 * n.val = n.val; omega
  rw [he, scale0_apply]
  rfl

theorem blk3_eq (t : Fin cfg0.N) : iblk m c 3 t = Cert.KAlgebra.scaleArr (cw m c) (sb m c) 1 := by
  obtain ⟨-, -, -, -, -, -, -, -, e0, e1, -⟩ := index_facts t
  funext j
  obtain ⟨z, n, rfl⟩ : ∃ (z : Fin 1) (n : Fin 256), j = ix2 z n := ⟨j 0, j 1, eq_ix2 j⟩
  obtain rfl : z = 0 := Subsingleton.elim _ _
  show V m c main_v55 (((cfg0.win 3).blk t).view.emb (ix2 0 n)) = _
  have he : ((cfg0.win 3).blk t).view.emb (ix2 (0 : Fin 1) n) = ix2 (0 : Fin 1) n := by
    funext a; apply Fin.ext
    match a with
    | ⟨0, _⟩ => show win0_3.index t (0 : Fin 2) * 1 + 1 * 0 = 0; omega
    | ⟨1, _⟩ => show win0_3.index t (1 : Fin 2) * 256 + 1 * n.val = n.val; omega
  rw [he, scale1_apply]
  rfl

theorem blk4_eq (t : Fin cfg0.N) : iblk m c 4 t = Cert.KAlgebra.scaleArr (cw m c) (sb m c) 2 := by
  obtain ⟨-, -, -, -, -, -, -, -, -, -, e0, e1, -⟩ := index_facts t
  funext j
  obtain ⟨z, n, rfl⟩ : ∃ (z : Fin 1) (n : Fin 256), j = ix2 z n := ⟨j 0, j 1, eq_ix2 j⟩
  obtain rfl : z = 0 := Subsingleton.elim _ _
  show V m c main_v75 (((cfg0.win 4).blk t).view.emb (ix2 0 n)) = _
  have he : ((cfg0.win 4).blk t).view.emb (ix2 (0 : Fin 1) n) = ix2 (0 : Fin 1) n := by
    funext a; apply Fin.ext
    match a with
    | ⟨0, _⟩ => show win0_4.index t (0 : Fin 2) * 1 + 1 * 0 = 0; omega
    | ⟨1, _⟩ => show win0_4.index t (1 : Fin 2) * 256 + 1 * n.val = n.val; omega
  rw [he, scale2_apply]
  rfl

theorem blk5_eq (t : Fin cfg0.N) : iblk m c 5 t = Cert.KAlgebra.stabArr (idx m c) := by
  obtain ⟨-, -, -, -, -, -, -, -, -, -, -, -, e0, e1⟩ := index_facts t
  funext j
  obtain ⟨k, q, rfl⟩ : ∃ (k : Fin 1536) (q : Fin 128), j = ix2 k q := ⟨j 0, j 1, eq_ix2 j⟩
  show V m c main_v80 (((cfg0.win 5).blk t).view.emb (ix2 k q)) = _
  have he : ((cfg0.win 5).blk t).view.emb (ix2 k q) = ix2 k q := by
    funext a; apply Fin.ext
    match a with
    | ⟨0, _⟩ => show win0_5.index t (0 : Fin 2) * 1536 + 1 * k.val = k.val; omega
    | ⟨1, _⟩ => show win0_5.index t (1 : Fin 2) * 128 + 1 * q.val = q.val; omega
  rw [he, stab_apply]
  rfl

/-! ## The folded result array -/

/-- The specification laid out two groundings to a row: row R, lane q holds grounding 2R + q / 64, predicate q % 64. -/
def foldedOut : S65536x128.Idx → EReal := fun i =>
  Cert.Spec.out (ga m c) (cw m c) (idx m c) (sb m c)
    ⟨2 * (i 0).val + (i 1).val / 64, by have := idx2_lt0 i; have := idx2_lt1 i; omega⟩
    ⟨(i 1).val % 64, Nat.mod_lt _ (by norm_num)⟩

section
variable (hga : ∀ i, IsReal (ga m c i)) (hcw : ∀ i, IsReal (cw m c i))
  (hidx : ∀ i, 0 ≤ (idx m c i).toInt ∧ (idx m c i).toInt < 64)
include hga hcw hidx

/-- What grid point t writes back is block t of the folded result. -/
theorem flushed_out (t : Fin cfg0.N) :
    (dats m 0 c).flushed 6 t = ((cfg0.win 6).blk t).view.read (Elt Ideal) (foldedOut m c) := by
  show (cfg0.win 6).cut (grid0.coords t) ((dats m 0 c).after 6 t) = _
  rw [after_out, blk0_eq, blk1_eq, blk2_eq, blk3_eq, blk4_eq, blk5_eq]
  obtain ⟨-, -, e0, e1, -⟩ := index_facts t
  funext j
  obtain ⟨r, q, rfl⟩ : ∃ (r : Fin 1024) (q : Fin 128), j = ix2 r q := ⟨j 0, j 1, eq_ix2 j⟩
  have hr : 1024 * t.val + r.val < 65536 := by have := (blockNo t).isLt; have := r.isLt; show 1024 * (blockNo t).val + r.val < 65536; omega
  have he : ((cfg0.win 6).blk t).view.emb (ix2 r q) = ix2 (⟨1024 * t.val + r.val, hr⟩ : Fin 65536) q := by
    funext a; apply Fin.ext
    match a with
    | ⟨0, _⟩ => show win0_6.index t (0 : Fin 2) * 1024 + 1 * r.val = 1024 * t.val + r.val; omega
    | ⟨1, _⟩ => show win0_6.index t (1 : Fin 2) * 128 + 1 * q.val = q.val; omega
  show Cert.KBlock.outBlk (F := Ideal) _ _ _ _ _ _ (ix2 r q) = foldedOut m c (((cfg0.win 6).blk t).view.emb (ix2 r q))
  rw [he, Cert.KBlock.outBlk_apply _ _ _ _ _ _ (Cert.KAlgebra.isReal_blockRows _ hga _) (Cert.KAlgebra.isReal_gtabArr _ _)
    (Cert.KAlgebra.isReal_scaleArr _ _ hcw 0) (Cert.KAlgebra.isReal_scaleArr _ _ hcw 1) (Cert.KAlgebra.isReal_scaleArr _ _ hcw 2),
    Cert.KAlgebra.blockOut_eq _ _ _ _ hga hcw hidx]
  rfl

/-- Every entry of the folded array lies in the block of the point its row falls in. -/
theorem covered_out (i : S65536x128.Idx) :
    ∃ t : Fin cfg0.N, (cfg0.win 6).flush t = true ∧ i ∈ ((cfg0.win 6).blk t).view.set := by
  have hi0 := idx2_lt0 i
  have hi1 := idx2_lt1 i
  have hN : (i 0).val / 1024 < cfg0.N := by rw [show cfg0.N = 64 from N_0]; omega
  obtain ⟨-, -, e0, e1, -⟩ := index_facts ⟨(i 0).val / 1024, hN⟩
  have e0' : win0_6.index ⟨(i 0).val / 1024, hN⟩ (0 : Fin 2) = (i 0).val / 1024 := e0
  refine ⟨⟨(i 0).val / 1024, hN⟩, flush0_6 _, ?_⟩
  show i ∈ ((View.whole main_v82).slice (win0_6.rect ⟨(i 0).val / 1024, hN⟩)).set
  rw [View.set_slice_whole, Rect.mem_set_unit]
  intro a
  match a with
  | ⟨0, _⟩ => show win0_6.index ⟨(i 0).val / 1024, hN⟩ (0 : Fin 2) * 1024 ≤ (i 0).val ∧ (i 0).val < win0_6.index ⟨(i 0).val / 1024, hN⟩ (0 : Fin 2) * 1024 + 1024; omega
  | ⟨1, _⟩ => show win0_6.index ⟨(i 0).val / 1024, hN⟩ (1 : Fin 2) * 128 ≤ (i 1).val ∧ (i 1).val < win0_6.index ⟨(i 0).val / 1024, hN⟩ (1 : Fin 2) * 128 + 128; omega

/-- The region's output array after the run is the folded result. -/
theorem final_out : (dats m 0 c).arrAt 6 cfg0.N = foldedOut m c :=
  (dats m 0 c).arrAt_eq_of_cover 6 (foldedOut m c) (fun t _ => flushed_out m c hga hcw hidx t) (covered_out m c hga hcw hidx)

/-- The host line after the region unfolds the rows: the program's result is the specification. -/
theorem tail_out :
    Pipeline.afterTail₀ cfgs (dats m) 0 (V0 m) [hostOps1] c main_v83
      = Cert.Spec.result (ga m c) (cw m c) (idx m c) (sb m c) := by
  have hshape : Pipeline.afterTail₀ cfgs (dats m) 0 (V0 m) [hostOps1] c main_v83
      = shapeCast S131072x64 ((dats m 0 c).arrAt 6 cfg0.N) shapeCasts_S65536x128_S131072x64 := by
    unfold Pipeline.afterTail₀
    show StableHlo.after hostOps1 _ (Proc.devRef .tc main_v83) = _
    after_results
    rw [Pipeline.withArrays_arr spec0 launch0.win.arr_inj c _ _ 6]
    rfl
  rw [hshape, final_out m c hga hcw hidx]
  funext i
  obtain ⟨b, p, rfl⟩ : ∃ (b : Fin 131072) (p : Fin 64), i = ix2 b p := ⟨i 0, i 1, eq_ix2 i⟩
  have hb : b.val / 2 < 65536 := by have := b.isLt; omega
  have hp : (b.val % 2) * 64 + p.val < 128 := by have := p.isLt; omega
  rw [shapeCast_apply _ _ _ (ix2 (⟨b.val / 2, hb⟩ : Fin 65536) (⟨(b.val % 2) * 64 + p.val, hp⟩ : Fin 128))
    (by show (S65536x128.rowMajor _).val = (S131072x64.rowMajor _).val
        rw [Shape.rowMajor_val_two, Shape.rowMajor_val_two]; show (b.val / 2) * 128 + ((b.val % 2) * 64 + p.val) = b.val * 64 + p.val; omega)]
  rw [Cert.Spec.result_apply]
  unfold foldedOut
  congr 1
  · apply Fin.ext; show 2 * (b.val / 2) + ((b.val % 2) * 64 + p.val) / 64 = b.val; have := p.isLt; omega
  · apply Fin.ext; show ((b.val % 2) * 64 + p.val) % 64 = p.val; have := p.isLt; omega

end

/-- The kernel's program at the ideal values, run from arrays of real atoms and weights and in-range index words: it
    ends with its result array at the specification of the four arguments, and the arguments as launched. -/
theorem run_value (hga : ∀ c i, IsReal (ga m c i)) (hcw : ∀ c i, IsReal (cw m c i))
    (hidx : ∀ c i, 0 ≤ (idx m c i).toInt ∧ (idx m c i).toInt < 64) :
    θ_run defs (onTc (τ := τ) (main (F := Ideal))) ⟨m, fun _ => 0, ρ⟩ (fun r => ∀ c : Dev nD,
      r.2.mem ((c.tc : Thread nD τ).loc main_v83) = Cert.Spec.result (ga m c) (cw m c) (idx m c) (sb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v83 (Pipeline.mem_restRefs_of main_v83 (by decide) (by decide))).trans (tail_out m c (hga c) (hcw c) (hidx c)),
     ((h c).2 main_arg0 (Pipeline.mem_restRefs_of main_arg0 (by decide) (by decide))).trans (W_main_arg0 m c),
     ((h c).2 main_arg1 (Pipeline.mem_restRefs_of main_arg1 (by decide) (by decide))).trans (W_main_arg1 m c),
     ((h c).2 main_arg2 (Pipeline.mem_restRefs_of main_arg2 (by decide) (by decide))).trans (W_main_arg2 m c),
     ((h c).2 main_arg3 (Pipeline.mem_restRefs_of main_arg3 (by decide) (by decide))).trans (W_main_arg3 m c)⟩) (run_main m ρ)

end Cert.KernelIdeal.Hand

end
-- ==== Proof.LibScatterRows.lean ====
/-
  A scatter-add of rows read at an index, on the extended reals.

  Updates [M, C] are added into an operand [R, C]: row p of the updates goes to the operand row named by start index
  p — a column [M, 1] of words read as signed integers and not clamped — and keeps its column; a row whose index falls
  outside the operand is dropped. At (n, o) the result is the operand there plus the sum, over the update rows whose
  index is n, of the update at (p, o).
-/
import Idealize.ShloMosaic.PureOps.Ideal
import Idealize.ShloMosaic.PureOps.Contract
import Idealize.ShloMosaic.Lib.ValueIdx

noncomputable section

open scoped BigOperators

namespace Cert.ScatterRows

open Idealize.ShloMosaic Idealize.ShloMosaic.ValueIdx

/-- The dimension numbers of a scatter-add of rows, opened: operand [R, C], a column [M, 1] of start indices, updates
    [M, C]; the update's column axis is its one window axis, the operand's row axis is the one inserted axis and the one
    axis a start index names, and the index vector lies along the indices' second axis. -/
abbrev scatterRowsDims {R C M : Nat}
    (wf : ScatterDims.WF ⟨2, ![R, C]⟩ ⟨2, ![M, 1]⟩ ⟨2, ![M, C]⟩ [1] [0] [0] 1) :
    ScatterDims ⟨2, ![R, C]⟩ ⟨2, ![M, 1]⟩ ⟨2, ![M, C]⟩ where
  updateWindowDims := [1]
  insertedWindowDims := [0]
  scatterDimsToOperandDims := [0]
  indexVectorDim := 1
  wf := wf

/-- On the row axis the window of update (p, q) starts at start index p, read signed and not clamped. -/
theorem scatterRows_start0 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (0 : Fin 2) = (idx (ix2 p (0 : Fin 1))).toInt := by
  have hm : (0 : Fin 2) ∈ (scatterRowsDims wf).scatterDimsToOperandDims := by
    show (0 : Fin 2) ∈ ([0] : List (Fin 2)); decide
  unfold ScatterDims.start
  rw [dif_pos hm]
  have hsi : (scatterRowsDims wf).siIdx (ix2 p q) ⟨List.idxOf (0 : Fin 2) (scatterRowsDims wf).scatterDimsToOperandDims,
      List.idxOf_lt_length_iff.2 hm⟩ = ix2 p (0 : Fin 1) := by
    funext b; refine Fin.ext ?_
    match b with
    | ⟨0, _⟩ => rfl
    | ⟨1, _⟩ => rfl
  rw [hsi]

/-- On the column axis no start index is named: the window of update (p, q) starts at 0. -/
theorem scatterRows_start1 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (1 : Fin 2) = 0 := by
  have hm : (1 : Fin 2) ∉ (scatterRowsDims wf).scatterDimsToOperandDims := by
    show (1 : Fin 2) ∉ ([0] : List (Fin 2)); decide
  unfold ScatterDims.start
  rw [dif_neg hm]

/-- The row axis is inserted: the window coordinate of update (p, q) there is 0. -/
theorem scatterRows_window0 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (0 : Fin 2) = 0 := by
  have hk : (0 : Fin 2) ∉ (scatterRowsDims wf).sKept := by
    show (0 : Fin 2) ∉ ((List.finRange 2).filter (fun a => a ∉ ([0] : List (Fin 2)))); decide
  unfold ScatterDims.window
  rw [dif_neg hk]

/-- The column axis is the one window axis: the window coordinate of update (p, q) there is q. -/
theorem scatterRows_window1 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (1 : Fin 2) = q.val := by
  have hk : (1 : Fin 2) ∈ (scatterRowsDims wf).sKept := by
    show (1 : Fin 2) ∈ ((List.finRange 2).filter (fun a => a ∉ ([0] : List (Fin 2)))); decide
  unfold ScatterDims.window
  rw [dif_pos hk]
  rfl

/-- Update (p, q) lands on operand element (n, o) exactly when start index p, read signed, is n and q is o: on the row
    axis the landing coordinate is the start index (which must lie in [0, R) to land at all), on the column axis it is
    q. -/
theorem scatterRows_resultIdx_iff {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) (n : Fin R) (o : Fin C) :
    (scatterRowsDims wf).resultIdx? (ix2 p q) idx = some (ix2 n o)
      ↔ (idx (ix2 p (0 : Fin 1))).toInt = (n.val : Int) ∧ q = o := by
  have h0 : (scatterRowsDims wf).start (ix2 p q) idx (0 : Fin 2) + (scatterRowsDims wf).window (ix2 p q) (0 : Fin 2)
      = (idx (ix2 p (0 : Fin 1))).toInt := by
    rw [scatterRows_start0, scatterRows_window0]; simp
  have h1 : (scatterRowsDims wf).start (ix2 p q) idx (1 : Fin 2) + (scatterRowsDims wf).window (ix2 p q) (1 : Fin 2)
      = (q.val : Int) := by
    rw [scatterRows_start1, scatterRows_window1]; simp
  unfold ScatterDims.resultIdx?
  constructor
  · intro h
    split_ifs at h with hc
    have e := Option.some.inj h
    have e0 : ((scatterRowsDims wf).start (ix2 p q) idx (0 : Fin 2)
        + (scatterRowsDims wf).window (ix2 p q) (0 : Fin 2)).toNat = n.val := congrArg Fin.val (congrFun e (0 : Fin 2))
    have e1 : ((scatterRowsDims wf).start (ix2 p q) idx (1 : Fin 2)
        + (scatterRowsDims wf).window (ix2 p q) (1 : Fin 2)).toNat = o.val := congrArg Fin.val (congrFun e (1 : Fin 2))
    have c0 := (hc (0 : Fin 2)).1
    rw [h0] at e0 c0
    rw [h1] at e1
    refine ⟨by omega, Fin.ext (by omega)⟩
  · rintro ⟨hn, rfl⟩
    have hc : ∀ a : Fin 2, 0 ≤ (scatterRowsDims wf).start (ix2 p q) idx a + (scatterRowsDims wf).window (ix2 p q) a
        ∧ (scatterRowsDims wf).start (ix2 p q) idx a + (scatterRowsDims wf).window (ix2 p q) a
          < (⟨2, ![R, C]⟩ : Shape).size a := by
      intro a
      match a with
      | ⟨0, _⟩ =>
        show 0 ≤ (scatterRowsDims wf).start (ix2 p q) idx (0 : Fin 2) + (scatterRowsDims wf).window (ix2 p q) (0 : Fin 2)
          ∧ (scatterRowsDims wf).start (ix2 p q) idx (0 : Fin 2) + (scatterRowsDims wf).window (ix2 p q) (0 : Fin 2)
            < (R : Int)
        rw [h0, hn]; have := n.isLt; omega
      | ⟨1, _⟩ =>
        show 0 ≤ (scatterRowsDims wf).start (ix2 p q) idx (1 : Fin 2) + (scatterRowsDims wf).window (ix2 p q) (1 : Fin 2)
          ∧ (scatterRowsDims wf).start (ix2 p q) idx (1 : Fin 2) + (scatterRowsDims wf).window (ix2 p q) (1 : Fin 2)
            < (C : Int)
        rw [h1]; have := q.isLt; omega
    rw [dif_pos hc]
    congr 1
    funext a
    refine Fin.ext ?_
    match a with
    | ⟨0, _⟩ =>
      show ((scatterRowsDims wf).start (ix2 p q) idx (0 : Fin 2)
        + (scatterRowsDims wf).window (ix2 p q) (0 : Fin 2)).toNat = n.val
      rw [h0, hn]; rfl
    | ⟨1, _⟩ =>
      show ((scatterRowsDims wf).start (ix2 p q) idx (1 : Fin 2)
        + (scatterRowsDims wf).window (ix2 p q) (1 : Fin 2)).toNat = q.val
      rw [h1]; rfl

/-- THE SCATTER-ADD OF ROWS at (n, o). The four hypotheses are the printed dimension numbers, each by `rfl`. -/
theorem scatter_rows_apply {R C M : Nat} (d : ScatterDims ⟨2, ![R, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![R, C]⟩ : Shape).Idx → EReal) (idx : IVec ⟨2, ![M, 1]⟩ 32) (upd : (⟨2, ![M, C]⟩ : Shape).Idx → EReal)
    (n : Fin R) (o : Fin C) :
    Host.scatterAdd (F := Ideal) (φ := .f32) d x idx upd (ix2 n o)
      = x (ix2 n o) + ∑ p ∈ Finset.univ.filter (fun p : Fin M => (idx (ix2 p (0 : Fin 1))).toInt = (n.val : Int)),
          upd (ix2 p o) := by
  obtain ⟨uw, iw, sd, iv, wf⟩ := d
  dsimp only at huw hiw hsd hiv
  subst huw hiw hsd hiv
  show Ideal.hostScatterAdd (scatterRowsDims wf) x idx upd (ix2 n o) = _
  unfold Ideal.hostScatterAdd
  congr 1
  -- both filtered sums become sums of guarded terms; the sum over update indices is the double sum over (p, q)
  rw [Finset.sum_filter, Finset.sum_filter, sum_idx2]
  refine Finset.sum_congr rfl fun p _ => ?_
  -- row p: the guard on (p, q) is "start index p is n, and q = o"; the inner sum over q keeps the one term q = o
  simp only [scatterRows_resultIdx_iff]
  by_cases hp : (idx (ix2 p (0 : Fin 1))).toInt = (n.val : Int)
  · simp only [hp, true_and, if_true]
    exact (Finset.sum_ite_eq' Finset.univ o fun q => upd (ix2 p q)).trans (if_pos (Finset.mem_univ o))
  · simp only [hp, false_and, if_false]
    exact Finset.sum_const_zero

end Cert.ScatterRows

end
-- ==== Proof.RefValue.lean ====
/-
  The reference program's result is the specification function of its four argument arrays.

  The reference turns each bit into the sign 2·bit − 1, gathers for every literal (c, l) the column of the atoms its
  index word names (a word in [0, 64) is not negative, so the wrap by +64 leaves it alone, and the clamp into [0, 63]
  does too), multiplies by the sign, and takes the softmax of a clause's three literals: a max-reduce from −∞ (the
  maximum of the three), a maximum with −∞ again (no change), the shifted exponentials, their sum from zero, the
  quotient. Times sign · clipped weight this is a literal's contribution. The [131072, 128, 3] contributions are
  flattened to [131072, 384] — literal l of clause c is column 3c + l —, transposed, and added into a zero
  [64, 131072] array, row 3c + l going to the row its raw index word names; the transpose back is the result. At
  (b, p) that is the sum, over the rows whose word read signed is p, of the row's entry at b; read over the pairs
  (c, l) and with the words not negative, it is the sum of the contributions of the literals whose word is p.
-/
import proofs.«409075_j43920335569479_3_alg».proof.Proof.Gen.ReferenceIdeal.Read
import proofs.«409075_j43920335569479_3_alg».proof.Proof.Spec
import proofs.«409075_j43920335569479_3_alg».proof.Proof.LibScatterRows
import Idealize.ShloMosaic.Lib.ValueIdx
import Idealize.ShloMosaic.PureOps.Reduce

noncomputable section

open scoped BigOperators

namespace Cert.RefValue

open Cert.ReferenceIdeal Cert.ReferenceIdeal.Gen Cert.ReferenceIdeal.Read
open Idealize.ShloMosaic Idealize.ShloMosaic.ValueIdx Idealize.ShloMosaic.StableHlo
open Cert.Spec

variable (x0 : (⟨S131072x64, .f32⟩ : BufTy).Contents (Elt Ideal)) (x1 : (⟨S128, .f32⟩ : BufTy).Contents (Elt Ideal))
  (x2 x3 : (⟨S128x3, .i32⟩ : BufTy).Contents (Elt Ideal))

/-! ## Words and constants -/

/-- A word whose signed reading is not negative reads the same signed and unsigned. -/
theorem toInt_eq_toNat_of_nonneg (w : BitVec 32) (h : 0 ≤ w.toInt) : w.toInt = (w.toNat : Int) := by
  have hlt := w.isLt
  rw [BitVec.toInt_eq_toNat_cond] at h ⊢
  split_ifs at h ⊢ with hc
  · rfl
  · omega

/-- The word of negative infinity is the bottom of the extended reals. -/
theorem ninf_eq_bot : Ideal.ofBits .f32 0xFF800000#32 = (⊥ : EReal) := by
  simp [Ideal.ofBits, Ideal.ieee]

/-- The word of positive zero is zero. -/
theorem zero_bits : Ideal.ofBits .f32 0x00000000#32 = (0 : EReal) := by
  simp [Ideal.ofBits, Ideal.ieee]

/-! ## Signs and weights -/

/-- The sign array at (c, l): the word 2·bit − 1 read signed, as a real. -/
theorem signs_apply (c : Fin 128) (l : Fin 3) :
    val_main_v4 (F := Ideal) x3 (ix2 c l) = sgn (x3 (ix2 c l)) := by
  rw [val_main_v4_apply, val_main_v3_apply, val_main_v1_apply, val_main_v0_apply, val_main_v2_apply,
    val_main_c_apply, val_main_c_0_apply]
  rfl

/-- The clipped weights at c: the weight held between 0 and 500. -/
theorem weight_apply (c : Fin 128) :
    val_main_v15 (F := Ideal) x1 (ix1 c) = wt (x1 (ix1 c)) := by
  rw [val_main_v15_apply, val_main_call0_v4_apply, val_main_call0_v3_apply, val_main_cst_3_apply,
    val_main_call0_v2_apply, val_main_call0_v1_apply, val_main_call0_v0_apply, val_main_cst_apply]
  rfl

/-- The scale array, broadcast over the groundings, at (b, c, l): sign times clipped weight. -/
theorem scale_apply (b : Fin 131072) (c : Fin 128) (l : Fin 3) :
    val_main_v31 (F := Ideal) x1 x3 (ix3 b c l) = sgn (x3 (ix2 c l)) * wt (x1 (ix1 c)) := by
  rw [val_main_v31_apply, val_main_v19_apply, val_main_v16_apply, val_main_v18_apply, val_main_v17_apply]
  have e1 : idx_main_v16 (idx_main_v31 (ix3 b c l)) = ix2 c l := by
    funext a; match a with | ⟨0, _⟩ => rfl | ⟨1, _⟩ => rfl
  have e2 : idx_main_v17 (idx_main_v18 (idx_main_v31 (ix3 b c l))) = ix1 c := by
    funext a; match a with | ⟨0, _⟩ => rfl
  rw [e1, e2, signs_apply, weight_apply]
  rfl

/-! ## The column gather -/

/-- An index word in [0, 64) is not below zero, so the wrap by +64 leaves it alone. -/
theorem wrapped_apply (hidx : ∀ i, 0 ≤ (x2 i).toInt ∧ (x2 i).toInt < 64) (c : Fin 128) (l : Fin 3) :
    val_main_v10 (F := Ideal) x2 (ix3 c l (0 : Fin 1)) = x2 (ix2 c l) := by
  rw [val_main_v10_apply]
  have e1 : idx_main_v10 (ix3 c l (0 : Fin 1)) = ix2 c l := by
    funext a; match a with | ⟨0, _⟩ => rfl | ⟨1, _⟩ => rfl
  rw [e1, val_main_v9_apply, val_main_v6_apply, val_main_v5_apply, val_main_c_1_apply]
  have h := (hidx (ix2 c l)).1
  have hs : (x2 (ix2 c l)).slt 0#32 = false := by
    simp only [BitVec.slt, BitVec.toInt_zero]
    exact decide_eq_false (by omega)
  have hc : IntOp.cmpi .slt (x2 (ix2 c l)) 0#32 = 0#1 := by
    unfold IntOp.cmpi; simp only [hs]; rfl
  rw [hc, select_zero]

/-- The gather's dimension numbers: the whole grounding axis is the one offset axis, the predicate axis is collapsed
    and is the one axis a start index names. -/
abbrev colGather := gather_S131072x64_S128x3x1_S131072x128x3_0_1_n_n_1_2_1310721

/-- On the grounding axis result element (b, c, l) reads row b: no start index, the offset coordinate is b. -/
theorem colGather_row (idx : IVec S128x3x1 32) (b : Fin 131072) (c : Fin 128) (l : Fin 3) :
    colGather.start (ix3 b c l) idx 0 + colGather.batchCoord (ix3 b c l) 0 + colGather.offCoord (ix3 b c l) 0
      = b.val := by
  have h0 : (0 : Fin 2) ∉ colGather.startIndexMap := by show (0 : Fin 2) ∉ ([1] : List (Fin 2)); decide
  have hk : (0 : Fin 2) ∈ colGather.sKept := by
    rw [GatherDims.mem_sKept]
    exact ⟨by show (0 : Fin 2) ∉ ([1] : List (Fin 2)); decide, List.not_mem_nil⟩
  rw [GatherDims.batchCoord_eq_zero _ _ _ List.not_mem_nil]
  unfold GatherDims.start GatherDims.offCoord
  rw [dif_neg h0, dif_pos hk]
  simp only [Nat.zero_add]
  rfl

/-- On the predicate axis result element (b, c, l) reads the column start index (c, l, 0) names, read signed and
    clamped into [0, 63]. -/
theorem colGather_col (idx : IVec S128x3x1 32) (b : Fin 131072) (c : Fin 128) (l : Fin 3) :
    colGather.start (ix3 b c l) idx 1 + colGather.batchCoord (ix3 b c l) 1 + colGather.offCoord (ix3 b c l) 1
      = min (idx (ix3 c l (0 : Fin 1))).toInt.toNat 63 := by
  have h1 : (1 : Fin 2) ∈ colGather.startIndexMap := by show (1 : Fin 2) ∈ ([1] : List (Fin 2)); decide
  have hk : (1 : Fin 2) ∉ colGather.sKept := by
    rw [GatherDims.mem_sKept]
    exact fun h => h.1 (by show (1 : Fin 2) ∈ ([1] : List (Fin 2)); decide)
  rw [GatherDims.batchCoord_eq_zero _ _ _ List.not_mem_nil, GatherDims.offCoord_eq_zero _ _ _ hk]
  simp only [Nat.add_zero]
  unfold GatherDims.start
  rw [dif_pos h1]
  have hsi : colGather.siIdx (ix3 b c l) ⟨List.idxOf (1 : Fin 2) colGather.startIndexMap,
      List.idxOf_lt_length_iff.2 h1⟩ = ix3 c l (0 : Fin 1) := by
    funext d; refine Fin.ext ?_
    match d with
    | ⟨0, _⟩ => rfl
    | ⟨1, _⟩ => rfl
    | ⟨2, _⟩ => rfl
  rw [hsi]
  rfl

/-- The gathered atoms at (b, c, l): the atom of grounding b at the predicate literal (c, l) names. -/
theorem gather_apply (hidx : ∀ i, 0 ≤ (x2 i).toInt ∧ (x2 i).toInt < 64) (b : Fin 131072) (c : Fin 128) (l : Fin 3) :
    val_main_v11 (F := Ideal) x0 x2 (ix3 b c l) = x0 (ix2 b (colOf (x2 (ix2 c l)))) := by
  unfold val_main_v11 Host.gather
  congr 1
  funext a
  refine Fin.ext ?_
  match a with
  | ⟨0, _⟩ => exact colGather_row _ b c l
  | ⟨1, _⟩ =>
    refine (colGather_col _ b c l).trans ?_
    rw [wrapped_apply x2 hidx]
    have h := hidx (ix2 c l)
    have e := toInt_eq_toNat_of_nonneg _ h.1
    show min (x2 (ix2 c l)).toInt.toNat 63 = (x2 (ix2 c l)).toNat % 64
    omega

/-! ## The softmax of a clause -/

/-- The signed pre-activations at (b, c, l). -/
theorem lit_apply (hidx : ∀ i, 0 ≤ (x2 i).toInt ∧ (x2 i).toInt < 64) (b : Fin 131072) (c : Fin 128) (l : Fin 3) :
    val_main_v14 (F := Ideal) x0 x2 x3 (ix3 b c l) = lit x0 x2 x3 b c l := by
  rw [val_main_v14_apply, val_main_v13_apply, val_main_v12_apply]
  have e : idx_main_v12 (idx_main_v13 (ix3 b c l)) = ix2 c l := by
    funext a; match a with | ⟨0, _⟩ => rfl | ⟨1, _⟩ => rfl
  rw [e, signs_apply, gather_apply x0 x2 hidx]
  rfl

/-- Putting the literal coordinate k back into the reduced index (b, c) gives (b, c, k). -/
theorem lift_last (hR : S131072x128x3.Reduces [2] S131072x128) (b : Fin 131072) (c : Fin 128)
    (k : Fin (S131072x128x3.size 2)) : hR.lift (ix2 b c) k = ix3 b c (⟨k.val, k.isLt⟩ : Fin 3) := by
  funext d; apply Fin.ext
  fin_cases d <;> rfl

theorem univ_three : (Finset.univ : Finset (Fin 3)) = insert 0 (insert 1 {2}) := by decide

/-- From the bottom element a fold of the maximum over three entries is their maximum. -/
theorem fold_max_three (f : Fin 3 → EReal) :
    (Finset.univ : Finset (Fin 3)).fold max ⊥ f = max (max (f 0) (f 1)) (f 2) := by
  rw [univ_three, Finset.fold_insert (by decide), Finset.fold_insert (by decide), Finset.fold_singleton,
    max_bot_right, max_assoc]

/-- The clause maximum at (b, c): the max-reduce from −∞ over the three literals, then the maximum with −∞ again. -/
theorem top_apply (hidx : ∀ i, 0 ≤ (x2 i).toInt ∧ (x2 i).toInt < 64) (b : Fin 131072) (c : Fin 128) :
    val_main_v22 (F := Ideal) x0 x2 x3 (ix2 b c) = top x0 x2 x3 b c := by
  have hR : S131072x128x3.Reduces [2] S131072x128 := by decide
  rw [val_main_v22_apply, val_main_v21_apply, val_main_cst_5_apply]
  unfold val_main_v20
  rw [Host.reduce_eq_fold_single FloatOps.maximumf _ _ reducesTo_S131072x128x3_S131072x128_d2 hR h_S_]
  have hf : (val_main_v14 (F := Ideal) x0 x2 x3 ∘ hR.lift (ix2 b c)) = fun k : Fin 3 => lit x0 x2 x3 b c k :=
    funext fun k => (congrArg _ (lift_last hR b c k)).trans (lit_apply x0 x2 x3 hidx b c _)
  rw [hf, val_main_cst_4_apply]
  show max (Ideal.ofBits .f32 0xFF800000#32)
    ((Finset.univ : Finset (Fin 3)).fold max (Ideal.ofBits .f32 0xFF800000#32) fun k => lit x0 x2 x3 b c k) = _
  rw [ninf_eq_bot, fold_max_three, max_bot_left]
  rfl

/-- The shifted exponentials at (b, c, l). -/
theorem ex_apply (hidx : ∀ i, 0 ≤ (x2 i).toInt ∧ (x2 i).toInt < 64) (b : Fin 131072) (c : Fin 128) (l : Fin 3) :
    val_main_v26 (F := Ideal) x0 x2 x3 (ix3 b c l) = ex x0 x2 x3 b c l := by
  rw [val_main_v26_apply, val_main_v25_apply, lit_apply x0 x2 x3 hidx, val_main_v24_apply, val_main_v23_apply]
  have e : idx_main_v23 (idx_main_v24 (ix3 b c l)) = ix2 b c := by
    funext a; match a with | ⟨0, _⟩ => rfl | ⟨1, _⟩ => rfl
  rw [e, top_apply x0 x2 x3 hidx]
  rfl

/-- The softmax denominator at (b, c): zero plus the three shifted exponentials. -/
theorem den_apply (hidx : ∀ i, 0 ≤ (x2 i).toInt ∧ (x2 i).toInt < 64) (b : Fin 131072) (c : Fin 128) :
    val_main_v27 (F := Ideal) x0 x2 x3 (ix2 b c) = den x0 x2 x3 b c := by
  rw [val_main_v27_apply, val_main_cst_6_apply]
  have e : ∀ k : Fin 3, idx_main_v27 (ix2 b c) k = ix3 b c k := fun k => by
    funext a; match a with | ⟨0, _⟩ => rfl | ⟨1, _⟩ => rfl | ⟨2, _⟩ => rfl
  simp only [e, ex_apply x0 x2 x3 hidx]
  rw [Fin.sum_univ_three]
  show Ideal.ofBits .f32 0x00000000#32 + _ = _
  rw [zero_bits, zero_add]
  rfl

/-- The weighted softmax at (b, c, l) is the literal's contribution. -/
theorem delta_apply (hidx : ∀ i, 0 ≤ (x2 i).toInt ∧ (x2 i).toInt < 64) (b : Fin 131072) (c : Fin 128) (l : Fin 3) :
    val_main_v32 (F := Ideal) x0 x1 x2 x3 (ix3 b c l) = delta x0 x1 x2 x3 b c l := by
  rw [val_main_v32_apply, scale_apply, val_main_v30_apply, ex_apply x0 x2 x3 hidx, val_main_v29_apply,
    val_main_v28_apply]
  have e : idx_main_v28 (idx_main_v29 (ix3 b c l)) = ix2 b c := by
    funext a; match a with | ⟨0, _⟩ => rfl | ⟨1, _⟩ => rfl
  rw [e, den_apply x0 x2 x3 hidx]
  rfl

/-! ## The scatter-add of the 384 literal rows -/

/-- The row of the flattened [384] literal axis that literal l of clause c takes: 3c + l. -/
abbrev rowOf (c : Fin 128) (l : Fin 3) : Fin 384 := ⟨3 * c.val + l.val, by omega⟩

/-- The 384 rows are the pairs (clause, literal), row-major. -/
def rowEquiv : Fin 128 × Fin 3 ≃ Fin 384 where
  toFun q := rowOf q.1 q.2
  invFun r := (⟨r.val / 3, by omega⟩, ⟨r.val % 3, by omega⟩)
  left_inv q := by
    obtain ⟨c, l⟩ := q
    refine Prod.ext (Fin.ext ?_) (Fin.ext ?_)
    · show (3 * c.val + l.val) / 3 = c.val; omega
    · show (3 * c.val + l.val) % 3 = l.val; omega
  right_inv r := by
    refine Fin.ext ?_
    show 3 * (r.val / 3) + r.val % 3 = r.val; omega

/-- The index column at row 3c + l is the raw index word of literal (c, l). -/
theorem index_apply (c : Fin 128) (l : Fin 3) :
    val_main_v37 (F := Ideal) x2 (ix2 (rowOf c l) (0 : Fin 1)) = x2 (ix2 c l) := by
  rw [val_main_v37_apply, val_main_v34_apply]
  congr 1
  funext a
  refine Fin.ext ?_
  match a with
  | ⟨0, _⟩ => show (3 * c.val + l.val) / 3 = c.val; omega
  | ⟨1, _⟩ => show (3 * c.val + l.val) % 3 = l.val; omega

/-- The transposed, flattened contributions at (3c + l, b): the contribution of literal (c, l) at grounding b. -/
theorem row_apply (hidx : ∀ i, 0 ≤ (x2 i).toInt ∧ (x2 i).toInt < 64) (b : Fin 131072) (c : Fin 128) (l : Fin 3) :
    val_main_v35 (F := Ideal) x0 x1 x2 x3 (ix2 (rowOf c l) b) = delta x0 x1 x2 x3 b c l := by
  rw [val_main_v35_apply, val_main_v33_apply]
  have e : idx_main_v33 (idx_main_v35 (ix2 (rowOf c l) b)) = ix3 b c l := by
    funext a
    refine Fin.ext ?_
    have hc := c.isLt; have hl := l.isLt
    match a with
    | ⟨0, _⟩ => show (b.val * 384 + (3 * c.val + l.val)) / 384 = b.val; omega
    | ⟨1, _⟩ => show (b.val * 384 + (3 * c.val + l.val)) / 3 % 128 = c.val; omega
    | ⟨2, _⟩ => show (b.val * 384 + (3 * c.val + l.val)) % 3 = l.val; omega
  rw [e, delta_apply x0 x1 x2 x3 hidx]

/-- THE REFERENCE'S RESULT is the specification's: at (b, p) the scatter-add into zeros collects the rows whose index
    word, read signed, is p; over the pairs (clause, literal) these are the literals naming predicate p. -/
theorem ref_result (x0 : (⟨S131072x64, .f32⟩ : BufTy).Contents (Elt Ideal)) (x1 : (⟨S128, .f32⟩ : BufTy).Contents (Elt Ideal))
    (x2 x3 : (⟨S128x3, .i32⟩ : BufTy).Contents (Elt Ideal))
    (hidx : ∀ i, 0 ≤ (x2 i).toInt ∧ (x2 i).toInt < 64) :
    Cert.ReferenceIdeal.Read.val_main_v39 (F := Ideal) x0 x1 x2 x3 = Cert.Spec.result x0 x1 x2 x3 := by
  funext i
  obtain ⟨b, p, rfl⟩ : ∃ (b : Fin 131072) (p : Fin 64), i = ix2 b p := ⟨i 0, i 1, eq_ix2 i⟩
  rw [result_apply, val_main_v39_apply]
  have e : idx_main_v39 (ix2 b p) = ix2 p b := by
    funext a; match a with | ⟨0, _⟩ => rfl | ⟨1, _⟩ => rfl
  rw [e]
  unfold val_main_v38
  refine (Cert.ScatterRows.scatter_rows_apply (R := 64) (C := 131072) (M := 384)
    scatter_S64x131072_S384x1_S384x131072_1_0_0_1 rfl rfl rfl rfl _ _ _ p b).trans ?_
  rw [val_main_v36_apply, val_main_cst_7_apply]
  show Ideal.ofBits .f32 0x00000000#32 + _ = _
  rw [zero_bits, zero_add, Finset.sum_filter, ← Equiv.sum_comp rowEquiv, Fintype.sum_prod_type]
  unfold out
  refine Finset.sum_congr rfl fun c _ => Finset.sum_congr rfl fun l _ => ?_
  show (if (val_main_v37 (F := Ideal) x2 (ix2 (rowOf c l) (0 : Fin 1))).toInt = (p.val : Int)
    then val_main_v35 (F := Ideal) x0 x1 x2 x3 (ix2 (rowOf c l) b) else 0) = _
  rw [index_apply, row_apply x0 x1 x2 x3 hidx]
  have h := toInt_eq_toNat_of_nonneg _ (hidx (ix2 c l)).1
  refine if_congr ?_ rfl rfl
  rw [h]
  exact Int.ofNat_inj

end Cert.RefValue

end
-- ==== Proof.PreFacts.lean ====
import proofs.«409075_j43920335569479_3_alg».proof.Pre_finite_inputs
import proofs.«409075_j43920335569479_3_alg».proof.Proof.LibERealSage
import Idealize.ShloMosaic.Lib.ReduceAll
import Idealize.ShloMosaic.Lib.Affine
import Idealize.ShloMosaic.Lib.StableHlo.Predicate

/-!
# What the precondition says of the argument arrays

The precondition is the conjunction of four "for all elements" statements, each printed as a
reduction by `and` of an elementwise comparison into a rank-0 result:

* `|arg0| < +∞` everywhere and `|arg1| < +∞` everywhere (the comparison is against the f32
  pattern of `+∞`),
* `arg2 ≥ 0` everywhere and `arg2 < 64` everywhere (signed comparisons of 32-bit words against a
  broadcast scalar).

Read back: every element of `arg0` and of `arg1` is a real number, and every word of `arg2`,
read signed, lies in `[0, 64)`.
-/

namespace Cert.PreFacts

open Idealize.ShloMosaic
open Cert.Pre_finite_inputs Cert.LibERealSage

/-- The rank-0 shape has one index. -/
instance subsingleton_scalar_idx : Subsingleton S_.Idx := ⟨fun a b => funext fun d => d.elim0⟩

/-- The f32 pattern `0x7F800000` denotes `+∞`. -/
theorem inf_pattern : Ideal.ofBits .f32 0x7F800000#32 = (⊤ : EReal) := by
  simp [Ideal.ofBits, Ideal.ieee]

/-- An extended real whose absolute value `max x (-x)` lies strictly below `+∞` is a real number:
    `+∞` is its own absolute value, and the absolute value of `-∞` is `+∞` too. -/
theorem isReal_of_abs_lt_top (x : EReal) (h : max x (-x) < (⊤ : EReal)) : IsReal x := by
  induction x using EReal.rec with
  | bot => simp at h
  | coe r => exact ⟨r, rfl⟩
  | top => simp at h

/-- One element of the printed comparison `|x| < +∞` being set says that `x` is real. -/
theorem isReal_of_abs_cmp (x : Ideal .f32)
    (h : FloatOps.cmpf (F := Ideal) .olt (FloatOps.hostAbsf x) (FloatOps.ofBits .f32 0x7F800000#32) = 1#1) :
    IsReal x := by
  rw [Ideal.cmpf_def, Ideal.hostAbsf_def, Ideal.absf_def, Ideal.ofBits_def, inf_pattern] at h
  simp only [Ideal.cmp, StableHlo.Predicate.ofBool_eq_one_iff, decide_eq_true_eq] at h
  exact isReal_of_abs_lt_top x h

/-- A 32-bit word that compares signed-greater-or-equal to the zero word is nonnegative, read
    signed. -/
theorem toInt_nonneg_of_sge_zero (w : BitVec 32) (h : IntOp.cmpi .sge w 0#32 = 1#1) : 0 ≤ w.toInt := by
  have c := IntOp.cmpi_sge.1 h
  have z : (0#32 : BitVec 32).toInt = 0 := by decide
  rwa [z] at c

/-- A 32-bit word that compares signed-less than the word 64 is below 64, read signed. -/
theorem toInt_lt_of_slt_64 (w : BitVec 32) (h : IntOp.cmpi .slt w 64#32 = 1#1) : w.toInt < 64 := by
  have c := IntOp.cmpi_slt.1 h
  have z : (64#32 : BitVec 32).toInt = 64 := by decide
  rwa [z] at c

/-- THE PRECONDITION READ BACK. The printed predicate is 1 at its one index; `and` of words is 1
    exactly when both are, which splits the four conjuncts; each is an all-axes reduction by `and`
    that is 1, so the compared mask is 1 at every index; the broadcast scalar reads as itself at
    every index, so the mask's element is the scalar comparison of the array's element. -/
theorem of_pre [Cert.Pre_finite_inputs.Facts] (a0 : FVec Ideal S131072x64 .f32) (a1 : FVec Ideal S128 .f32) (a2 a3 : IVec S128x3 32)
    (h : Cert.Pre_finite_inputs.fn (F := Ideal) a0 a1 a2 a3 = fun _ => 1#1) :
    (∀ i, IsReal (a0 i)) ∧ (∀ i, IsReal (a1 i)) ∧ (∀ i, 0 ≤ (a2 i).toInt ∧ (a2 i).toInt < 64) := by
  have e := congrFun h (fun d => d.elim0)
  dsimp only [fn, fn_part1] at e
  simp only [andi, IntOp.andi_eq_one] at e
  obtain ⟨⟨⟨e0, e1⟩, e2⟩, e3⟩ := e
  refine ⟨fun i => ?_, fun i => ?_, fun i => ⟨?_, ?_⟩⟩
  · exact isReal_of_abs_cmp (a0 i) (Host.reduce_andi_all _ _ _ _ _ e0 i)
  · exact isReal_of_abs_cmp (a1 i) (Host.reduce_andi_all _ _ _ _ _ e1 i)
  · exact toInt_nonneg_of_sge_zero (a2 i) (Host.reduce_andi_all _ _ _ _ _ e2 i)
  · exact toInt_lt_of_slt_64 (a2 i) (Host.reduce_andi_all _ _ _ _ _ e3 i)

end Cert.PreFacts
-- ==== Proof.lean ====
/-
  The certificate's claim: three frames, the idealization's ledger, and the equality of the two idealized programs'
  results on the extended reals.

  The layer: atoms ga[b, p], clause weights cw[c], literals (c, l) naming a predicate idx[c, l] with a sign from a bit;
  a clause's three signed atoms go through a softmax, and each literal adds sign · clip(cw[c]) · softmax weight to the
  result at its predicate. The reference gathers, applies the softmax and scatter-adds by the index words. The kernel
  folds two groundings into a row of 128 lanes and does the gather and the scatter as two matrix products against
  one-hot tables built on the host, each value split into itself and (value − itself). The two agree where every atom and
  weight is a real number (then the low halves vanish and one-hot products select exactly) and every index word names a
  predicate, 0 ≤ idx < 64 (a word outside that range names no segment of the reference's scatter-add, which drops it, while
  the reference's gather still reads a wrapped or clamped column for it; the kernel's one-hot row for it is empty): the
  precondition says both.

  Frames: the kernel's two printed programs run through the one pipelined region by the body's triple and the launch
  theorem; the reference is a straight host line. The ledger's four entries are the identity of narrowing and widening
  at the ideal values.
-/
import proofs.«409075_j43920335569479_3_alg».proof.Defs
import proofs.«409075_j43920335569479_3_alg».proof.Proof.Gen.Kernel
import proofs.«409075_j43920335569479_3_alg».proof.Proof.Gen.KernelIdeal
import proofs.«409075_j43920335569479_3_alg».proof.Proof.Gen.ReferenceIdeal
import proofs.«409075_j43920335569479_3_alg».proof.Proof.Gen.Pre_finite_inputs
import proofs.«409075_j43920335569479_3_alg».proof.Proof.Gen.ReferenceIdeal.Run
import proofs.«409075_j43920335569479_3_alg».proof.Proof.Gen.ReferenceIdeal.Read
import proofs.«409075_j43920335569479_3_alg».proof.Proof.KFrameBits
import proofs.«409075_j43920335569479_3_alg».proof.Proof.KValue
import proofs.«409075_j43920335569479_3_alg».proof.Proof.RefValue
import proofs.«409075_j43920335569479_3_alg».proof.Proof.PreFacts
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel (hKernel := Cert.Kernel.Gen.facts) (hPre_finite_inputs := Cert.Pre_finite_inputs.Gen.facts) :=
  fun m ρ _ => Cert.Kernel.Hand.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference is a straight line of host operations: its run, the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ledger: narrowing to bf16 and widening back is the identity at the ideal values, at each of the four sites. -/
theorem preserves : Cert.preserves_Kernel_KernelIdeal :=
  ⟨IdealRules.truncf_extf.statement _ _ _, IdealRules.truncf_extf.statement _ _ _,
   IdealRules.truncf_extf.statement _ _ _, IdealRules.truncf_extf.statement _ _ _⟩

/-- Both idealized programs end at the layer's specification of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hp := fun c => Cert.PreFacts.of_pre _ _ _ _ (hpre c)
  refine ⟨fun c => Cert.Spec.result (Cert.KernelIdeal.Hand.ga m c) (Cert.KernelIdeal.Hand.cw m c)
      (Cert.KernelIdeal.Hand.idx m c) (Cert.KernelIdeal.Hand.sb m c), ?_, ?_⟩
  · exact Cert.KernelIdeal.Hand.run_value m ρ (fun c => (hp c).1) (fun c => (hp c).2.1) (fun c => (hp c).2.2)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v39_eq, (hagree c).1, (hagree c).2.1, (hagree c).2.2.1, (hagree c).2.2.2]
    exact Cert.RefValue.ref_result _ _ _ _ (hp c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
